-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x2048x20 : Shape := ⟨3, ![8, 2048, 20]⟩
abbrev S8x512x512 : Shape := ⟨3, ![8, 512, 512]⟩
abbrev S_ : Shape := ⟨0, ![]⟩
abbrev S8x2048x19 : Shape := ⟨3, ![8, 2048, 19]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S8x2048x20 : S_.BroadcastsInDim S8x2048x20 (![] : Fin 0 → Fin S8x2048x20.rank)
  reducesTo_S8x2048x20_S_d0_1_2 : S8x2048x20.ReducesTo [0, 1, 2] S_
  slices_S8x2048x20_S8x2048x19_0_0_0 : S8x2048x20.Slices ![0, 0, 0] S8x2048x19
  bcast_S_S8x2048x19 : S_.BroadcastsInDim S8x2048x19 (![] : Fin 0 → Fin S8x2048x19.rank)
  reducesTo_S8x2048x19_S_d0_1_2 : S8x2048x19.ReducesTo [0, 1, 2] S_
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_arg2 : IVec S8x512x512 32) (main_v8 : IVec S_ 1) (main_v16 : IVec S_ 1) : IVec S_ 1 :=
  let main_v17 : IVec S_ 1 := andi main_v8 main_v16
  let main_c_5 : IVec S_ 32 := constantI S_ 32 0#32
  let main_v18 : IVec S8x512x512 32 := broadcastInDim S8x512x512 ![] bcast_S_S8x512x512 main_c_5
  let main_v19 : IVec S8x512x512 1 := cmpi .sge main_arg2 main_v18
  let main_c_6 : IVec S_ 32 := constantI S_ 32 2048#32
  let main_v20 : IVec S8x512x512 32 := broadcastInDim S8x512x512 ![] bcast_S_S8x512x512 main_c_6
  let main_v21 : IVec S8x512x512 1 := cmpi .slt main_arg2 main_v20
  let main_v22 : IVec S8x512x512 1 := andi main_v19 main_v21
  let main_c_7 : IVec S_ 1 := constantI S_ 1 1#1
  let main_v23 : IVec S_ 1 := (fun x v => Host.reduce IntOp.andi x v reducesTo_S8x512x512_S_d0_1_2 h_S_) main_v22 main_c_7
  let main_v24 : IVec S_ 1 := andi main_v17 main_v23
  main_v24

def fn {F : FTy → Type} [FloatOps F] (main_arg0 : FVec F S8x19x512x512 .f32) (main_arg1 : FVec F S8x2048x20 .f32) (main_arg2 : IVec S8x512x512 32) (main_arg3 : IVec S8x512x512 1) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_v4 : FVec F S8x2048x20 .f32 := Host.absf main_arg1
  let main_cst_0 : FVec F S_ .f32 := constant S_ .f32 0x7F800000#32
  let main_v5 : FVec F S8x2048x20 .f32 := broadcastInDim S8x2048x20 ![] bcast_S_S8x2048x20 main_cst_0
  let main_v6 : IVec S8x2048x20 1 := cmpf .olt main_v4 main_v5
  let main_c_1 : IVec S_ 1 := constantI S_ 1 1#1
  let main_v7 : IVec S_ 1 := (fun x v => Host.reduce IntOp.andi x v reducesTo_S8x2048x20_S_d0_1_2 h_S_) main_v6 main_c_1
  let main_v8 : IVec S_ 1 := andi main_v3 main_v7
  let main_v9 : FVec F S8x2048x19 .f32 := (extractStridedSlice S8x2048x19 ![0, 0, 0] · slices_S8x2048x20_S8x2048x19_0_0_0) main_arg1
  let main_cst_2 : FVec F S_ .f32 := constant S_ .f32 0x00000000#32
  let main_v10 : FVec F S8x2048x19 .f32 := broadcastInDim S8x2048x19 ![] bcast_S_S8x2048x19 main_cst_2
  let main_v11 : IVec S8x2048x19 1 := cmpf .oeq main_v9 main_v10
  let main_v12 : FVec F S8x2048x19 .f32 := (extractStridedSlice S8x2048x19 ![0, 0, 0] · slices_S8x2048x20_S8x2048x19_0_0_0) main_arg1
  let main_cst_3 : FVec F S_ .f32 := constant S_ .f32 0x3F800000#32
  let main_v13 : FVec F S8x2048x19 .f32 := broadcastInDim S8x2048x19 ![] bcast_S_S8x2048x19 main_cst_3
  let main_v14 : IVec S8x2048x19 1 := cmpf .oeq main_v12 main_v13
  let main_v15 : IVec S8x2048x19 1 := ori main_v11 main_v14
  let main_c_4 : IVec S_ 1 := constantI S_ 1 1#1
  let main_v16 : IVec S_ 1 := (fun x v => Host.reduce IntOp.andi x v reducesTo_S8x2048x19_S_d0_1_2 h_S_) main_v15 main_c_4
  fn_part1 (F := F) main_arg2 main_v8 main_v16
-- ==== Kernel.lean ====
abbrev S8x19x512x512 : Shape := ⟨4, ![8, 19, 512, 512]⟩
abbrev S8x2048x20 : Shape := ⟨3, ![8, 2048, 20]⟩
abbrev S8x512x512 : Shape := ⟨3, ![8, 512, 512]⟩
abbrev S8x19x262144 : Shape := ⟨3, ![8, 19, 262144]⟩
abbrev S8x2048x19 : Shape := ⟨3, ![8, 2048, 19]⟩
abbrev S19 : Shape := ⟨1, ![19]⟩
abbrev S_ : Shape := ⟨0, ![]⟩
abbrev S1x1x19 : Shape := ⟨3, ![1, 1, 19]⟩
abbrev S8x2048 : Shape := ⟨2, ![8, 2048]⟩
abbrev S8x262144 : Shape := ⟨2, ![8, 262144]⟩
abbrev S8x262144x1 : Shape := ⟨3, ![8, 262144, 1]⟩
abbrev S1 : Shape := ⟨1, ![1]⟩
abbrev S1x1x1 : Shape := ⟨3, ![1, 1, 1]⟩
abbrev S8x1x262144 : Shape := ⟨3, ![8, 1, 262144]⟩
abbrev S8x1x2 : Shape := ⟨3, ![8, 1, 2]⟩
abbrev S1x19x65536 : Shape := ⟨3, ![1, 19, 65536]⟩
abbrev S1x1x65536 : Shape := ⟨3, ![1, 1, 65536]⟩
abbrev S1x1x2 : Shape := ⟨3, ![1, 1, 2]⟩
abbrev S1x2 : Shape := ⟨2, ![1, 2]⟩
abbrev S19x65536 : Shape := ⟨2, ![19, 65536]⟩
abbrev S65536 : Shape := ⟨1, ![65536]⟩
abbrev S1x65536 : Shape := ⟨2, ![1, 65536]⟩
abbrev S1x1 : Shape := ⟨2, ![1, 1]⟩
abbrev S8x1x1 : Shape := ⟨3, ![8, 1, 1]⟩
abbrev S8 : Shape := ⟨1, ![8]⟩

abbrev nBuf : Space → Nat
  | .hbm => 57
  | .vmem => 7
  | .smem => 0
  | _ => 0

abbrev bufTy : (tb : Table) → Fin (tcTables nBuf tb) → BufTy
  | .hbm, ⟨0, _⟩ => ⟨S8x19x512x512, .f32⟩
  | .hbm, ⟨1, _⟩ => ⟨S8x2048x20, .f32⟩
  | .hbm, ⟨2, _⟩ => ⟨S8x512x512, .i32⟩
  | .hbm, ⟨3, _⟩ => ⟨S8x512x512, .i1⟩
  | .hbm, ⟨4, _⟩ => ⟨S8x19x262144, .f32⟩
  | .hbm, ⟨5, _⟩ => ⟨S8x2048x19, .f32⟩
  | .hbm, ⟨6, _⟩ => ⟨S8x2048x19, .i32⟩
  | .hbm, ⟨7, _⟩ => ⟨S19, .i32⟩
  | .hbm, ⟨8, _⟩ => ⟨S_, .i32⟩
  | .hbm, ⟨9, _⟩ => ⟨S19, .i32⟩
  | .hbm, ⟨10, _⟩ => ⟨S19, .i32⟩
  | .hbm, ⟨11, _⟩ => ⟨S1x1x19, .i32⟩
  | .hbm, ⟨12, _⟩ => ⟨S8x2048x19, .i32⟩
  | .hbm, ⟨13, _⟩ => ⟨S8x2048x19, .i32⟩
  | .hbm, ⟨14, _⟩ => ⟨S_, .i32⟩
  | .hbm, ⟨15, _⟩ => ⟨S8x2048, .i32⟩
  | .hbm, ⟨16, _⟩ => ⟨S8x262144, .i32⟩
  | .hbm, ⟨17, _⟩ => ⟨S_, .i32⟩
  | .hbm, ⟨18, _⟩ => ⟨S8x262144, .i32⟩
  | .hbm, ⟨19, _⟩ => ⟨S8x262144, .i1⟩
  | .hbm, ⟨20, _⟩ => ⟨S_, .i32⟩
  | .hbm, ⟨21, _⟩ => ⟨S8x262144, .i32⟩
  | .hbm, ⟨22, _⟩ => ⟨S8x262144, .i32⟩
  | .hbm, ⟨23, _⟩ => ⟨S8x262144, .i32⟩
  | .hbm, ⟨24, _⟩ => ⟨S8x262144x1, .i32⟩
  | .hbm, ⟨25, _⟩ => ⟨S1, .i32⟩
  | .hbm, ⟨26, _⟩ => ⟨S_, .i32⟩
  | .hbm, ⟨27, _⟩ => ⟨S8x262144x1, .i32⟩
  | .hbm, ⟨28, _⟩ => ⟨S8x262144x1, .i1⟩
  | .hbm, ⟨29, _⟩ => ⟨S1x1x1, .i32⟩
  | .hbm, ⟨30, _⟩ => ⟨S8x262144x1, .i32⟩
  | .hbm, ⟨31, _⟩ => ⟨S8x262144x1, .i1⟩
  | .hbm, ⟨32, _⟩ => ⟨S8x262144x1, .i1⟩
  | .hbm, ⟨33, _⟩ => ⟨S_, .i1⟩
  | .hbm, ⟨34, _⟩ => ⟨S8x262144, .i1⟩
  | .hbm, ⟨35, _⟩ => ⟨S8x262144, .i32⟩
  | .hbm, ⟨36, _⟩ => ⟨S_, .i32⟩
  | .hbm, ⟨37, _⟩ => ⟨S8x262144, .i32⟩
  | .hbm, ⟨38, _⟩ => ⟨S8x262144, .i32⟩
  | .hbm, ⟨39, _⟩ => ⟨S8x262144, .i1⟩
  | .hbm, ⟨40, _⟩ => ⟨S_, .i32⟩
  | .hbm, ⟨41, _⟩ => ⟨S_, .i32⟩
  | .hbm, ⟨42, _⟩ => ⟨S8x262144, .i32⟩
  | .hbm, ⟨43, _⟩ => ⟨S8x262144, .i32⟩
  | .hbm, ⟨44, _⟩ => ⟨S8x1x262144, .i32⟩
  | .hbm, ⟨45, _⟩ => ⟨S8x1x2, .f32⟩
  | .hbm, ⟨46, _⟩ => ⟨S8x1x1, .f32⟩
  | .hbm, ⟨47, _⟩ => ⟨S8, .f32⟩
  | .hbm, ⟨48, _⟩ => ⟨S_, .f32⟩
  | .hbm, ⟨49, _⟩ => ⟨S_, .f32⟩
  | .hbm, ⟨50, _⟩ => ⟨S8x1x1, .f32⟩
  | .hbm, ⟨51, _⟩ => ⟨S8, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1x19x65536, .f32⟩
  | .local _ .vmem, ⟨1, _⟩ => ⟨S1x19x65536, .f32⟩
  | .local _ .vmem, ⟨2, _⟩ => ⟨S1x1x65536, .i32⟩
  | .local _ .vmem, ⟨3, _⟩ => ⟨S1x1x65536, .i32⟩
  | .local _ .vmem, ⟨4, _⟩ => ⟨S1x1x2, .f32⟩
  | .local _ .vmem, ⟨5, _⟩ => ⟨S1x1x2, .f32⟩
  | .local _ .vmem, ⟨6, _⟩ => ⟨S1x2, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_c_4 : Ref sig .tc := ⟨.hbm, 36, rfl⟩
abbrev main_call0_v14 : Ref sig .tc := ⟨.hbm, 37, rfl⟩
abbrev main_v11 : Ref sig .tc := ⟨.hbm, 38, rfl⟩
abbrev main_v12 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_19 : BitVec 32 := 0#32
  let v49 : BitVec 1 := Scalar.cmpi .ne v48 c0_i32_19
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x19x512x512_S8x19x262144 : S8x19x512x512.ShapeCasts S8x19x262144
  slices_S8x2048x20_S8x2048x19_0_0_0 : S8x2048x20.Slices ![0, 0, 0] S8x2048x19
  bcast_S_S19 : S_.BroadcastsInDim S19 (![] : Fin 0 → Fin S19.rank)
  bcast_S19_S1x1x19_2 : S19.BroadcastsInDim S1x1x19 (![2] : Fin 1 → Fin S1x1x19.rank)
  bcast_S1x1x19_S8x2048x19_0_1_2 : S1x1x19.BroadcastsInDim S8x2048x19 (![0, 1, 2] : Fin 3 → Fin S8x2048x19.rank)
  reducesTo_S8x2048x19_S8x2048_d2 : S8x2048x19.ReducesTo [2] S8x2048
  h_S_ : 0 < S_.numel
  shapeCasts_S8x512x512_S8x262144 : S8x512x512.ShapeCasts S8x262144
  bcast_S_S8x262144 : S_.BroadcastsInDim S8x262144 (![] : Fin 0 → Fin S8x262144.rank)
  shapeCasts_S8x262144_S8x262144x1 : S8x262144.ShapeCasts S8x262144x1
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  shapeCasts_S8x262144_S8x1x262144 : S8x262144.ShapeCasts S8x1x262144
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x19x65536_S1x19x65536_0_0_0 : ∀ a, (![0, 0, 0] : Fin 3 → Nat) a + S1x19x65536.size a ≤ S1x19x65536.size a
  h_S1x19x65536 : 0 < S1x19x65536.numel
  shapeCasts_S1x19x65536_S19x65536 : S1x19x65536.ShapeCasts S19x65536
  reduces_S19x65536_S65536 : S19x65536.Reduces [0] S65536
  shapeCasts_S65536_S1x65536 : S65536.ShapeCasts S1x65536
  broadcasts_S1x65536_S19x65536 : S1x65536.Broadcasts S19x65536
  inb_S1x1x65536_S1x1x65536_0_0_0 : ∀ a, (![0, 0, 0] : Fin 3 → Nat) a + S1x1x65536.size a ≤ S1x1x65536.size a
  h_S1x1x65536 : 0 < S1x1x65536.numel
  shapeCasts_S1x1x65536_S1x65536 : S1x1x65536.ShapeCasts S1x65536
  iota_S19x65536_d0_w32 : S19x65536.Iotas .tc 32 [0]
  reduces_S1x65536_S1 : S1x65536.Reduces [1] S1
  shapeCasts_S1_S1x1 : S1.ShapeCasts S1x1
  natLt_1_32 : 1 < 32
  concatenates_S1x1_S1x1_S1x2_d1 : Shape.Concatenates [S1x1, S1x1] S1x2 1
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  slices_S8x1x2_S8x1x1_0_0_0 : S8x1x2.Slices ![0, 0, 0] S8x1x1
  shapeCasts_S8x1x1_S8 : S8x1x1.ShapeCasts S8
  reducesTo_S8_S_d0 : S8.ReducesTo [0] S_
  slices_S8x1x2_S8x1x1_0_0_1 : S8x1x2.Slices ![0, 0, 1] S8x1x1
  gather_S8x2048_S8x262144x1_S8x262144_n_1_0_0_1_2_11_wf : GatherDims.WF S8x2048 S8x262144x1 S8x262144 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x65536.size a ≤ S8x19x262144.size a
  hwx0_0 : ∀ i : grid0.Coords, EltTy.bits .f32 = 32 ∨ (Rect.block (s := S8x19x262144) S1x19x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x65536.size a ≤ S8x1x262144.size a
  hwx0_1 : ∀ i : grid0.Coords, EltTy.bits .i32 = 32 ∨ (Rect.block (s := S8x1x262144) S1x1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2.size a ≤ S8x1x2.size a
  hwx0_2 : ∀ i : grid0.Coords, EltTy.bits .f32 = 32 ∨ (Rect.block (s := S8x1x2) S1x1x2.size (cc0_transform_2 i) (hinb0_2 i)).WholeWords (EltTy.packing .f32)

variable [Facts₀]

def gather_S8x2048_S8x262144x1_S8x262144_n_1_0_0_1_2_11 : GatherDims S8x2048 S8x262144x1 S8x262144 where
  offsetDims := []
  collapsedSliceDims := [1]
  operandBatchingDims := [0]
  startIndicesBatchingDims := [0]
  startIndexMap := [1]
  indexVectorDim := 2
  sliceSizes := ![1, 1]
  wf := gather_S8x2048_S8x262144x1_S8x262144_n_1_0_0_1_2_11_wf

abbrev win0_0 : Pipeline.Window sig grid0 :=
  Pipeline.Window.ofSpec (Memref.whole main_v0) S1x19x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x19x512x512 : Shape := ⟨4, ![8, 19, 512, 512]⟩
abbrev S8x2048x20 : Shape := ⟨3, ![8, 2048, 20]⟩
abbrev S8x512x512 : Shape := ⟨3, ![8, 512, 512]⟩
abbrev S8x19x262144 : Shape := ⟨3, ![8, 19, 262144]⟩
abbrev S8x262144x19 : Shape := ⟨3, ![8, 262144, 19]⟩
abbrev S_ : Shape := ⟨0, ![]⟩
abbrev S8x262144 : Shape := ⟨2, ![8, 262144]⟩
abbrev S8x262144x1 : Shape := ⟨3, ![8, 262144, 1]⟩
abbrev S8x2048x19 : Shape := ⟨3, ![8, 2048, 19]⟩
abbrev S1 : Shape := ⟨1, ![1]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x2048x20, .f32⟩
  | .hbm, ⟨2, _⟩ => ⟨S8x512x512, .i32⟩
  | .hbm, ⟨3, _⟩ => ⟨S8x512x512, .i1⟩
  | .hbm, ⟨4, _⟩ => ⟨S8x19x262144, .f32⟩
  | .hbm, ⟨5, _⟩ => ⟨S8x262144x19, .f32⟩
  | .hbm, ⟨6, _⟩ => ⟨S_, .f32⟩
  | .hbm, ⟨7, _⟩ => ⟨S8x262144x19, .f32⟩
  | .hbm, ⟨8, _⟩ => ⟨S8x262144x19, .f32⟩
  | .hbm, ⟨9, _⟩ => ⟨S_, .f32⟩
  | .hbm, ⟨10, _⟩ => ⟨S8x262144, .f32⟩
  | .hbm, ⟨11, _⟩ => ⟨S_, .f32⟩
  | .hbm, ⟨12, _⟩ => ⟨S8x262144, .f32⟩
  | .hbm, ⟨13, _⟩ => ⟨S8x262144, .f32⟩
  | .hbm, ⟨14, _⟩ => ⟨S8x262144x1, .f32⟩
  | .hbm, ⟨15, _⟩ => ⟨S8x262144x19, .f32⟩
  | .hbm, ⟨16, _⟩ => ⟨S8x262144x19, .f32⟩
  | .hbm, ⟨17, _⟩ => ⟨S8x262144x19, .f32⟩
  | .hbm, ⟨18, _⟩ => ⟨S_, .f32⟩
  | .hbm, ⟨19, _⟩ => ⟨S8x262144, .f32⟩
  | .hbm, ⟨20, _⟩ => ⟨S8x262144x1, .f32⟩
  | .hbm, ⟨21, _⟩ => ⟨S8x262144x19, .f32⟩
  | .hbm, ⟨22, _⟩ => ⟨S8x262144x19, .f32⟩
  | .hbm, ⟨23, _⟩ => ⟨S8x262144, .i32⟩
  | .hbm, ⟨24, _⟩ => ⟨S8x262144, .i1⟩
  | .hbm, ⟨25, _⟩ => ⟨S8x2048x19, .f32⟩
  | .hbm, ⟨26, _⟩ => ⟨S8x262144x1, .i32⟩
  | .hbm, ⟨27, _⟩ => ⟨S_, .i32⟩
  | .hbm, ⟨28, _⟩ => ⟨S8x262144x1, .i32⟩
  | .hbm, ⟨29, _⟩ => ⟨S8x262144x1, .i1⟩
  | .hbm, ⟨30, _⟩ => ⟨S_, .i32⟩
  | .hbm, ⟨31, _⟩ => ⟨S8x262144x1, .i32⟩
  | .hbm, ⟨32, _⟩ => ⟨S8x262144x1, .i32⟩
  | .hbm, ⟨33, _⟩ => ⟨S8x262144x1, .i32⟩
  | .hbm, ⟨34, _⟩ => ⟨S1, .i32⟩
  | .hbm, ⟨35, _⟩ => ⟨S_, .i32⟩
  | .hbm, ⟨36, _⟩ => ⟨S8x262144x1, .i32⟩
  | .hbm, ⟨37, _⟩ => ⟨S8x262144x1, .i1⟩
  | .hbm, ⟨38, _⟩ => ⟨S1x1x1, .i32⟩
  | .hbm, ⟨39, _⟩ => ⟨S8x262144x1, .i32⟩
  | .hbm, ⟨40, _⟩ => ⟨S8x262144x1, .i1⟩
  | .hbm, ⟨41, _⟩ => ⟨S8x262144x1, .i1⟩
  | .hbm, ⟨42, _⟩ => ⟨S_, .i1⟩
  | .hbm, ⟨43, _⟩ => ⟨S8x262144, .i1⟩
  | .hbm, ⟨44, _⟩ => ⟨S8x262144x19, .f32⟩
  | .hbm, ⟨45, _⟩ => ⟨S8x262144x19, .i1⟩
  | .hbm, ⟨46, _⟩ => ⟨S_, .f32⟩
  | .hbm, ⟨47, _⟩ => ⟨S8x262144x19, .f32⟩
  | .hbm, ⟨48, _⟩ => ⟨S8x262144x19, .f32⟩
  | .hbm, ⟨49, _⟩ => ⟨S_, .f32⟩
  | .hbm, ⟨50, _⟩ => ⟨S8x262144x19, .f32⟩
  | .hbm, ⟨51, _⟩ => ⟨S8x262144x19, .i1⟩
  | .hbm, ⟨52, _⟩ => ⟨S_, .i1⟩
  | .hbm, ⟨53, _⟩ => ⟨S8x262144, .i1⟩
  | .hbm, ⟨54, _⟩ => ⟨S8x262144, .i1⟩
  | .hbm, ⟨55, _⟩ => ⟨S8x262144x19, .f32⟩
  | .hbm, ⟨56, _⟩ => ⟨S_, .f32⟩
  | .hbm, ⟨57, _⟩ => ⟨S8x262144, .f32⟩
  | .hbm, ⟨58, _⟩ => ⟨S_, .f32⟩
  | .hbm, ⟨59, _⟩ => ⟨S8x262144, .f32⟩
  | .hbm, ⟨60, _⟩ => ⟨S8x262144, .f32⟩
  | .hbm, ⟨61, _⟩ => ⟨S8x262144, .f32⟩
  | .hbm, ⟨62, _⟩ => ⟨S_, .f32⟩
  | .hbm, ⟨63, _⟩ => ⟨S_, .f32⟩
  | .hbm, ⟨64, _⟩ => ⟨S8x262144, .f32⟩
  | .hbm, ⟨65, _⟩ => ⟨S8x262144, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8x262144, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_c_2 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_c_3 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v19 : Ref sig .tc := ⟨.hbm, 48, rfl⟩
abbrev main_cst_3 : Ref sig .tc := ⟨.hbm, 49, rfl⟩
abbrev main_v20 : Ref sig .tc := ⟨.hbm, 50, rfl⟩
abbrev main_v21 : Ref sig .tc := ⟨.hbm, 51, rfl⟩
abbrev main_c : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_v29 : Ref sig .tc := ⟨.hbm, 65, rfl⟩
abbrev main_cst_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_8 : Ref sig .tc := ⟨.hbm, 70, rfl⟩
abbrev main_v33 : Ref sig .tc := ⟨.hbm, 71, rfl⟩
abbrev main_c_9 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩

abbrev nD : Nat := 1
abbrev τ : Topo := Topo.v7x

variable {F : FTy → Type} [FloatOps F]

class Facts₀ : Prop where
  shapeCasts_S8x19x512x512_S8x19x262144 : S8x19x512x512.ShapeCasts S8x19x262144
  transposes_S8x19x262144_S8x262144x19_0_2_1 : S8x19x262144.Transposes [0, 2, 1] S8x262144x19
  bcast_S_S8x262144x19 : S_.BroadcastsInDim S8x262144x19 (![] : Fin 0 → Fin S8x262144x19.rank)
  reducesTo_S8x262144x19_S8x262144_d2 : S8x262144x19.ReducesTo [2] S8x262144
  h_S_ : 0 < S_.numel
  bcast_S_S8x262144 : S_.BroadcastsInDim S8x262144 (![] : Fin 0 → Fin S8x262144.rank)
  bcast_S8x262144_S8x262144x1_0_1 : S8x262144.BroadcastsInDim S8x262144x1 (![0, 1] : Fin 2 → Fin S8x262144x1.rank)
  bcast_S8x262144x1_S8x262144x19_0_1_2 : S8x262144x1.BroadcastsInDim S8x262144x19 (![0, 1, 2] : Fin 3 → Fin S8x262144x19.rank)
  shapeCasts_S8x512x512_S8x262144 : S8x512x512.ShapeCasts S8x262144
  slices_S8x2048x20_S8x2048x19_0_0_0 : S8x2048x20.Slices ![0, 0, 0] S8x2048x19
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  bcast_S8x262144_S8x262144x19_0_1 : S8x262144.BroadcastsInDim S8x262144x19 (![0, 1] : Fin 2 → Fin S8x262144x19.rank)
  reducesTo_S8x262144_S_d0_1 : S8x262144.ReducesTo [0, 1] S_
  natLt_1_32 : 1 < 32
  gather_S8x2048x19_S8x262144x1_S8x262144x19_2_1_0_0_1_2_1119_wf : GatherDims.WF S8x2048x19 S8x262144x1 S8x262144x19 [2] [1] [0] [1] [0] 2 ![1, 1, 19]

variable [Facts₀]

def gather_S8x2048x19_S8x262144x1_S8x262144x19_2_1_0_0_1_2_1119 : GatherDims S8x2048x19 S8x262144x1 S8x262144x19 where
  offsetDims := [2]
  collapsedSliceDims := [1]
  operandBatchingDims := [0]
  startIndicesBatchingDims := [0]
  startIndexMap := [1]
  indexVectorDim := 2
  sliceSizes := ![1, 1, 19]
  wf := gather_S8x2048x19_S8x262144x1_S8x262144x19_2_1_0_0_1_2_1119_wf

class Facts : Prop extends Facts₀ where

variable [Facts]
-- ==== Proof.Spec.lean ====
/-
  The mathematics of the claim, free of either program.

  Per pixel (an image `n`, a flat position `q` of the 512 x 512 plane) there are 19 class logits `xs c`.
  Both programs form the softmax weights `e c = exp (xs c - max xs)` and the probability mass that falls on
  the classes marked positive for that pixel,
      pos = (sum over c of e c * b c) / (sum over c of e c),
  then add `- log (pos + eps)` over the pixels that count ("valid") and divide by one plus their number.
  They differ in how the marks `b c` reach the pixel: one side carries the 19 marks of a target row packed into
  the low bits of one 32-bit word `w` (zero when the pixel is masked out) and reads mark `c` back as bit `c`;
  the other side carries the row itself, as 19 numbers `g c` that are 0 or 1, with a separate mask bit.
  This module states both forms; that they agree is proved elsewhere.
-/
import Idealize.ShloMosaic.PureOps.Ideal
import Idealize.ShloMosaic.PureOps.Reduce
import Idealize.ShloMosaic.Lib.ValueIdx

noncomputable section

open scoped BigOperators

namespace Cert.Spec

open Idealize.ShloMosaic Idealize.ShloMosaic.ValueIdx

/-! ## Literals both programs carry (kept as their words) -/

/-- The word of `+0.0`. -/
abbrev zero : EReal := Ideal.ofBits .f32 0x00000000#32
/-- The word of `1.0`. -/
abbrev one : EReal := Ideal.ofBits .f32 0x3F800000#32
/-- The word both programs add under the logarithm (the f32 nearest to 1e-8). -/
abbrev eps : EReal := Ideal.ofBits .f32 0x322BCC77#32

/-! ## Shapes of the four argument arrays, and positions in them -/

abbrev SIn : Shape := ⟨4, ![8, 19, 512, 512]⟩
abbrev STg : Shape := ⟨3, ![8, 2048, 20]⟩
abbrev SPx : Shape := ⟨3, ![8, 512, 512]⟩

/-- Row of the 512 x 512 plane that flat position `q` lies in. -/
def hOf (q : Fin 262144) : Fin 512 := ⟨q.val / 512, by have := q.isLt; omega⟩
/-- Column of flat position `q`. -/
def wOf (q : Fin 262144) : Fin 512 := ⟨q.val % 512, Nat.mod_lt _ (by decide)⟩
/-- Flat position `p` of tile `t` (four tiles of 65536 positions). -/
def pix (t : Fin 4) (p : Fin 65536) : Fin 262144 := ⟨t.val * 65536 + p.val, by have := t.isLt; have := p.isLt; omega⟩

/-- Logit of class `c` at pixel `(n, q)`. -/
def Xof (x0 : SIn.Idx → EReal) (n : Fin 8) (c : Fin 19) (q : Fin 262144) : EReal := x0 (ix4 n c (hOf q) (wOf q))
/-- Superpixel id at pixel `(n, q)`. -/
def SPof (x2 : SPx.Idx → BitVec 32) (n : Fin 8) (q : Fin 262144) : BitVec 32 := x2 (ix3 n (hOf q) (wOf q))
/-- Mask bit at pixel `(n, q)`. -/
def Mof (x3 : SPx.Idx → BitVec 1) (n : Fin 8) (q : Fin 262144) : BitVec 1 := x3 (ix3 n (hOf q) (wOf q))
/-- The table row a superpixel id names (ids are in range under the precondition). -/
def rowOf (v : BitVec 32) : Fin 2048 := ⟨v.toNat % 2048, Nat.mod_lt _ (by decide)⟩
/-- Class `c` as a column of the 20-column target table (the last column is never read). -/
def colOf (c : Fin 19) : Fin 20 := ⟨c.val, by have := c.isLt; omega⟩
/-- The target row gathered for pixel `(n, q)`: its 19 marks, as numbers. -/
def Gof (x1 : STg.Idx → EReal) (x2 : SPx.Idx → BitVec 32) (n : Fin 8) (q : Fin 262144) (c : Fin 19) : EReal :=
  x1 (ix3 n (rowOf (SPof x2 n q)) (colOf c))

/-- What the precondition says of the arguments: every logit is a real number; every mark that is read (the first
    19 columns of the target table) is 0 or 1; every superpixel id names a row of the table. -/
structure Dom (x0 : SIn.Idx → EReal) (x1 : STg.Idx → EReal) (x2 : SPx.Idx → BitVec 32) : Prop where
  fin0 : ∀ i, ∃ r : ℝ, x0 i = (r : EReal)
  tg01 : ∀ (n : Fin 8) (s : Fin 2048) (c : Fin 19), x1 (ix3 n s (colOf c)) = 0 ∨ x1 (ix3 n s (colOf c)) = 1
  spr : ∀ i, (x2 i).toNat < 2048

/-! ## The packed word -/

/-- Nineteen words packed into one: word `c` times `2 ^ c`, added up (in 32-bit arithmetic). -/
def packW (t : Fin 19 → BitVec 32) : BitVec 32 :=
  Finset.univ.fold IntOp.addi 0#32 (fun c : Fin 19 => IntOp.muli (t c) (1#32 <<< c.val))
/-- Mark `c` of row `s` of image `n`, converted to an integer word. -/
def Tof (x1 : STg.Idx → EReal) (n : Fin 8) (s : Fin 2048) (c : Fin 19) : BitVec 32 := Ideal.fptosi 32 (x1 (ix3 n s (colOf c)))
/-- The packed word pixel `(n, q)` carries: its row's marks packed, or zero where the mask is off. -/
def Wof (x1 : STg.Idx → EReal) (x2 : SPx.Idx → BitVec 32) (x3 : SPx.Idx → BitVec 1) (n : Fin 8) (q : Fin 262144) : BitVec 32 :=
  if Mof x3 n q = 1#1 then packW (Tof x1 n (rowOf (SPof x2 n q))) else 0#32
/-- Bit `c` of a packed word, as a number (0 or 1). -/
def bitK (w : BitVec 32) (c : Fin 19) : EReal := ((((w.sshiftRight c.val) &&& 1#32).toInt : ℝ) : EReal)

/-! ## One pixel, the packed-word form -/

def mxK (xs : Fin 19 → EReal) : EReal := Finset.univ.fold max (⊥ : EReal) (fun c => xs c * one)
def exK (xs : Fin 19 → EReal) (c : Fin 19) : EReal := Ideal.exp (xs c * one - mxK xs)
def posK (xs : Fin 19 → EReal) (w : BitVec 32) : EReal := Ideal.div (∑ c, exK xs c * bitK w c) (∑ c, exK xs c)
/-- The pixel's term of the loss: nothing when its word is zero. -/
def lossK (xs : Fin 19 → EReal) (w : BitVec 32) : EReal := if w = 0#32 then 0 else 0 - Ideal.log (posK xs w + eps)
/-- The pixel's term of the count. -/
def cntK (w : BitVec 32) : EReal := if w = 0#32 then 0 else 1

/-! ## One pixel, the row form -/

def mxR (xs : Fin 19 → EReal) : EReal := Finset.univ.fold max (⊥ : EReal) (fun c => Ideal.div (xs c) one)
def exR (xs : Fin 19 → EReal) (c : Fin 19) : EReal := Ideal.exp (Ideal.div (xs c) one - mxR xs)
def posR (xs g : Fin 19 → EReal) : EReal := ∑ c, Ideal.div (exR xs c) (∑ c', exR xs c') * g c
/-- A pixel counts when its mask bit is on and its row has a mark. -/
def validR (mk : BitVec 1) (g : Fin 19 → EReal) : Prop := mk = 1#1 ∧ ∃ c, g c ≠ 0
open Classical in
def lossR (xs g : Fin 19 → EReal) (mk : BitVec 1) : EReal := if validR mk g then Ideal.log (posR xs g + eps) else 0

/-! ## The whole result, both forms -/

section
variable (X : Fin 8 → Fin 19 → Fin 262144 → EReal)

/-- Packed-word form: images, then the four tiles of an image, then the positions of a tile. -/
def kLoss (W : Fin 8 → Fin 262144 → BitVec 32) : EReal :=
  ∑ n : Fin 8, ∑ t : Fin 4, ∑ p : Fin 65536, lossK (fun c => X n c (pix t p)) (W n (pix t p))
def kCnt (W : Fin 8 → Fin 262144 → BitVec 32) : EReal :=
  ∑ n : Fin 8, ∑ t : Fin 4, ∑ p : Fin 65536, cntK (W n (pix t p))
def kResult (W : Fin 8 → Fin 262144 → BitVec 32) : EReal := Ideal.div (kLoss X W) (one + kCnt W)

/-- Row form: one sum over all pixels, negated; the count is an integer. -/
def rLoss (G : Fin 8 → Fin 262144 → Fin 19 → EReal) (M : Fin 8 → Fin 262144 → BitVec 1) : EReal :=
  ∑ n : Fin 8, ∑ q : Fin 262144, lossR (fun c => X n c q) (G n q) (M n q)
open Classical in
def rCnt (G : Fin 8 → Fin 262144 → Fin 19 → EReal) (M : Fin 8 → Fin 262144 → BitVec 1) : ℕ :=
  ∑ n : Fin 8, ∑ q : Fin 262144, if validR (M n q) (G n q) then 1 else 0
def rResult (G : Fin 8 → Fin 262144 → Fin 19 → EReal) (M : Fin 8 → Fin 262144 → BitVec 1) : EReal :=
  Ideal.div (-(rLoss X G M)) ((((1 + rCnt G M : ℕ) : ℝ)) : EReal)
end

end Cert.Spec

end
-- ==== Proof.Consts.lean ====
/-
  The float words the two programs spell, as the extended reals they denote. One module states them all,
  so that no other module unfolds the reading of a word.
-/
import proofs.«421680_j12128987644159_3_alg».proof.Proof.Spec

noncomputable section

namespace Cert.Consts

open Idealize.ShloMosaic

/-- `+0.0` denotes 0. -/
theorem zero_eq : Cert.Spec.zero = 0 := by
  simp [Cert.Spec.zero, Ideal.ofBits, Ideal.ieee]

/-- `1.0` denotes 1. -/
theorem one_eq : Cert.Spec.one = 1 := by
  simp [Cert.Spec.one, Ideal.ofBits, Ideal.ieee, -EReal.coe_mul]; norm_num

/-- The word added under the logarithm denotes a positive real. -/
theorem eps_pos : ∃ r : ℝ, 0 < r ∧ Cert.Spec.eps = (r : EReal) := by
  refine ⟨11258999 * (2 : ℝ)⁻¹ ^ 50, by positivity, ?_⟩
  simp [Cert.Spec.eps, Ideal.ofBits, Ideal.ieee, -EReal.coe_mul]

/-- The word of negative infinity denotes the bottom element. -/
theorem ninf_eq : Ideal.ofBits .f32 0xFF800000#32 = (⊥ : EReal) := by
  simp [Ideal.ofBits, Ideal.ieee]

/-- The word of positive infinity denotes the top element. -/
theorem pinf_eq : Ideal.ofBits .f32 0x7F800000#32 = (⊤ : EReal) := by
  simp [Ideal.ofBits, Ideal.ieee]

end Cert.Consts

end
-- ==== Proof.KernelPay.lean ====
/-
  The arithmetic of one grid point of the kernel, read at an index, over the extended reals. The body takes a
  block of logits (19 classes by 65536 positions) and a block of packed words (65536 positions); it leaves two
  numbers: the sum over the block's positions of the pixel's loss term, and the number of positions whose word
  is not zero. These are added to a two-entry accumulator.
-/
import proofs.«421680_j12128987644159_3_alg».proof.Proof.Gen.KernelIdeal.Skeleton
import proofs.«421680_j12128987644159_3_alg».proof.Proof.Spec
import proofs.«421680_j12128987644159_3_alg».proof.Proof.Consts
import Idealize.ShloMosaic.PureOps.Ideal.Laws
import Idealize.ShloMosaic.Lib.Pipeline.Value
import Idealize.ShloMosaic.Lib.ValueLayout
set_option maxRecDepth 16384

noncomputable section

open scoped BigOperators

namespace Cert.KernelIdeal.Pay

open Idealize.ShloMosaic Idealize.ShloMosaic.TcCoe Idealize.SL.Sem Idealize.ShloMosaic.ValueIdx
open Idealize.ShloMosaic.Pipeline (Dat)
open Cert.KernelIdeal Cert.KernelIdeal.Gen

/-- A one-entry vector cast to one row and one column reads its entry. -/
theorem cast11_apply (v : FVec Ideal S1 .f32) (h : S1.ShapeCasts S1x1) :
    shapeCast S1x1 v h (ix2 (0 : Fin 1) (0 : Fin 1)) = v (ix1 (0 : Fin 1)) :=
  shapeCast_apply v h (ix2 (0 : Fin 1) (0 : Fin 1)) (ix1 (0 : Fin 1)) (by
    rw [Shape.rowMajor_val_two, Shape.rowMajor_val_one]; rfl)

/-! ## Exponential, logarithm and the integer operations, read at an index (definitional) -/

section Pointwise
variable {s : Shape}

theorem exp_at (a : FVec Ideal s .f32) (i : s.Idx) : exp a i = Ideal.exp (a i) := rfl
theorem log_at (a : FVec Ideal s .f32) (i : s.Idx) : log a i = Ideal.log (a i) := rfl
theorem cmpi_at (q : CmpIPredicate) (a b : IVec s 32) (i : s.Idx) : cmpi q a b i = IntOp.cmpi q (a i) (b i) := rfl
theorem andi_at (a b : IVec s 32) (i : s.Idx) : andi a b i = IntOp.andi (a i) (b i) := rfl
theorem shrsi_at (a b : IVec s 32) (i : s.Idx) : shrsi a b i = IntOp.shrsi .vector (a i) (b i) := rfl

end Pointwise

/-! ## The shape operations of the body, read at an index -/

section Layout
variable {α : Type}

/-- The index over position `p` with class `c` put on the class axis. -/
theorem lift_col (p : Fin 65536) (c : Fin 19) :
    reduces_S19x65536_S65536.lift (ix1 p) c = ix2 c p := by
  funext a
  match a with
  | ⟨0, _⟩ => exact Fin.ext rfl
  | ⟨1, _⟩ => exact Fin.ext rfl

/-- The index over the one row with position `p` put on the lane axis. -/
theorem lift_lane (j : S1.Idx) (p : Fin 65536) :
    reduces_S1x65536_S1.lift j p = ix2 (0 : Fin 1) p := by
  funext a
  match a with
  | ⟨0, _⟩ =>
    have h1 : (j 0).val < 1 := (j 0).isLt
    exact Fin.ext (by show (j 0).val = 0; omega)
  | ⟨1, _⟩ => exact Fin.ext rfl

/-- The block of logits with its unit axis dropped. -/
theorem cast_x0 (x : S1x19x65536.Idx → α) (h : S1x19x65536.ShapeCasts S19x65536) (c : Fin 19) (p : Fin 65536) :
    shapeCast S19x65536 x h (ix2 c p) = x (ix3 (0 : Fin 1) c p) :=
  shapeCast_apply x h (ix2 c p) (ix3 (0 : Fin 1) c p) (by
    rw [Shape.rowMajor_val_two, Shape.rowMajor_val_three]
    show ((0 * 19 + c.val) * 65536 + p.val) = c.val * 65536 + p.val
    omega)

/-- The block of words with its unit axis dropped. -/
theorem cast_x1 (x : S1x1x65536.Idx → α) (h : S1x1x65536.ShapeCasts S1x65536) (p : Fin 65536) :
    shapeCast S1x65536 x h (ix2 (0 : Fin 1) p) = x (ix3 (0 : Fin 1) (0 : Fin 1) p) :=
  shapeCast_apply x h (ix2 (0 : Fin 1) p) (ix3 (0 : Fin 1) (0 : Fin 1) p) (by
    rw [Shape.rowMajor_val_two, Shape.rowMajor_val_three]
    show ((0 * 1 + 0) * 65536 + p.val) = 0 * 65536 + p.val
    omega)

/-- A vector over the positions, as one row. -/
theorem cast_row (v : S65536.Idx → α) (h : S65536.ShapeCasts S1x65536) (p : Fin 65536) :
    shapeCast S1x65536 v h (ix2 (0 : Fin 1) p) = v (ix1 p) :=
  shapeCast_apply v h (ix2 (0 : Fin 1) p) (ix1 p) (by
    rw [Shape.rowMajor_val_two, Shape.rowMajor_val_one]
    show p.val = 0 * 65536 + p.val
    omega)

/-- One row laid along each of the 19 class rows. -/
theorem bcast_row (v : S1x65536.Idx → α) (h : S1x65536.Broadcasts S19x65536) (c : Fin 19) (p : Fin 65536) :
    broadcastTo S19x65536 v h (ix2 c p) = v (ix2 (0 : Fin 1) p) :=
  broadcastTo_apply v h (ix2 c p) (ix2 (0 : Fin 1) p) (by
    intro a
    match a with
    | ⟨0, _⟩ => rfl
    | ⟨1, _⟩ => rfl)

/-- The class number of an entry. -/
theorem iota_at (h : S19x65536.Iotas .tc 32 [0]) (c : Fin 19) (p : Fin 65536) :
    iota .tc S19x65536 32 [0] h (ix2 c p) = BitVec.ofNat 32 c.val :=
  iota_single_apply .tc S19x65536 32 0 h (ix2 c p)

end Layout

/-! ## The three reductions of the body, read at an index -/

/-- The maximum over the classes, at a position. -/
theorem max_col (v : FVec Ideal S19x65536 .f32) (p : Fin 65536) :
    multiReduction (F := Ideal) .maximumf [0] S65536 v 0xFF800000#32 reduces_S19x65536_S65536 (.inl rfl) rfl (ix1 p)
      = Finset.univ.fold max (⊥ : EReal) (fun c : Fin 19 => v (ix2 c p)) := by
  refine (Ideal.multiReduction_maximumf_single v 0xFF800000#32 reduces_S19x65536_S65536 (.inl rfl) rfl (ix1 p)).trans ?_
  rw [Ideal.ofBits_def, Cert.Consts.ninf_eq]
  refine congrArg (Finset.univ.fold max (⊥ : EReal)) ?_
  funext c
  exact congrArg v (lift_col p c)

/-- The sum over the classes, at a position. -/
theorem sum_col (v : FVec Ideal S19x65536 .f32) (p : Fin 65536) :
    multiReduction (F := Ideal) .add [0] S65536 v 0x00000000#32 reduces_S19x65536_S65536 (.inl rfl) rfl (ix1 p)
      = ∑ c : Fin 19, v (ix2 c p) := by
  refine (Ideal.multiReduction_add_single v 0x00000000#32 reduces_S19x65536_S65536 (.inl rfl) rfl (ix1 p)).trans ?_
  exact Finset.sum_congr rfl fun c _ => congrArg v (lift_col p c)

/-- The sum over the positions of one row. -/
theorem sum_lane (v : FVec Ideal S1x65536 .f32) (j : S1.Idx) :
    multiReduction (F := Ideal) .add [1] S1 v 0x00000000#32 reduces_S1x65536_S1 (.inl rfl) rfl j
      = ∑ p : Fin 65536, v (ix2 (0 : Fin 1) p) := by
  refine (Ideal.multiReduction_add_single v 0x00000000#32 reduces_S1x65536_S1 (.inl rfl) rfl j).trans ?_
  exact Finset.sum_congr rfl fun p _ => congrArg v (lift_lane j p)

/-! ## The words of the body: a bit of the packed word, and the test "the word is not zero" -/

/-- Shifting right by a class number below 19 and keeping the low bit, as a number: bit `c` of the word. -/
theorem bit_eq (w : BitVec 32) (c : Fin 19) :
    FloatOps.sitofp (F := Ideal) .f32 (IntOp.andi (IntOp.shrsi .vector w (BitVec.ofNat 32 c.val)) 1#32) = Cert.Spec.bitK w c := by
  have hc : (BitVec.ofNat 32 c.val).toNat = c.val := by
    rw [BitVec.toNat_ofNat]; exact Nat.mod_eq_of_lt (by have := c.isLt; omega)
  have hs : IntOp.shrsi .vector w (BitVec.ofNat 32 c.val) = w.sshiftRight c.val := by
    unfold IntOp.shrsi
    rw [if_pos (by rw [hc]; have := c.isLt; omega)]
    show w.sshiftRight (BitVec.ofNat 32 c.val).toNat = _
    rw [hc]
  rw [hs]
  rfl

/-- The comparison "not equal to the zero word" as a bit. -/
theorem cmpne_zero (w : BitVec 32) : IntOp.cmpi .ne w 0#32 = if w = 0#32 then 0#1 else 1#1 := by
  by_cases h : w = 0#32
  · rw [if_pos h, h]; rfl
  · rw [if_neg h]
    have hb : (w != 0#32) = true := bne_iff_ne.mpr h
    show BitVec.ofBool (w != 0#32) = 1#1
    rw [hb]; rfl

/-- A select on that bit is the `if` on the word. -/
theorem select_ne_zero {α : Type} (w : BitVec 32) (a b : α) :
    Scalar.select (IntOp.cmpi .ne w 0#32) a b = if w = 0#32 then b else a := by
  rw [cmpne_zero]
  by_cases h : w = 0#32
  · rw [if_pos h, if_pos h, select_zero]
  · rw [if_neg h, if_neg h, select_one]

/-- The bit, widened and converted, is the pixel's term of the count. -/
theorem cnt_eq (w : BitVec 32) :
    FloatOps.sitofp (F := Ideal) .f32 ((IntOp.cmpi .ne w 0#32).setWidth 32) = Cert.Spec.cntK w := by
  rw [cmpne_zero]
  unfold Cert.Spec.cntK
  by_cases h : w = 0#32
  · rw [if_pos h, if_pos h]
    show ((((0#1 : BitVec 1).setWidth 32).toInt : ℝ) : EReal) = 0
    rw [show ((0#1 : BitVec 1).setWidth 32).toInt = 0 by decide]
    simp
  · rw [if_neg h, if_neg h]
    show ((((1#1 : BitVec 1).setWidth 32).toInt : ℝ) : EReal) = 1
    rw [show ((1#1 : BitVec 1).setWidth 32).toInt = 1 by decide]
    simp

/-- The pixel's term as the body computes it: the softmax mass on the marked classes, the logarithm, and the select
    on "the word is not zero", with the class numbers `io c = c` as words. -/
theorem loss_assemble (w : BitVec 32) (xs : Fin 19 → EReal) (io : Fin 19 → BitVec 32)
    (hio : ∀ c : Fin 19, io c = BitVec.ofNat 32 c.val) :
    Scalar.select (IntOp.cmpi .ne w 0#32)
      (FloatOps.ofBits (F := Ideal) .f32 0x00000000#32 - Ideal.log (Ideal.div
          (∑ c : Fin 19, Ideal.exp (xs c * FloatOps.ofBits (F := Ideal) .f32 0x3F800000#32
                - Finset.univ.fold max (⊥ : EReal) (fun c : Fin 19 => xs c * FloatOps.ofBits (F := Ideal) .f32 0x3F800000#32))
              * FloatOps.sitofp (F := Ideal) .f32 (IntOp.andi (IntOp.shrsi .vector w (io c)) 1#32))
          (∑ c : Fin 19, Ideal.exp (xs c * FloatOps.ofBits (F := Ideal) .f32 0x3F800000#32
                - Finset.univ.fold max (⊥ : EReal) (fun c : Fin 19 => xs c * FloatOps.ofBits (F := Ideal) .f32 0x3F800000#32)))
        + FloatOps.ofBits (F := Ideal) .f32 0x322BCC77#32))
      (FloatOps.ofBits (F := Ideal) .f32 0x00000000#32)
    = Cert.Spec.lossK xs w := by
  rw [select_ne_zero]
  unfold Cert.Spec.lossK Cert.Spec.posK Cert.Spec.exK Cert.Spec.mxK
  rw [show FloatOps.ofBits (F := Ideal) .f32 0x00000000#32 = (0 : EReal) from Cert.Consts.zero_eq]
  have hb : ∀ c : Fin 19, FloatOps.sitofp (F := Ideal) .f32 (IntOp.andi (IntOp.shrsi .vector w (io c)) 1#32)
      = Cert.Spec.bitK w c := fun c => by rw [hio c]; exact bit_eq w c
  simp only [hb]
  rfl

/-! ## The six readings -/

/-- The block's loss: the sum over its positions of the pixel's term. -/
theorem pay6_apply (x0 : Vec Ideal S1x19x65536 .f32) (x1 : Vec Ideal S1x1x65536 .i32) (j : S1x1.Idx) :
    k0_pay6 (F := Ideal) x0 x1 j
      = ∑ p : Fin 65536, Cert.Spec.lossK (fun c : Fin 19 => x0 (ix3 (0 : Fin 1) c p)) (x1 (ix3 (0 : Fin 1) (0 : Fin 1) p)) := by
  obtain ⟨a, b, rfl⟩ : ∃ a b, j = ix2 a b := ⟨j 0, j 1, eq_ix2 j⟩
  obtain rfl : a = 0 := Subsingleton.elim _ _
  obtain rfl : b = 0 := Subsingleton.elim _ _
  unfold k0_pay6 k0_pay5 k0_pay4
  dsimp only
  rw [cast11_apply, sum_lane]
  refine Finset.sum_congr rfl fun p _ => ?_
  simp only [select_apply, subf_apply, addf_apply, divf_apply, mulf_apply, broadcast_apply, sitofp_apply, log_at, exp_at,
    cmpi_at, andi_at, shrsi_at, cast_row, cast_x0, cast_x1, bcast_row]
  rw [sum_col, sum_col]
  simp only [select_apply, subf_apply, addf_apply, divf_apply, mulf_apply, broadcast_apply, sitofp_apply, log_at, exp_at,
    cmpi_at, andi_at, shrsi_at, cast_row, cast_x0, cast_x1, bcast_row]
  rw [max_col]
  simp only [select_apply, subf_apply, addf_apply, divf_apply, mulf_apply, broadcast_apply, sitofp_apply, log_at, exp_at,
    cmpi_at, andi_at, shrsi_at, cast_row, cast_x0, cast_x1, bcast_row]
  exact loss_assemble _ (fun c : Fin 19 => x0 (ix3 (0 : Fin 1) c p)) (fun c : Fin 19 => iota .tc S19x65536 32 [0] iota_S19x65536_d0_w32 (ix2 c p))
    (fun c => iota_at _ c p)

/-- The block's count: the number of positions whose word is not zero. -/
theorem pay7_sum (x1 : Vec Ideal S1x1x65536 .i32) (j : S1.Idx) :
    multiReduction (F := Ideal) .add [1] S1 (k0_pay7 (F := Ideal) x1) 0x00000000#32 reduces_S1x65536_S1 (.inl rfl) rfl j
      = ∑ p : Fin 65536, Cert.Spec.cntK (x1 (ix3 (0 : Fin 1) (0 : Fin 1) p)) := by
  rw [sum_lane]
  refine Finset.sum_congr rfl fun p _ => ?_
  unfold k0_pay7 k0_pay5 k0_pay4
  dsimp only
  rw [sitofp_apply, extui_apply, cmpi_at, cast_x1, broadcast_apply]
  exact cnt_eq _

/-- The accumulator's first entry after a point: what it held plus the block's loss. -/
theorem pay1_apply0 (v36 : FVec Ideal S1x1 .f32) (v38 : FVec Ideal S1x65536 .f32) (v41 : Vec Ideal S1x2 .f32) :
    k0_pay1 (F := Ideal) v36 v38 v41 (ix2 (0 : Fin 1) (0 : Fin 2)) = v41 (ix2 (0 : Fin 1) (0 : Fin 2)) + v36 (ix2 (0 : Fin 1) (0 : Fin 1)) := by
  unfold k0_pay1
  dsimp only
  rw [shapeCast_self, addf_apply]
  refine congrArg (fun t => v41 (ix2 (0 : Fin 1) (0 : Fin 2)) + t) ?_
  refine concatenate_pair_apply_left (t := S1x2) (s₁ := S1x1) (s₂ := S1x1) (1 : Fin 2) v36 _ _ (ix2 (0 : Fin 1) (0 : Fin 2)) rfl (ix2 (0 : Fin 1) (0 : Fin 1)) ?_
  intro b
  match b with
  | ⟨0, _⟩ => rfl
  | ⟨1, _⟩ => rfl

/-- The accumulator's second entry after a point: what it held plus the sum of the block's count terms. -/
theorem pay1_apply1 (v36 : FVec Ideal S1x1 .f32) (v38 : FVec Ideal S1x65536 .f32) (v41 : Vec Ideal S1x2 .f32) :
    k0_pay1 (F := Ideal) v36 v38 v41 (ix2 (0 : Fin 1) (1 : Fin 2))
      = v41 (ix2 (0 : Fin 1) (1 : Fin 2))
        + multiReduction (F := Ideal) .add [1] S1 v38 0x00000000#32 reduces_S1x65536_S1 (.inl rfl) rfl (ix1 (0 : Fin 1)) := by
  unfold k0_pay1
  dsimp only
  rw [shapeCast_self, addf_apply]
  refine congrArg (fun t => v41 (ix2 (0 : Fin 1) (1 : Fin 2)) + t) ?_
  refine (concatenate_pair_apply_right (t := S1x2) (s₁ := S1x1) (s₂ := S1x1) (1 : Fin 2) v36 _ _ (ix2 (0 : Fin 1) (1 : Fin 2)) rfl rfl (ix2 (0 : Fin 1) (0 : Fin 1)) ?_ ?_).trans ?_
  · intro b hb
    match b with
    | ⟨0, _⟩ => rfl
    | ⟨1, _⟩ => exact absurd rfl hb
  · rfl
  · exact cast11_apply _ _

/-- The reset stores zeros. -/
theorem pay3_apply (j : S1x2.Idx) : k0_pay3 (F := Ideal) j = 0 := by
  unfold k0_pay3
  rw [shapeCast_self]
  exact Cert.Consts.zero_eq

/-- The output block is the accumulator, entry by entry. -/
theorem pay2_apply (v50 : Vec Ideal S1x2 .f32) (k : Fin 2) :
    k0_pay2 (F := Ideal) v50 (ix3 (0 : Fin 1) (0 : Fin 1) k) = v50 (ix2 (0 : Fin 1) k) := by
  unfold k0_pay2
  exact shapeCast_apply v50 _ (ix3 (0 : Fin 1) (0 : Fin 1) k) (ix2 (0 : Fin 1) k) (by
    rw [Shape.rowMajor_val_two, Shape.rowMajor_val_three]
    show 0 * 2 + k.val = (0 * 1 + 0) * 2 + k.val
    omega)

end Cert.KernelIdeal.Pay

end
-- ==== Proof.KernelAcc.lean ====
/-
  The kernel's run over its 32 grid points (8 images by 4 tiles), read off its frame: a two-entry accumulator is
  reset at an image's first tile, receives every tile's contribution, and is copied to the image's output block
  at the image's last tile. So the output array's block `n` ends holding the accumulator after point `4 n + 3`.
-/
import proofs.«421680_j12128987644159_3_alg».proof.Proof.Gen.KernelIdeal.Frame
import Idealize.ShloMosaic.Lib.Pipeline.Value
import Idealize.ShloMosaic.Lib.ValueIdx
import Idealize.ShloMosaic.Lib.Tactic
set_option maxRecDepth 16384

noncomputable section

open scoped BigOperators

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The logits block the body finds at point `t`. -/
abbrev xblk (c : Dev nD) (t : Fin cfg0.N) : Vec F S1x19x65536 .f32 := iblk m c 0 t
/-- The packed-word block the body finds at point `t`. -/
abbrev wblk (c : Dev nD) (t : Fin cfg0.N) : Vec F S1x1x65536 .i32 := iblk m c 1 t

/-- The accumulator after point `n`: the point's contribution added to what the point before left, or to
    zeros where the point is an image's first tile. -/
def acc (c : Dev nD) : (n : ℕ) → n < cfg0.N → Vec F S1x2 .f32
  | 0, h => k0_pay1 (F := F) (k0_pay6 (xblk m c ⟨0, h⟩) (wblk m c ⟨0, h⟩)) (k0_pay7 (wblk m c ⟨0, h⟩)) (k0_pay3 (F := F))
  | n + 1, h =>
    k0_pay1 (F := F) (k0_pay6 (xblk m c ⟨n + 1, h⟩) (wblk m c ⟨n + 1, h⟩)) (k0_pay7 (wblk m c ⟨n + 1, h⟩))
      (if (n + 1) % 4 = 0 then k0_pay3 (F := F) else acc c n (Nat.lt_of_succ_lt h))

/-! ## What one point leaves, case by case

At every point the body adds the point's contribution to the two-entry scratch; at an image's first tile it first
stores zeros there, and at an image's last tile it then copies the scratch, reshaped, to the output block. Each lemma
below reads one case's stores back: a store through the whole-shape rectangle at zero offsets leaves its payload, and
a load through it reads what the buffer held (the contents the point started with, or the zeros just stored). -/

/-- Zero offsets of a rank-2 rectangle, as a function. -/
theorem hz2 : (![0, 0] : Fin 2 → Nat) = fun _ => 0 := funext fun a => by fin_cases a <;> rfl
/-- Zero offsets of a rank-3 rectangle, as a function. -/
theorem hz3 : (![0, 0, 0] : Fin 3 → Nat) = fun _ => 0 := funext fun a => by fin_cases a <;> rfl

/-- A middle tile (neither first nor last of its image): the scratch that held `xs` ends holding `xs` plus the
    point's contribution. -/
theorem sB (c : Dev nD) (i : grid0.Coords) (a2 : Memref sig .tc .vmem S1x19x65536 .f32) (h2 : a2.IsWhole)
    (a3 : Memref sig .tc .vmem S1x1x65536 .i32) (h3 : a3.IsWhole) (a4 : Memref sig .tc .vmem S1x1x2 .f32) (h4 : a4.IsWhole)
    (a5 : Memref sig .tc .vmem S1x2 .f32) (h5 : a5.IsWhole) (hc0 : ¬cond0_0 i) (hc1 : ¬cond0_1 i)
    (x0 : Vec F S1x19x65536 .f32) (x1 : Vec F S1x1x65536 .i32) (xs : Vec F S1x2 .f32) :
    sout0_B_0 c i a2 h2 a3 h3 a4 h4 a5 h5 hc0 hc1 x0 x1 xs = k0_pay1 (F := F) (k0_pay6 x0 x1) (k0_pay7 x1) xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1x2) hz2]
  simp only [View.readAt_eq_ld, h2.read_unread, h3.read_unread, h5.read_unread, View.ld_unit_zero (S := S1x19x65536) hz3,
    View.ld_unit_zero (S := S1x1x65536) hz3, View.ld_unit_zero (S := S1x2) hz2, shapeCast_self]

/-- An image's last tile: the scratch is updated exactly as at a middle tile. -/
theorem sC (c : Dev nD) (i : grid0.Coords) (a2 : Memref sig .tc .vmem S1x19x65536 .f32) (h2 : a2.IsWhole)
    (a3 : Memref sig .tc .vmem S1x1x65536 .i32) (h3 : a3.IsWhole) (a4 : Memref sig .tc .vmem S1x1x2 .f32) (h4 : a4.IsWhole)
    (a5 : Memref sig .tc .vmem S1x2 .f32) (h5 : a5.IsWhole) (hc0 : ¬cond0_0 i) (hc1 : cond0_1 i)
    (x0 : Vec F S1x19x65536 .f32) (x1 : Vec F S1x1x65536 .i32) (xs : Vec F S1x2 .f32) :
    sout0_C_0 c i a2 h2 a3 h3 a4 h4 a5 h5 hc0 hc1 x0 x1 xs = k0_pay1 (F := F) (k0_pay6 x0 x1) (k0_pay7 x1) xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1x2) hz2]
  simp only [View.readAt_eq_ld, h2.read_unread, h3.read_unread, h5.read_unread, View.ld_unit_zero (S := S1x19x65536) hz3,
    View.ld_unit_zero (S := S1x1x65536) hz3, View.ld_unit_zero (S := S1x2) hz2, shapeCast_self]

/-- An image's last tile: the output block ends holding the updated scratch, reshaped (the copy reads the scratch
    back after the update was stored). -/
theorem oC (c : Dev nD) (i : grid0.Coords) (a2 : Memref sig .tc .vmem S1x19x65536 .f32) (h2 : a2.IsWhole)
    (a3 : Memref sig .tc .vmem S1x1x65536 .i32) (h3 : a3.IsWhole) (a4 : Memref sig .tc .vmem S1x1x2 .f32) (h4 : a4.IsWhole)
    (a5 : Memref sig .tc .vmem S1x2 .f32) (h5 : a5.IsWhole) (hc0 : ¬cond0_0 i) (hc1 : cond0_1 i)
    (x0 : Vec F S1x19x65536 .f32) (x1 : Vec F S1x1x65536 .i32) (xs : Vec F S1x2 .f32) :
    out0_C_2 c i a2 h2 a3 h3 a4 h4 a5 h5 hc0 hc1 x0 x1 xs = k0_pay2 (F := F) (k0_pay1 (F := F) (k0_pay6 x0 x1) (k0_pay7 x1) xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1x2) hz3]
  simp only [View.readAt_eq_ld, h2.read_unread, h3.read_unread, h5.read_unread, View.ld_unit_zero (S := S1x19x65536) hz3,
    View.ld_unit_zero (S := S1x1x65536) hz3, View.ld_unit_zero (S := S1x2) hz2, View.readCov_unit_zero (S := S1x2) _ hz2, shapeCast_self]

/-- An image's first tile: zeros are stored, read back, and the point's contribution added to them, whatever the
    scratch held before. -/
theorem sA (c : Dev nD) (i : grid0.Coords) (a2 : Memref sig .tc .vmem S1x19x65536 .f32) (h2 : a2.IsWhole)
    (a3 : Memref sig .tc .vmem S1x1x65536 .i32) (h3 : a3.IsWhole) (a4 : Memref sig .tc .vmem S1x1x2 .f32) (h4 : a4.IsWhole)
    (a5 : Memref sig .tc .vmem S1x2 .f32) (h5 : a5.IsWhole) (hc0 : cond0_0 i) (hc1 : ¬cond0_1 i)
    (x0 : Vec F S1x19x65536 .f32) (x1 : Vec F S1x1x65536 .i32) :
    sout0_A_0 c i a2 h2 a3 h3 a4 h4 a5 h5 hc0 hc1 x0 x1 = k0_pay1 (F := F) (k0_pay6 x0 x1) (k0_pay7 x1) (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x2) hz2]
  simp only [View.readAt_eq_ld, h2.read_unread, h3.read_unread, h5.read_unread, View.ld_unit_zero (S := S1x19x65536) hz3,
    View.ld_unit_zero (S := S1x1x65536) hz3, View.ld_unit_zero (S := S1x2) hz2, View.readCov_unit_zero (S := S1x2) _ hz2, shapeCast_self]

/-- What the frame says the scratch holds after point `n` is that accumulator: by induction on the point, the
    case read off the point's position in its image. -/
theorem scratch_eq (c : Dev nD) : ∀ (n : ℕ) (h : n < cfg0.N), (outsAt0 m c n h).2 = acc m c n h
  | 0, h => by
    have h1 : ¬(⟨0, h⟩ : Fin cfg0.N).val % 4 = 3 := by dsimp only; omega
    rw [outsAt0_A m c ⟨0, h⟩ rfl h1]
    dsimp only
    rw [acc]
    exact sA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) ((hcond0_0 ⟨0, h⟩).mpr rfl) (fun h' => h1 ((hcond0_1 ⟨0, h⟩).mp h'))
      (xblk m c ⟨0, h⟩) (wblk m c ⟨0, h⟩)
  | n + 1, h => by
    have ih := scratch_eq c n (Nat.lt_of_succ_lt h)
    rw [acc]
    by_cases h0 : (n + 1) % 4 = 0
    · have h1 : ¬(n + 1) % 4 = 3 := by omega
      rw [if_pos h0, outsAt0_A m c ⟨n + 1, h⟩ h0 h1]
      dsimp only
      exact sA c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) ((hcond0_0 ⟨n + 1, h⟩).mpr h0)
        (fun h' => h1 ((hcond0_1 ⟨n + 1, h⟩).mp h')) (xblk m c ⟨n + 1, h⟩) (wblk m c ⟨n + 1, h⟩)
    · rw [if_neg h0, ← ih]
      by_cases h1 : (n + 1) % 4 = 3
      · rw [outsAt0_C m c ⟨n + 1, h⟩ h0 h1]
        dsimp only
        exact sC c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun h' => h0 ((hcond0_0 ⟨n + 1, h⟩).mp h'))
          ((hcond0_1 ⟨n + 1, h⟩).mpr h1) (xblk m c ⟨n + 1, h⟩) (wblk m c ⟨n + 1, h⟩)
          (outsAt0 m c n (Nat.lt_of_succ_lt h)).2
      · rw [outsAt0_B m c ⟨n + 1, h⟩ h0 h1]
        dsimp only
        exact sB c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun h' => h0 ((hcond0_0 ⟨n + 1, h⟩).mp h'))
          (fun h' => h1 ((hcond0_1 ⟨n + 1, h⟩).mp h')) (xblk m c ⟨n + 1, h⟩) (wblk m c ⟨n + 1, h⟩)
          (outsAt0 m c n (Nat.lt_of_succ_lt h)).2

/-- The point that closes image `n`. -/
def lastPt (n : Fin 8) : Fin cfg0.N := ⟨4 * n.val + 3, by have := n.isLt; rw [show cfg0.N = 32 from N_0]; omega⟩

/-- The output array after the run: block `n` is the accumulator after the image's last tile. -/
def outArr (c : Dev nD) : S8x1x2.Idx → F .f32 :=
  fun i => k0_pay2 (F := F) (acc m c (lastPt (i 0)).val (lastPt (i 0)).isLt) (ix3 (0 : Fin 1) (0 : Fin 1) (i 2))

/-- The value of a closing point. -/
theorem lastPt_val (q : Fin 8) : (lastPt q).val = 4 * q.val + 3 := rfl

/-- The output window's block index at a point: the image on the first axis, zero on the other two. -/
theorem index2 : ∀ t : Fin grid0.N, win0_2.index t 0 = t.val / 4 ∧ win0_2.index t 1 = 0 ∧ win0_2.index t 2 = 0 := by
  decide +kernel

/-- The output window's blocks are never cut: their sizes are 1, 1, 2 at every point. -/
theorem xsize2 : ∀ t : Fin grid0.N, win0_2.xsize (grid0.coords t) 0 = 1 ∧ win0_2.xsize (grid0.coords t) 1 = 1
    ∧ win0_2.xsize (grid0.coords t) 2 = 2 := by
  decide +kernel

/-- At an image's last tile the output block is the accumulator, reshaped. -/
theorem out_C (c : Dev nD) (t : Fin cfg0.N) (h0 : ¬t.val % 4 = 0) (h1 : t.val % 4 = 3) :
    (outsAt0 m c t.val t.isLt).1 = k0_pay2 (F := F) (acc m c t.val t.isLt) := by
  rw [← scratch_eq m c t.val t.isLt, outsAt0_C m c t h0 h1]
  dsimp only
  exact (oC c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (xblk m c t) (wblk m c t)
      (outsAt0 m c (t.val - 1) (Nat.lt_of_le_of_lt (Nat.sub_le _ _) t.isLt)).2).trans
    (congrArg (k0_pay2 (F := F))
      (sC c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h1) (xblk m c t) (wblk m c t)
        (outsAt0 m c (t.val - 1) (Nat.lt_of_le_of_lt (Nat.sub_le _ _) t.isLt)).2).symm)

/-- `outArr` at an index of image `q`. -/
theorem outArr_of (c : Dev nD) (i : S8x1x2.Idx) (q : Fin 8) (hq : (i 0).val = q.val) :
    outArr m c i = k0_pay2 (F := F) (acc m c (lastPt q).val (lastPt q).isLt) (ix3 (0 : Fin 1) (0 : Fin 1) (i 2)) := by
  have e : i 0 = q := Fin.ext hq
  exact congrArg (fun x : Fin 8 => k0_pay2 (F := F) (acc m c (lastPt x).val (lastPt x).isLt) (ix3 (0 : Fin 1) (0 : Fin 1) (i 2))) e

/-- What an image's last tile writes back is its block of `outArr`. -/
theorem flushed_eq (c : Dev nD) (t : Fin cfg0.N) (hf : (cfg0.win 2).flush t = true) :
    (dats m 0 c).flushed 2 t = ((cfg0.win 2).blk t).view.read (Elt F) (outArr m c) := by
  have hN : t.val < 32 := lt_of_lt_of_eq t.isLt (show cfg0.N = 32 from N_0)
  have h3 : t.val % 4 = 3 := (flush0_2 t).mp hf
  have h0 : ¬t.val % 4 = 0 := by omega
  obtain ⟨q, rfl⟩ : ∃ q : Fin 8, t = lastPt q :=
    ⟨⟨t.val / 4, by omega⟩, Fin.ext (by show t.val = 4 * (t.val / 4) + 3; omega)⟩
  show (cfg0.win 2).cut (grid0.coords (lastPt q)) ((dats m 0 c).after 2 (lastPt q)) = _
  rw [after0_2, out_C m c (lastPt q) h0 h3]
  funext y
  rw [View.read_apply]
  show k0_pay2 (F := F) (acc m c (lastPt q).val (lastPt q).isLt) (win0_2.xinj (grid0.coords (lastPt q)) y)
      = outArr m c ((win0_2.rect (lastPt q)).emb y)
  have hi := index2 (lastPt q)
  have hx := xsize2 (lastPt q)
  have y0 : (y 0).val < win0_2.xsize (grid0.coords (lastPt q)) 0 := (y 0).isLt
  have y1 : (y 1).val < win0_2.xsize (grid0.coords (lastPt q)) 1 := (y 1).isLt
  rw [hx.1] at y0
  rw [hx.2.1] at y1
  have e0 : (((win0_2.rect (lastPt q)).emb y) 0 : Nat) = q.val := by
    rw [Pipeline.Window.rect_emb_val, hi.1, lastPt_val]
    show (4 * q.val + 3) / 4 * 1 + (y 0).val = q.val
    omega
  have e2 : (((win0_2.rect (lastPt q)).emb y) 2 : Nat) = (y 2).val := by
    rw [Pipeline.Window.rect_emb_val, hi.2.2]
    show 0 * 2 + (y 2).val = (y 2).val
    omega
  rw [outArr_of m c _ q e0]
  refine congrArg (k0_pay2 (F := F) (acc m c (lastPt q).val (lastPt q).isLt)) ?_
  funext a
  match a with
  | ⟨0, _⟩ => exact Fin.ext (by show (y 0).val = 0; omega)
  | ⟨1, _⟩ => exact Fin.ext (by show (y 1).val = 0; omega)
  | ⟨2, _⟩ => exact Fin.ext (by show (y 2).val = (((win0_2.rect (lastPt q)).emb y) 2 : Nat); exact e2.symm)

/-- The output array ends holding `outArr`: image `n`'s block is written back once, at the image's last tile, and
    these eight blocks cover the array. -/
theorem final (c : Dev nD) : (dats m 0 c).arrAt 2 cfg0.N = outArr m c :=
  (dats m 0 c).arrAt_eq_of_cover 2 (outArr m c) (fun t hf => flushed_eq m c t hf) fun i => by
    have hv : (lastPt (i 0)).val = 4 * (i 0).val + 3 := rfl
    refine ⟨lastPt (i 0), (flush0_2 (lastPt (i 0))).mpr (by omega), ?_⟩
    show i ∈ ((View.whole main_v15).slice (win0_2.rect (lastPt (i 0)))).set
    rw [View.set_slice_whole, Rect.mem_set_unit]
    have hi := index2 (lastPt (i 0))
    have hx := xsize2 (lastPt (i 0))
    have i0 : (i 0 : Nat) < 8 := (i 0).isLt
    have i1 : (i 1 : Nat) < 1 := (i 1).isLt
    have i2 : (i 2 : Nat) < 2 := (i 2).isLt
    intro a
    match a with
    | ⟨0, _⟩ =>
      show win0_2.index (lastPt (i 0)) 0 * 1 ≤ (i 0 : Nat)
        ∧ (i 0 : Nat) < win0_2.index (lastPt (i 0)) 0 * 1 + win0_2.xsize (grid0.coords (lastPt (i 0))) 0
      rw [hi.1, hx.1]; omega
    | ⟨1, _⟩ =>
      show win0_2.index (lastPt (i 0)) 1 * 1 ≤ (i 1 : Nat)
        ∧ (i 1 : Nat) < win0_2.index (lastPt (i 0)) 1 * 1 + win0_2.xsize (grid0.coords (lastPt (i 0))) 1
      rw [hi.2.1, hx.2.1]; omega
    | ⟨2, _⟩ =>
      show win0_2.index (lastPt (i 0)) 2 * 2 ≤ (i 2 : Nat)
        ∧ (i 2 : Nat) < win0_2.index (lastPt (i 0)) 2 * 2 + win0_2.xsize (grid0.coords (lastPt (i 0))) 2
      rw [hi.2.2, hx.2.2]; omega

end Cert.KernelIdeal.Acc

end
-- ==== Proof.KernelIn.lean ====
/-
  What the kernel's two input windows hold at a grid point, in terms of the program's arguments. Point `t` is
  image `t / 4`, tile `t % 4`. The logits window stages the input array reshaped to (8, 19, 262144): its
  block at (class c, position p) is the logit of class c at that pixel. The packed-word window stages an array
  the host computes before the launch: for each pixel, the 19 marks of the target row its superpixel id names,
  converted to integers and packed into one word, or zero where the mask is off.
-/
import proofs.«421680_j12128987644159_3_alg».proof.Proof.Gen.KernelIdeal.Frame
import proofs.«421680_j12128987644159_3_alg».proof.Proof.Spec
import Idealize.ShloMosaic.Lib.Pipeline.Value
import Idealize.ShloMosaic.Lib.StableHlo.Run
import Idealize.ShloMosaic.Lib.StableHlo.Predicate
import Idealize.ShloMosaic.Lib.Tactic
set_option maxRecDepth 16384

noncomputable section

open scoped BigOperators

namespace Cert.KernelIdeal.In

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The image of grid point `t`. -/
def imgOf (t : Fin cfg0.N) : Fin 8 := ⟨t.val / 4, by have h : t.val < 32 := lt_of_lt_of_eq t.isLt N_0; omega⟩
/-- The tile of grid point `t`. -/
def tileOf (t : Fin cfg0.N) : Fin 4 := ⟨t.val % 4, Nat.mod_lt _ (by decide)⟩

/-- What the region finds in the reshaped logits array: the input array's elements at the shape (8, 19, 262144).
    Of the operations before the launch only the first, the reshape, writes this array. -/
theorem V_v0 (c : Dev nD) :
    (V m c main_v0 : S8x19x262144.Idx → Ideal .f32)
      = shapeCast S8x19x262144 (m ((c.tc : Thread nD τ).loc main_arg0)) shapeCasts_S8x19x512x512_S8x19x262144 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  open Idealize.ShloMosaic.StableHlo in after_results
  rfl

/-- The block index of the logits window at point `t`: (image, 0, tile), decided over the 32 points. -/
theorem idx0 : ∀ t : Fin grid0.N, win0_0.index t 0 = t.val / 4 ∧ win0_0.index t 1 = 0 ∧ win0_0.index t 2 = t.val % 4 := by
  decide +kernel

/-- The logits block at point `t`. -/
theorem xblk_apply (c : Dev nD) (t : Fin cfg0.N) (cc : Fin 19) (p : Fin 65536) :
    (iblk m c 0 t : Vec Ideal S1x19x65536 .f32) (ix3 (0 : Fin 1) cc p)
      = Cert.Spec.Xof (m ((c.tc : Thread nD τ).loc main_arg0)) (imgOf t) cc (Cert.Spec.pix (tileOf t) p) := by
  obtain ⟨h0, h1, h2⟩ := idx0 t
  have ht : t.val < 32 := lt_of_lt_of_eq t.isLt N_0
  have hc : cc.val < 19 := cc.isLt
  have hp : p.val < 65536 := p.isLt
  unfold iblk
  rw [View.read_apply]
  show V m c main_v0 _ = _
  rw [V_v0]
  unfold Cert.Spec.Xof
  -- the reshape reads the operand at the index with the same row-major position
  refine shapeCast_apply _ _ _ _ ?_
  show (S8x19x512x512.rowMajor (ix4 (imgOf t) cc (Cert.Spec.hOf (Cert.Spec.pix (tileOf t) p)) (Cert.Spec.wOf (Cert.Spec.pix (tileOf t) p)))).val
    = (S8x19x262144.rowMajor (((cfg0.win 0).blk t).view.emb (ix3 (0 : Fin 1) cc p))).val
  rw [Shape.rowMajor_val_four, Shape.rowMajor_val_three]
  -- a block's coordinate is its index times its size plus the coordinate inside the block
  show (((t.val / 4) * 19 + cc.val) * 512 + (t.val % 4 * 65536 + p.val) / 512) * 512 + (t.val % 4 * 65536 + p.val) % 512
    = ((win0_0.index t 0 * 1 + 1 * 0) * 19 + (win0_0.index t 1 * 19 + 1 * cc.val)) * 262144 + (win0_0.index t 2 * 65536 + 1 * p.val)
  rw [h0, h1, h2]
  omega

end Cert.KernelIdeal.In

end
-- ==== Proof.KernelInW.lean ====
/-
  What the kernel's packed-word window holds at a grid point, in terms of the program's arguments: for each
  pixel, the 19 marks of the target row its superpixel id names, converted to integers and packed into one
  word (mark c times 2 ^ c, added up), or zero where the mask is off. The host computes that array before the
  launch: it slices the table's first 19 columns, converts them, multiplies by the powers of two, sums each
  row into a word, gathers a word per pixel by the pixel's id, and selects by the mask.

  The host's operations before the launch are taken in short stretches, each read over any contents it starts
  from; chained, they give the staged array as a composition of named stages over the three arguments it
  depends on; each stage is then read at an index.
-/
import proofs.«421680_j12128987644159_3_alg».proof.Proof.KernelIn
set_option maxRecDepth 16384

noncomputable section

open scoped BigOperators

namespace Cert.KernelIdeal.In

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

namespace W

/-! ## The host's stages, each as a function of the arrays it reads -/

section Stages

/-- The first 19 columns of the table, converted to integers. -/
def hT2 (x1 : FVec Ideal S8x2048x20 .f32) : IVec S8x2048x19 32 :=
  fptosi 32 (extractStridedSlice S8x2048x19 ![0, 0, 0] x1 slices_S8x2048x20_S8x2048x19_0_0_0 : FVec Ideal S8x2048x19 .f32)
/-- The powers of two, one per column. -/
def hP5 : IVec S19 32 := Host.shli (broadcastInDim S19 ![] bcast_S_S19 (constantI S_ 32 1#32)) (iotaInDim S19 32 0)
/-- The powers of two laid along the last axis of the table. -/
def hP7 : IVec S8x2048x19 32 :=
  broadcastInDim S8x2048x19 ![0, 1, 2] bcast_S1x1x19_S8x2048x19_0_1_2 (broadcastInDim S1x1x19 ![2] bcast_S19_S1x1x19_2 hP5)
/-- Each row's marks packed into one word. -/
def hT9 (x1 : FVec Ideal S8x2048x20 .f32) : IVec S8x2048 32 :=
  Host.reduce IntOp.addi (muli (hT2 x1) hP7) (constantI S_ 32 0#32) reducesTo_S8x2048x19_S8x2048_d2 h_S_
/-- The ids, one row of 262144 per image. -/
def hI10 (x2 : IVec S8x512x512 32) : IVec S8x262144 32 := shapeCast S8x262144 x2 shapeCasts_S8x512x512_S8x262144
/-- The ids with a negative one wrapped round. -/
def hI4 (i10 : IVec S8x262144 32) : IVec S8x262144 32 :=
  select (cmpi .slt i10 (broadcastInDim S8x262144 ![] bcast_S_S8x262144 (constantI S_ 32 0#32)))
    (addi i10 (broadcastInDim S8x262144 ![] bcast_S_S8x262144 (constantI S_ 32 2048#32))) i10
/-- The same as a column of start indices. -/
def hI5 (i10 : IVec S8x262144 32) : IVec S8x262144x1 32 := shapeCast S8x262144x1 (hI4 i10) shapeCasts_S8x262144_S8x262144x1
/-- Whether each start index names a row of the table. -/
def hR12 (i5 : IVec S8x262144x1 32) : IVec S8x262144 1 :=
  Host.reduce IntOp.andi
    (andi (cmpi .sge i5 (broadcastInDim S8x262144x1 ![] bcast_S_S8x262144x1 (constantI S_ 32 0#32)))
      (cmpi .sle i5 (broadcastInDim S8x262144x1 ![0, 1, 2] bcast_S1x1x1_S8x262144x1_0_1_2
        (broadcastInDim S1x1x1 ![2] bcast_S1_S1x1x1_2 (constantI S1 32 2047#32)))))
    (constantI S_ 1 1#1) reducesTo_S8x262144x1_S8x262144_d2 h_S_
/-- The packed word gathered for each pixel, the least integer where the index names no row. -/
def hG11 (t9 : IVec S8x2048 32) (i5 : IVec S8x262144x1 32) : IVec S8x262144 32 :=
  select (hR12 i5) (Host.gather gather_S8x2048_S8x262144x1_S8x262144_n_1_0_0_1_2_11 t9 i5)
    (broadcastInDim S8x262144 ![] bcast_S_S8x262144 (constantI S_ 32 2147483648#32))
/-- The mask, one row of 262144 per image. -/
def hM12 (x3 : IVec S8x512x512 1) : IVec S8x262144 1 := shapeCast S8x262144 x3 shapeCasts_S8x512x512_S8x262144
/-- The packed word, or zero where the mask is off. -/
def hW13 (m12 : IVec S8x262144 1) (g11 : IVec S8x262144 32) (z : IVec S_ 32) : IVec S8x262144 32 :=
  select m12 g11 (broadcastInDim S8x262144 ![] bcast_S_S8x262144 (id z))
/-- The array the packed-word window stages. -/
def hW14 (w13 : IVec S8x262144 32) : IVec S8x1x262144 32 := shapeCast S8x1x262144 w13 shapeCasts_S8x262144_S8x1x262144

end Stages

/-! ## The host's stretches before the launch, each over any contents it starts from -/

section Chunks
open Idealize.ShloMosaic.StableHlo

variable (G : Valuation τ sig (Elt Ideal))

/-- A stretch cut in two. -/
theorem after_split (n : Nat) (l : List (HloOp τ sig (Elt Ideal))) (r : DevRef τ sig) :
    after l G r = after (List.drop n l) (after (List.take n l) G) r := by
  rw [← StableHlo.after_append, List.take_append_drop]

/-- Reads a buffer the stretch does not write, or one an operation of it writes from the contents before it. -/
local macro "read_stretch" : tactic =>
  `(tactic| (simp only [Gen.hostOps0, Gen.hostOps0_1, Gen.hostOps0_2, Gen.hostOps0_3, Gen.hostOps0_4, List.drop_succ_cons, List.drop_zero,
      List.take_succ_cons, List.take_zero]
             after_results_simp))

theorem c0_v9 : (after hostOps0 G (Proc.devRef .tc main_v9) : IVec S8x2048 32) = hT9 (G (Proc.devRef .tc main_arg1)) := by
  read_stretch
  rfl
theorem c0_v10 : (after hostOps0 G (Proc.devRef .tc main_v10) : IVec S8x262144 32) = hI10 (G (Proc.devRef .tc main_arg2)) := by
  read_stretch
  rfl
theorem c0_arg3 : after hostOps0 G (Proc.devRef .tc main_arg3) = G (Proc.devRef .tc main_arg3) := by
  read_stretch

/-- The call's first eight operations: the start indices. -/
theorem c1a_v5 : (after (List.take 8 hostOps0_1) G (Proc.devRef .tc main_call0_v5) : IVec S8x262144x1 32)
    = hI5 (G (Proc.devRef .tc main_v10)) := by
  read_stretch
  simp only [TRef.ofBuf, TRef.toBuf, cast_eq]
  rfl
theorem c1a_v9 : after (List.take 8 hostOps0_1) G (Proc.devRef .tc main_v9) = G (Proc.devRef .tc main_v9) := by
  read_stretch
theorem c1a_arg3 : after (List.take 8 hostOps0_1) G (Proc.devRef .tc main_arg3) = G (Proc.devRef .tc main_arg3) := by
  read_stretch

/-- Its ninth to eighteenth: the in-range test. -/
theorem c1b_v12 : (after (List.take 10 (List.drop 8 hostOps0_1)) G (Proc.devRef .tc main_call0_v12) : IVec S8x262144 1)
    = hR12 (G (Proc.devRef .tc main_call0_v5)) := by
  read_stretch
  simp only [TRef.ofBuf, TRef.toBuf, cast_eq]
  rfl
theorem c1b_v9 : after (List.take 10 (List.drop 8 hostOps0_1)) G (Proc.devRef .tc main_v9) = G (Proc.devRef .tc main_v9) := by
  read_stretch
theorem c1b_v5 : after (List.take 10 (List.drop 8 hostOps0_1)) G (Proc.devRef .tc main_call0_v5) = G (Proc.devRef .tc main_call0_v5) := by
  read_stretch
theorem c1b_arg3 : after (List.take 10 (List.drop 8 hostOps0_1)) G (Proc.devRef .tc main_arg3) = G (Proc.devRef .tc main_arg3) := by
  read_stretch

/-- Its nineteenth: the gather. -/
theorem c1c_v13 : (after (List.take 1 (List.drop 10 (List.drop 8 hostOps0_1))) G (Proc.devRef .tc main_call0_v13) : IVec S8x262144 32)
    = Host.gather gather_S8x2048_S8x262144x1_S8x262144_n_1_0_0_1_2_11 (G (Proc.devRef .tc main_v9) : IVec S8x2048 32)
        (G (Proc.devRef .tc main_call0_v5) : IVec S8x262144x1 32) := by
  read_stretch
  simp only [TRef.ofBuf, TRef.toBuf, cast_eq]
theorem c1c_v12 : after (List.take 1 (List.drop 10 (List.drop 8 hostOps0_1))) G (Proc.devRef .tc main_call0_v12)
    = G (Proc.devRef .tc main_call0_v12) := by
  read_stretch
theorem c1c_arg3 : after (List.take 1 (List.drop 10 (List.drop 8 hostOps0_1))) G (Proc.devRef .tc main_arg3) = G (Proc.devRef .tc main_arg3) := by
  read_stretch

/-- Its last three: the select. -/
theorem c1d_v11 : (after (List.drop 1 (List.drop 10 (List.drop 8 hostOps0_1))) G (Proc.devRef .tc main_v11) : IVec S8x262144 32)
    = select (G (Proc.devRef .tc main_call0_v12) : IVec S8x262144 1) (G (Proc.devRef .tc main_call0_v13) : IVec S8x262144 32)
        (broadcastInDim S8x262144 ![] bcast_S_S8x262144 (constantI S_ 32 2147483648#32)) := by
  read_stretch
  simp only [TRef.ofBuf, TRef.toBuf, cast_eq]
theorem c1d_arg3 : after (List.drop 1 (List.drop 10 (List.drop 8 hostOps0_1))) G (Proc.devRef .tc main_arg3) = G (Proc.devRef .tc main_arg3) := by
  read_stretch

theorem c2_v12 : (after hostOps0_2 G (Proc.devRef .tc main_v12) : IVec S8x262144 1) = hM12 (G (Proc.devRef .tc main_arg3)) := by
  read_stretch
  rfl
theorem c2_v11 : after hostOps0_2 G (Proc.devRef .tc main_v11) = G (Proc.devRef .tc main_v11) := by
  read_stretch
theorem c2_c1 : (after hostOps0_2 G (Proc.devRef .tc main_c_1) : IVec S_ 32) = constantI S_ 32 0#32 := by
  read_stretch

theorem c3_v13 : (after hostOps0_3 G (Proc.devRef .tc main_v13) : IVec S8x262144 32)
    = hW13 (G (Proc.devRef .tc main_v12)) (G (Proc.devRef .tc main_v11)) (G (Proc.devRef .tc main_c_1)) := by
  read_stretch
  simp only [TRef.ofBuf, TRef.toBuf, cast_eq]
  rfl

theorem c4_v14 : (after hostOps0_4 G (Proc.devRef .tc main_v14) : IVec S8x1x262144 32) = hW14 (G (Proc.devRef .tc main_v13)) := by
  read_stretch
  rfl

end Chunks

section Assembly
open Idealize.ShloMosaic.StableHlo

/-- What the region finds in the packed-word array: the host's chain over the launch contents. -/
theorem V_v14 (c : Dev nD) :
    (V m c main_v14 : IVec S8x1x262144 32)
      = hW14 (hW13 (hM12 (m ((c.tc : Thread nD τ).loc main_arg3)))
          (hG11 (hT9 (m ((c.tc : Thread nD τ).loc main_arg1))) (hI5 (hI10 (m ((c.tc : Thread nD τ).loc main_arg2)))))
          (constantI S_ 32 0#32)) := by
  dsimp only [Gen.V, Gen.V0]
  rw [List.flatten_cons, List.flatten_cons, List.flatten_cons, List.flatten_cons, List.flatten_cons, List.flatten_nil, List.append_nil,
    StableHlo.after_append, StableHlo.after_append, StableHlo.after_append, StableHlo.after_append]
  rw [c4_v14, c3_v13, c2_v12, c2_v11, c2_c1]
  rw [after_split _ 8 hostOps0_1 (Proc.devRef .tc main_v11), after_split _ 8 hostOps0_1 (Proc.devRef .tc main_arg3),
    after_split _ 10 (List.drop 8 hostOps0_1) (Proc.devRef .tc main_v11), after_split _ 10 (List.drop 8 hostOps0_1) (Proc.devRef .tc main_arg3),
    after_split _ 1 (List.drop 10 (List.drop 8 hostOps0_1)) (Proc.devRef .tc main_v11),
    after_split _ 1 (List.drop 10 (List.drop 8 hostOps0_1)) (Proc.devRef .tc main_arg3)]
  rw [c1d_v11, c1d_arg3, c1c_v13, c1c_v12, c1c_arg3, c1b_v12, c1b_v9, c1b_v5, c1b_arg3, c1a_v5, c1a_v9, c1a_arg3, c0_v9, c0_v10, c0_arg3]
  rfl

end Assembly

/-- The packed-word block at point `t` reads the staged array at image `t / 4`, position `(t % 4) * 65536 + p`. -/
theorem wblk_read (c : Dev nD) (t : Fin cfg0.N) (p : Fin 65536) :
    (iblk m c 1 t : Vec Ideal S1x1x65536 .i32) (ix3 (0 : Fin 1) (0 : Fin 1) p)
      = (V m c main_v14 : S8x1x262144.Idx → BitVec 32) (ix3 (imgOf t) (0 : Fin 1) (Cert.Spec.pix (tileOf t) p)) := by
  have hi : win0_1.index t 0 = t.val / 4 ∧ win0_1.index t 1 = 0 ∧ win0_1.index t 2 = t.val % 4 :=
    (by decide +kernel : ∀ t : Fin grid0.N, win0_1.index t 0 = t.val / 4 ∧ win0_1.index t 1 = 0 ∧ win0_1.index t 2 = t.val % 4) t
  unfold iblk
  rw [View.read_apply]
  show V m c main_v14 _ = _
  congr 1
  funext a
  apply Fin.ext
  match a with
  | ⟨0, _⟩ => show win0_1.index t 0 * 1 + 1 * 0 = t.val / 4; rw [hi.1]; omega
  | ⟨1, _⟩ => show win0_1.index t 1 * 1 + 1 * 0 = 0; rw [hi.2.1]
  | ⟨2, _⟩ => show win0_1.index t 2 * 65536 + 1 * p.val = t.val % 4 * 65536 + p.val; rw [hi.2.2]; omega

/-! ## The stages read at an index -/

section Reads

/-- The staged array at (image, 0, position) is the rows-of-262144 array at (image, position). -/
theorem hW14_apply (w13 : IVec S8x262144 32) (n : Fin 8) (q : Fin 262144) :
    hW14 w13 (ix3 n (0 : Fin 1) q) = w13 (ix2 n q) := by
  unfold hW14
  exact shapeCast_apply w13 shapeCasts_S8x262144_S8x1x262144 (ix3 n (0 : Fin 1) q) (ix2 n q)
    (by rewrite [Shape.rowMajor_val_two, Shape.rowMajor_val_three]
        show n.val * 262144 + q.val = (n.val * 1 + 0) * 262144 + q.val
        omega)

/-- The mask at (image, position) is the mask argument at the position's row and column. -/
theorem hM12_apply (x3 : IVec S8x512x512 1) (n : Fin 8) (q : Fin 262144) :
    hM12 x3 (ix2 n q) = x3 (ix3 n (Cert.Spec.hOf q) (Cert.Spec.wOf q)) := by
  unfold hM12
  exact shapeCast_apply x3 shapeCasts_S8x512x512_S8x262144 (ix2 n q) (ix3 n (Cert.Spec.hOf q) (Cert.Spec.wOf q))
    (by rewrite [Shape.rowMajor_val_three, Shape.rowMajor_val_two]
        have hq := q.isLt
        show (n.val * 512 + q.val / 512) * 512 + q.val % 512 = n.val * 262144 + q.val
        omega)

/-- The ids at (image, position) are the id argument at the position's row and column. -/
theorem hI10_apply (x2 : IVec S8x512x512 32) (n : Fin 8) (q : Fin 262144) :
    hI10 x2 (ix2 n q) = x2 (ix3 n (Cert.Spec.hOf q) (Cert.Spec.wOf q)) := by
  unfold hI10
  exact shapeCast_apply x2 shapeCasts_S8x512x512_S8x262144 (ix2 n q) (ix3 n (Cert.Spec.hOf q) (Cert.Spec.wOf q))
    (by rewrite [Shape.rowMajor_val_three, Shape.rowMajor_val_two]
        have hq := q.isLt
        show (n.val * 512 + q.val / 512) * 512 + q.val % 512 = n.val * 262144 + q.val
        omega)

/-- An id that names a row is not wrapped. -/
theorem hI4_apply (i10 : IVec S8x262144 32) (j : S8x262144.Idx) (h : (i10 j).toNat < 2048) : hI4 i10 j = i10 j := by
  unfold hI4
  show Scalar.select (IntOp.cmpi .slt (i10 j) 0#32) (IntOp.addi (i10 j) 2048#32) (i10 j) = i10 j
  have hn : ¬ IntOp.cmpi .slt (i10 j) 0#32 = 1#1 := by
    rw [StableHlo.Predicate.slt_iff_toNat (by omega) (by decide)]
    exact Nat.not_lt_zero _
  rw [eq_zero_of_ne_one hn, select_zero]

/-- The column of start indices at (image, position, 0). -/
theorem hI5_apply (i10 : IVec S8x262144 32) (n : Fin 8) (q : Fin 262144) (z : Fin 1) :
    hI5 i10 (ix3 n q z) = hI4 i10 (ix2 n q) := by
  unfold hI5
  exact shapeCast_apply (hI4 i10) shapeCasts_S8x262144_S8x262144x1 (ix3 n q z) (ix2 n q)
    (by rewrite [Shape.rowMajor_val_two, Shape.rowMajor_val_three]
        have hz := z.isLt
        show n.val * 262144 + q.val = (n.val * 262144 + q.val) * 1 + z.val
        omega)

/-- The last select: the gathered word where the mask bit is on, zero elsewhere. -/
theorem hW13_apply (m12 : IVec S8x262144 1) (g11 : IVec S8x262144 32) (j : S8x262144.Idx) :
    hW13 m12 g11 (constantI S_ 32 0#32) j = if m12 j = 1#1 then g11 j else 0#32 := by
  unfold hW13
  show Scalar.select (m12 j) (g11 j) 0#32 = _
  rfl

end Reads

section Reads2

local notation "gd" => gather_S8x2048_S8x262144x1_S8x262144_n_1_0_0_1_2_11

/-- Over a rank-3 array reduced along its last axis, the index over `(a, b)` with last coordinate `k` is `(a, b, k)`. -/
theorem lift2_eq {d0 d1 d2 : Nat} (h : (⟨3, ![d0, d1, d2]⟩ : Shape).Reduces [(2 : Fin 3)] ⟨2, ![d0, d1]⟩) (a : Fin d0) (b : Fin d1)
    (k : Fin d2) : h.lift (ix2 a b) k = ix3 a b k := by
  funext c
  apply Fin.ext
  match c with
  | ⟨0, _⟩ => rfl
  | ⟨1, _⟩ => rfl
  | ⟨2, _⟩ => rfl

/-- A reduction of a rank-3 array along its last axis, at `(a, b)`: the fold over the last coordinate. -/
theorem reduce_last {α : Type} (f : α → α → α) [Std.Commutative f] [Std.Associative f] {d0 d1 d2 : Nat}
    (x : (⟨3, ![d0, d1, d2]⟩ : Shape).Idx → α) (init : S_.Idx → α)
    (h' : (⟨3, ![d0, d1, d2]⟩ : Shape).ReducesTo [(2 : Fin 3)] ⟨2, ![d0, d1]⟩)
    (h : (⟨3, ![d0, d1, d2]⟩ : Shape).Reduces [(2 : Fin 3)] ⟨2, ![d0, d1]⟩) (hu : 0 < S_.numel) (a : Fin d0) (b : Fin d1) :
    Host.reduce f x init h' hu (ix2 a b)
      = (Finset.univ : Finset (Fin d2)).fold f (init (Shape.Idx.first hu)) (fun k => x (ix3 a b k)) := by
  refine (Host.reduce_eq_fold_single f x init h' h hu (ix2 a b)).trans ?_
  show Finset.fold f _ _ (Finset.univ : Finset (Fin d2)) = _
  congr 1
  funext k
  exact congrArg x (lift2_eq h a b k)

/-- A start index that names a row passes the in-range test. -/
theorem hR12_apply (i5 : IVec S8x262144x1 32) (n : Fin 8) (q : Fin 262144) (h : (i5 (ix3 n q (0 : Fin 1))).toNat < 2048) :
    hR12 i5 (ix2 n q) = 1#1 := by
  unfold hR12
  rw [reduce_last IntOp.andi _ _ reducesTo_S8x262144x1_S8x262144_d2 (by decide) h_S_ n q, Finset.univ_unique, Finset.fold_singleton]
  show IntOp.andi (IntOp.andi (IntOp.cmpi .sge (i5 (ix3 n q (0 : Fin 1))) 0#32) (IntOp.cmpi .sle (i5 (ix3 n q (0 : Fin 1))) 2047#32)) 1#1 = 1#1
  rw [(StableHlo.Predicate.sge_iff_toNat (by omega) (by decide)).mpr (Nat.zero_le _),
    (StableHlo.Predicate.sle_iff_toNat (by omega) (by decide)).mpr (by show _ ≤ 2047; omega)]
  rfl

/-- The gather at (image, position): the image's row that the start index names, the index read signed and clamped. -/
theorem gather_apply (t9 : IVec S8x2048 32) (i5 : IVec S8x262144x1 32) (n : Fin 8) (q : Fin 262144) :
    Host.gather gd t9 i5 (ix2 n q) = t9 (ix2 n ⟨min (i5 (ix3 n q (0 : Fin 1))).toInt.toNat 2047, by omega⟩) := by
  unfold Host.gather
  congr 1
  funext a
  refine Fin.ext ?_
  match a with
  | ⟨0, _⟩ =>
    show GatherDims.start gd (ix2 n q) i5 0 + GatherDims.batchCoord gd (ix2 n q) 0 + GatherDims.offCoord gd (ix2 n q) 0 = n.val
    rw [GatherDims.start_batching gd _ _ _ (by decide), GatherDims.offCoord_eq_zero gd _ _ (by decide)]
    show 0 + GatherDims.batchCoord gd (ix2 n q) 0 + 0 = n.val
    have e : GatherDims.batchCoord gd (ix2 n q) 0 = n.val := rfl
    rw [e]; omega
  | ⟨1, _⟩ =>
    show GatherDims.start gd (ix2 n q) i5 1 + GatherDims.batchCoord gd (ix2 n q) 1 + GatherDims.offCoord gd (ix2 n q) 1
      = min (i5 (ix3 n q (0 : Fin 1))).toInt.toNat 2047
    rw [GatherDims.batchCoord_eq_zero gd _ _ (by decide), GatherDims.offCoord_eq_zero gd _ _ (by decide)]
    simp only [Nat.add_zero]
    unfold GatherDims.start
    rw [dif_pos (show (1 : Fin 2) ∈ GatherDims.startIndexMap gd from by decide)]
    have hsi : GatherDims.siIdx gd (ix2 n q) ⟨List.idxOf (1 : Fin 2) (GatherDims.startIndexMap gd),
        List.idxOf_lt_length_iff.2 (show (1 : Fin 2) ∈ GatherDims.startIndexMap gd from by decide)⟩ = ix3 n q (0 : Fin 1) := by
      funext b; refine Fin.ext ?_
      match b with
      | ⟨0, _⟩ => rfl
      | ⟨1, _⟩ => rfl
      | ⟨2, _⟩ => rfl
    rw [hsi]
    rfl

/-- Under the range test passed, the gathered word is the image's row the start index names. -/
theorem hG11_apply (t9 : IVec S8x2048 32) (i5 : IVec S8x262144x1 32) (n : Fin 8) (q : Fin 262144)
    (h : (i5 (ix3 n q (0 : Fin 1))).toNat < 2048) :
    hG11 t9 i5 (ix2 n q) = t9 (ix2 n ⟨(i5 (ix3 n q (0 : Fin 1))).toNat, h⟩) := by
  unfold hG11
  rw [select_apply, hR12_apply i5 n q h, select_one, gather_apply]
  congr 2
  apply Fin.ext
  show min (i5 (ix3 n q (0 : Fin 1))).toInt.toNat 2047 = (i5 (ix3 n q (0 : Fin 1))).toNat
  rw [StableHlo.Predicate.toInt_eq_toNat_of_lt (by omega)]
  simp only [Int.toNat_natCast]
  omega

end Reads2

section Reads3

/-- The converted table at (image, row, column): the table's mark, converted. -/
theorem hT2_apply (x1 : FVec Ideal S8x2048x20 .f32) (n : Fin 8) (s : Fin 2048) (c : Fin 19) :
    hT2 x1 (ix3 n s c) = Ideal.fptosi 32 (x1 (ix3 n s (Cert.Spec.colOf c))) := by
  unfold hT2
  show Ideal.fptosi 32 (extractStridedSlice S8x2048x19 ![0, 0, 0] x1 slices_S8x2048x20_S8x2048x19_0_0_0 (ix3 n s c)) = _
  rw [extractStridedSlice_apply ![0, 0, 0] x1 slices_S8x2048x20_S8x2048x19_0_0_0 (ix3 n s c) (ix3 n s (Cert.Spec.colOf c))
    (fun a => match a with
      | ⟨0, _⟩ => by show n.val = 0 + n.val; omega
      | ⟨1, _⟩ => by show s.val = 0 + s.val; omega
      | ⟨2, _⟩ => by show c.val = 0 + c.val; omega)]

/-- The powers of two at (image, row, column): two to the column. -/
theorem hP7_apply (n : Fin 8) (s : Fin 2048) (c : Fin 19) : hP7 (ix3 n s c) = 1#32 <<< c.val := by
  unfold hP7
  rw [broadcastInDim_apply _ bcast_S1x1x19_S8x2048x19_0_1_2 _ (ix3 n s c) (ix3 (0 : Fin 1) (0 : Fin 1) c) (fun a => match a with
      | ⟨0, _⟩ => by show (0 : Nat) = if (1 : Nat) = 1 then 0 else n.val; rw [if_pos rfl]
      | ⟨1, _⟩ => by show (0 : Nat) = if (1 : Nat) = 1 then 0 else s.val; rw [if_pos rfl]
      | ⟨2, _⟩ => by show c.val = if (19 : Nat) = 1 then 0 else c.val; rw [if_neg (by decide)]),
    broadcastInDim_apply _ bcast_S19_S1x1x19_2 _ (ix3 (0 : Fin 1) (0 : Fin 1) c) (ix1 c) (fun a => match a with
      | ⟨0, _⟩ => by show c.val = if (19 : Nat) = 1 then 0 else c.val; rw [if_neg (by decide)])]
  unfold hP5
  show IntOp.shli .host 1#32 (BitVec.ofNat 32 c.val) = _
  have hc := c.isLt
  have ht : (BitVec.ofNat 32 c.val).toNat = c.val := by rw [BitVec.toNat_ofNat]; exact Nat.mod_eq_of_lt (by omega)
  rw [shli_host]
  unfold IntOp.shli
  rw [if_pos (by rw [ht]; omega), BitVec.shiftLeft_eq', ht]

/-- The packed rows at (image, row): that row's 19 converted marks, mark `c` times two to the `c`, added up. -/
theorem hT9_apply (x1 : FVec Ideal S8x2048x20 .f32) (n : Fin 8) (s : Fin 2048) :
    hT9 x1 (ix2 n s) = Cert.Spec.packW (Cert.Spec.Tof x1 n s) := by
  unfold hT9
  rw [reduce_last IntOp.addi _ _ reducesTo_S8x2048x19_S8x2048_d2 (by decide) h_S_ n s]
  show Finset.fold IntOp.addi 0#32 (fun k : Fin 19 => IntOp.muli (hT2 x1 (ix3 n s k)) (hP7 (ix3 n s k))) Finset.univ = _
  simp only [hT2_apply, hP7_apply]
  rfl

end Reads3

/-! ## The packed word a pixel carries -/

/-- The host's chain read at (image, 0, position), for ids that name rows: the pixel's packed word. -/
theorem word_apply (x1 : FVec Ideal S8x2048x20 .f32) (x2 : IVec S8x512x512 32) (x3 : IVec S8x512x512 1) (n : Fin 8) (q : Fin 262144)
    (hsp : ∀ i, (x2 i).toNat < 2048) :
    hW14 (hW13 (hM12 x3) (hG11 (hT9 x1) (hI5 (hI10 x2))) (constantI S_ 32 0#32)) (ix3 n (0 : Fin 1) q)
      = Cert.Spec.Wof x1 x2 x3 n q := by
  have hid : hI5 (hI10 x2) (ix3 n q (0 : Fin 1)) = Cert.Spec.SPof x2 n q := by
    rw [hI5_apply, hI4_apply _ _ (by rw [hI10_apply]; exact hsp _), hI10_apply]
    rfl
  have hlt : (hI5 (hI10 x2) (ix3 n q (0 : Fin 1))).toNat < 2048 := by rw [hid]; exact hsp _
  have hrow : (⟨(hI5 (hI10 x2) (ix3 n q (0 : Fin 1))).toNat, hlt⟩ : Fin 2048) = Cert.Spec.rowOf (Cert.Spec.SPof x2 n q) := by
    apply Fin.ext
    show (hI5 (hI10 x2) (ix3 n q (0 : Fin 1))).toNat = (Cert.Spec.SPof x2 n q).toNat % 2048
    rw [hid]
    exact (Nat.mod_eq_of_lt (hsp _)).symm
  rw [hW14_apply, hW13_apply, hM12_apply, hG11_apply _ _ _ _ hlt, hT9_apply, hrow]
  rfl

end W

open W in
/-- The packed-word block at point `t`, for superpixel ids that name rows of the table. -/
theorem wblk_apply (c : Dev nD) (t : Fin cfg0.N) (p : Fin 65536)
    (hsp : ∀ i, (m ((c.tc : Thread nD τ).loc main_arg2) i).toNat < 2048) :
    (iblk m c 1 t : Vec Ideal S1x1x65536 .i32) (ix3 (0 : Fin 1) (0 : Fin 1) p)
      = Cert.Spec.Wof (m ((c.tc : Thread nD τ).loc main_arg1)) (m ((c.tc : Thread nD τ).loc main_arg2))
          (m ((c.tc : Thread nD τ).loc main_arg3)) (imgOf t) (Cert.Spec.pix (tileOf t) p) := by
  rw [wblk_read, V_v14]
  exact word_apply _ _ _ _ _ hsp

end Cert.KernelIdeal.In

end
-- ==== Proof.KernelSum.lean ====
/-
  The output array in closed form. Image `n`'s block holds, in entry 0, the sum over the image's four tiles of
  the sums over a tile's positions of the pixel's loss term, and in entry 1 the same sums of the count terms:
  the accumulator is zero after the reset at the image's first tile and each of the four tiles adds its two
  block sums.
-/
import proofs.«421680_j12128987644159_3_alg».proof.Proof.KernelPay
import proofs.«421680_j12128987644159_3_alg».proof.Proof.KernelAcc
import proofs.«421680_j12128987644159_3_alg».proof.Proof.KernelInW
import Mathlib.Algebra.BigOperators.Fin
set_option maxRecDepth 16384

noncomputable section

open scoped BigOperators

namespace Cert.KernelIdeal.Sum

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Acc Cert.KernelIdeal.Pay Cert.KernelIdeal.In

variable (m : (ℓ : Loc nD τ sig) → Buf (Elt Ideal) ℓ)

/-- At a point whose number is a multiple of four (an image's first tile) the accumulator is the point's
    contribution added to zeros. -/
theorem acc_reset (c : Dev nD) : ∀ (k : ℕ) (h : k < cfg0.N), k % 4 = 0 →
    acc m c k h = k0_pay1 (F := Ideal) (k0_pay6 (xblk m c ⟨k, h⟩) (wblk m c ⟨k, h⟩)) (k0_pay7 (wblk m c ⟨k, h⟩)) (k0_pay3 (F := Ideal))
  | 0, h, _ => rfl
  | k + 1, h, hk => by
    rw [acc, if_pos hk]

/-- At any other point it is the point's contribution added to what the point before left. -/
theorem acc_step (c : Dev nD) (k : ℕ) (h : k + 1 < cfg0.N) (hk : (k + 1) % 4 ≠ 0) :
    acc m c (k + 1) h = k0_pay1 (F := Ideal) (k0_pay6 (xblk m c ⟨k + 1, h⟩) (wblk m c ⟨k + 1, h⟩)) (k0_pay7 (wblk m c ⟨k + 1, h⟩))
      (acc m c k (Nat.lt_of_succ_lt h)) := by
  rw [acc, if_neg hk]

/-- Point `4 n + t` (with `t < 4`) is image `n`. -/
theorem imgOf_mk (n : Fin 8) (t : ℕ) (ht : t < 4) (h : 4 * n.val + t < cfg0.N) : imgOf ⟨4 * n.val + t, h⟩ = n := by
  apply Fin.ext
  show (4 * n.val + t) / 4 = n.val
  omega

/-- Point `4 n + t` (with `t < 4`) is tile `t`. -/
theorem tileOf_mk (n : Fin 8) (t : ℕ) (ht : t < 4) (h : 4 * n.val + t < cfg0.N) : tileOf ⟨4 * n.val + t, h⟩ = ⟨t, ht⟩ := by
  apply Fin.ext
  show (4 * n.val + t) % 4 = t
  omega

/-- The loss of the block at point `4 n + t`: the sum over tile `t`'s positions of image `n`'s pixel terms. -/
theorem blkLoss (c : Dev nD) (hsp : ∀ i, (m ((c.tc : Thread nD τ).loc main_arg2) i).toNat < 2048) (n : Fin 8)
    (t : ℕ) (ht : t < 4) (h : 4 * n.val + t < cfg0.N) :
    k0_pay6 (F := Ideal) (xblk m c ⟨4 * n.val + t, h⟩) (wblk m c ⟨4 * n.val + t, h⟩) (ix2 (0 : Fin 1) (0 : Fin 1))
      = ∑ p : Fin 65536,
          Cert.Spec.lossK (fun cc : Fin 19 => Cert.Spec.Xof (m ((c.tc : Thread nD τ).loc main_arg0)) n cc (Cert.Spec.pix ⟨t, ht⟩ p))
            (Cert.Spec.Wof (m ((c.tc : Thread nD τ).loc main_arg1)) (m ((c.tc : Thread nD τ).loc main_arg2))
              (m ((c.tc : Thread nD τ).loc main_arg3)) n (Cert.Spec.pix ⟨t, ht⟩ p)) := by
  refine (pay6_apply (xblk m c ⟨4 * n.val + t, h⟩) (wblk m c ⟨4 * n.val + t, h⟩) (ix2 (0 : Fin 1) (0 : Fin 1))).trans ?_
  refine Finset.sum_congr rfl fun p _ => ?_
  have hw := wblk_apply m c ⟨4 * n.val + t, h⟩ p hsp
  rw [imgOf_mk n t ht h, tileOf_mk n t ht h] at hw
  have hx : (fun cc : Fin 19 => (xblk m c ⟨4 * n.val + t, h⟩) (ix3 (0 : Fin 1) cc p))
      = fun cc : Fin 19 => Cert.Spec.Xof (m ((c.tc : Thread nD τ).loc main_arg0)) n cc (Cert.Spec.pix ⟨t, ht⟩ p) := by
    funext cc
    have hx1 := xblk_apply m c ⟨4 * n.val + t, h⟩ cc p
    rw [imgOf_mk n t ht h, tileOf_mk n t ht h] at hx1
    exact hx1
  exact congrArg₂ Cert.Spec.lossK hx hw

/-- The count of the block at point `4 n + t`: the sum over tile `t`'s positions of image `n`'s count terms. -/
theorem blkCnt (c : Dev nD) (hsp : ∀ i, (m ((c.tc : Thread nD τ).loc main_arg2) i).toNat < 2048) (n : Fin 8)
    (t : ℕ) (ht : t < 4) (h : 4 * n.val + t < cfg0.N) :
    multiReduction (F := Ideal) .add [1] S1 (k0_pay7 (F := Ideal) (wblk m c ⟨4 * n.val + t, h⟩)) 0x00000000#32 reduces_S1x65536_S1 (.inl rfl) rfl
        (ix1 (0 : Fin 1))
      = ∑ p : Fin 65536,
          Cert.Spec.cntK (Cert.Spec.Wof (m ((c.tc : Thread nD τ).loc main_arg1)) (m ((c.tc : Thread nD τ).loc main_arg2))
              (m ((c.tc : Thread nD τ).loc main_arg3)) n (Cert.Spec.pix ⟨t, ht⟩ p)) := by
  refine (pay7_sum (wblk m c ⟨4 * n.val + t, h⟩) (ix1 (0 : Fin 1))).trans ?_
  refine Finset.sum_congr rfl fun p _ => ?_
  have hw := wblk_apply m c ⟨4 * n.val + t, h⟩ p hsp
  rw [imgOf_mk n t ht h, tileOf_mk n t ht h] at hw
  exact congrArg Cert.Spec.cntK hw

/-- Entry 0 of the accumulator at a point that is not an image's first tile: what the point before left plus the
    block's loss. -/
theorem acc_step0 (c : Dev nD) (k : ℕ) (h : k + 1 < cfg0.N) (hk : (k + 1) % 4 ≠ 0) :
    acc m c (k + 1) h (ix2 (0 : Fin 1) (0 : Fin 2))
      = acc m c k (Nat.lt_of_succ_lt h) (ix2 (0 : Fin 1) (0 : Fin 2)) + k0_pay6 (F := Ideal) (xblk m c ⟨k + 1, h⟩) (wblk m c ⟨k + 1, h⟩) (ix2 (0 : Fin 1) (0 : Fin 1)) := by
  rw [acc_step m c k h hk]
  exact pay1_apply0 _ _ _

/-- Entry 0 of the accumulator at an image's first tile: the block's loss. -/
theorem acc_reset0 (c : Dev nD) (k : ℕ) (h : k < cfg0.N) (hk : k % 4 = 0) :
    acc m c k h (ix2 (0 : Fin 1) (0 : Fin 2)) = k0_pay6 (F := Ideal) (xblk m c ⟨k, h⟩) (wblk m c ⟨k, h⟩) (ix2 (0 : Fin 1) (0 : Fin 1)) := by
  rw [acc_reset m c k h hk, pay1_apply0, pay3_apply, zero_add]

/-- Entry 1 of the accumulator at a point that is not an image's first tile: what the point before left plus the
    block's count. -/
theorem acc_step1 (c : Dev nD) (k : ℕ) (h : k + 1 < cfg0.N) (hk : (k + 1) % 4 ≠ 0) :
    acc m c (k + 1) h (ix2 (0 : Fin 1) (1 : Fin 2))
      = acc m c k (Nat.lt_of_succ_lt h) (ix2 (0 : Fin 1) (1 : Fin 2))
        + multiReduction (F := Ideal) .add [1] S1 (k0_pay7 (F := Ideal) (wblk m c ⟨k + 1, h⟩)) 0x00000000#32 reduces_S1x65536_S1 (.inl rfl) rfl (ix1 (0 : Fin 1)) := by
  rw [acc_step m c k h hk]
  exact pay1_apply1 _ _ _

/-- Entry 1 of the accumulator at an image's first tile: the block's count. -/
theorem acc_reset1 (c : Dev nD) (k : ℕ) (h : k < cfg0.N) (hk : k % 4 = 0) :
    acc m c k h (ix2 (0 : Fin 1) (1 : Fin 2))
      = multiReduction (F := Ideal) .add [1] S1 (k0_pay7 (F := Ideal) (wblk m c ⟨k, h⟩)) 0x00000000#32 reduces_S1x65536_S1 (.inl rfl) rfl (ix1 (0 : Fin 1)) := by
  rw [acc_reset m c k h hk, pay1_apply1, pay3_apply, zero_add]

/-- Entry 0 of image `n`'s output block. -/
theorem out0 (c : Dev nD) (hsp : ∀ i, (m ((c.tc : Thread nD τ).loc main_arg2) i).toNat < 2048) (n : Fin 8) :
    Cert.KernelIdeal.Acc.outArr (F := Ideal) m c (ix3 n (0 : Fin 1) (0 : Fin 2))
      = ∑ t : Fin 4, ∑ p : Fin 65536,
          Cert.Spec.lossK (fun cc : Fin 19 => Cert.Spec.Xof (m ((c.tc : Thread nD τ).loc main_arg0)) n cc (Cert.Spec.pix t p))
            (Cert.Spec.Wof (m ((c.tc : Thread nD τ).loc main_arg1)) (m ((c.tc : Thread nD τ).loc main_arg2))
              (m ((c.tc : Thread nD τ).loc main_arg3)) n (Cert.Spec.pix t p)) := by
  have hN : cfg0.N = 32 := N_0
  have hn := n.isLt
  have h0 : 4 * n.val + 0 < cfg0.N := by omega
  have h1 : 4 * n.val + 1 < cfg0.N := by omega
  have h2 : 4 * n.val + 2 < cfg0.N := by omega
  have h3 : 4 * n.val + 3 < cfg0.N := by omega
  -- the four tiles of the image, last to first
  have e3 : acc m c (4 * n.val + 3) h3 (ix2 (0 : Fin 1) (0 : Fin 2))
      = acc m c (4 * n.val + 2) h2 (ix2 (0 : Fin 1) (0 : Fin 2)) + k0_pay6 (F := Ideal) (xblk m c ⟨4 * n.val + 3, h3⟩) (wblk m c ⟨4 * n.val + 3, h3⟩) (ix2 (0 : Fin 1) (0 : Fin 1)) :=
    acc_step0 m c (4 * n.val + 2) h3 (by omega)
  have e2 : acc m c (4 * n.val + 2) h2 (ix2 (0 : Fin 1) (0 : Fin 2))
      = acc m c (4 * n.val + 1) h1 (ix2 (0 : Fin 1) (0 : Fin 2)) + k0_pay6 (F := Ideal) (xblk m c ⟨4 * n.val + 2, h2⟩) (wblk m c ⟨4 * n.val + 2, h2⟩) (ix2 (0 : Fin 1) (0 : Fin 1)) :=
    acc_step0 m c (4 * n.val + 1) h2 (by omega)
  have e1 : acc m c (4 * n.val + 1) h1 (ix2 (0 : Fin 1) (0 : Fin 2))
      = acc m c (4 * n.val + 0) h0 (ix2 (0 : Fin 1) (0 : Fin 2)) + k0_pay6 (F := Ideal) (xblk m c ⟨4 * n.val + 1, h1⟩) (wblk m c ⟨4 * n.val + 1, h1⟩) (ix2 (0 : Fin 1) (0 : Fin 1)) :=
    acc_step0 m c (4 * n.val + 0) h1 (by omega)
  have e0 : acc m c (4 * n.val + 0) h0 (ix2 (0 : Fin 1) (0 : Fin 2)) = k0_pay6 (F := Ideal) (xblk m c ⟨4 * n.val + 0, h0⟩) (wblk m c ⟨4 * n.val + 0, h0⟩) (ix2 (0 : Fin 1) (0 : Fin 1)) :=
    acc_reset0 m c (4 * n.val + 0) h0 (by omega)
  show k0_pay2 (F := Ideal) (acc m c (4 * n.val + 3) h3) (ix3 (0 : Fin 1) (0 : Fin 1) (0 : Fin 2)) = _
  rw [pay2_apply, e3, e2, e1, e0, blkLoss m c hsp n 0 (by omega) h0, blkLoss m c hsp n 1 (by omega) h1,
    blkLoss m c hsp n 2 (by omega) h2, blkLoss m c hsp n 3 (by omega) h3, Fin.sum_univ_four]
  rfl

/-- Entry 1 of image `n`'s output block. -/
theorem out1 (c : Dev nD) (hsp : ∀ i, (m ((c.tc : Thread nD τ).loc main_arg2) i).toNat < 2048) (n : Fin 8) :
    Cert.KernelIdeal.Acc.outArr (F := Ideal) m c (ix3 n (0 : Fin 1) (1 : Fin 2))
      = ∑ t : Fin 4, ∑ p : Fin 65536,
          Cert.Spec.cntK (Cert.Spec.Wof (m ((c.tc : Thread nD τ).loc main_arg1)) (m ((c.tc : Thread nD τ).loc main_arg2))
              (m ((c.tc : Thread nD τ).loc main_arg3)) n (Cert.Spec.pix t p)) := by
  have hN : cfg0.N = 32 := N_0
  have hn := n.isLt
  have h0 : 4 * n.val + 0 < cfg0.N := by omega
  have h1 : 4 * n.val + 1 < cfg0.N := by omega
  have h2 : 4 * n.val + 2 < cfg0.N := by omega
  have h3 : 4 * n.val + 3 < cfg0.N := by omega
  -- the four tiles of the image, last to first
  have e3 : acc m c (4 * n.val + 3) h3 (ix2 (0 : Fin 1) (1 : Fin 2))
      = acc m c (4 * n.val + 2) h2 (ix2 (0 : Fin 1) (1 : Fin 2)) + multiReduction (F := Ideal) .add [1] S1 (k0_pay7 (F := Ideal) (wblk m c ⟨4 * n.val + 3, h3⟩)) 0x00000000#32 reduces_S1x65536_S1 (.inl rfl) rfl (ix1 (0 : Fin 1)) :=
    acc_step1 m c (4 * n.val + 2) h3 (by omega)
  have e2 : acc m c (4 * n.val + 2) h2 (ix2 (0 : Fin 1) (1 : Fin 2))
      = acc m c (4 * n.val + 1) h1 (ix2 (0 : Fin 1) (1 : Fin 2)) + multiReduction (F := Ideal) .add [1] S1 (k0_pay7 (F := Ideal) (wblk m c ⟨4 * n.val + 2, h2⟩)) 0x00000000#32 reduces_S1x65536_S1 (.inl rfl) rfl (ix1 (0 : Fin 1)) :=
    acc_step1 m c (4 * n.val + 1) h2 (by omega)
  have e1 : acc m c (4 * n.val + 1) h1 (ix2 (0 : Fin 1) (1 : Fin 2))
      = acc m c (4 * n.val + 0) h0 (ix2 (0 : Fin 1) (1 : Fin 2)) + multiReduction (F := Ideal) .add [1] S1 (k0_pay7 (F := Ideal) (wblk m c ⟨4 * n.val + 1, h1⟩)) 0x00000000#32 reduces_S1x65536_S1 (.inl rfl) rfl (ix1 (0 : Fin 1)) :=
    acc_step1 m c (4 * n.val + 0) h1 (by omega)
  have e0 : acc m c (4 * n.val + 0) h0 (ix2 (0 : Fin 1) (1 : Fin 2)) = multiReduction (F := Ideal) .add [1] S1 (k0_pay7 (F := Ideal) (wblk m c ⟨4 * n.val + 0, h0⟩)) 0x00000000#32 reduces_S1x65536_S1 (.inl rfl) rfl (ix1 (0 : Fin 1)) :=
    acc_reset1 m c (4 * n.val + 0) h0 (by omega)
  show k0_pay2 (F := Ideal) (acc m c (4 * n.val + 3) h3) (ix3 (0 : Fin 1) (0 : Fin 1) (1 : Fin 2)) = _
  rw [pay2_apply, e3, e2, e1, e0, blkCnt m c hsp n 0 (by omega) h0, blkCnt m c hsp n 1 (by omega) h1,
    blkCnt m c hsp n 2 (by omega) h2, blkCnt m c hsp n 3 (by omega) h3, Fin.sum_univ_four]
  rfl

end Cert.KernelIdeal.Sum

end
-- ==== Proof.KernelTail.lean ====
/-
  What the host computes after the region: from the [8,1,2] output array it takes entry 0 of every image's
  block and adds them up (from zero), does the same with entry 1, adds one to the second sum and divides the
  first sum by that.
-/
import proofs.«421680_j12128987644159_3_alg».proof.Proof.Gen.KernelIdeal.Frame
import proofs.«421680_j12128987644159_3_alg».proof.Proof.Spec
import Idealize.ShloMosaic.Lib.Pipeline.Value
import Idealize.ShloMosaic.Lib.StableHlo.Run
import Idealize.ShloMosaic.Lib.IdealHost
import Idealize.ShloMosaic.PureOps.Ideal.Laws
import Idealize.ShloMosaic.Lib.Tactic
import Idealize.ShloMosaic.Lib.ValueIdxRank1
set_option maxRecDepth 16384

noncomputable section

open scoped BigOperators

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Entry `n` of the column cut at offset `o` of the last axis, flattened to length 8, is the array's entry
    `(n, 0, o)`: the flattening keeps row-major positions, and the cut adds its offsets to the coordinates. -/
theorem col_read (A : S8x1x2.Idx → EReal) (o : Nat) (ho : o < 2) (hs : S8x1x2.Slices ![0, 0, o] S8x1x1)
    (hc : S8x1x1.ShapeCasts S8) (n : Fin 8) :
    shapeCast S8 (extractStridedSlice S8x1x1 ![0, 0, o] A hs) hc (ix1 n) = A (ix3 n (0 : Fin 1) (⟨o, ho⟩ : Fin 2)) := by
  rw [shapeCast_apply _ hc (ix1 n) (ix3 n (0 : Fin 1) (0 : Fin 1))
    (by rw [Shape.rowMajor_val_three, Shape.rowMajor_val_one]; show (n.val * 1 + 0) * 1 + 0 = n.val; omega)]
  unfold extractStridedSlice
  exact congrArg A (funext fun a => Fin.ext (by
    match a with
    | ⟨0, _⟩ => show 0 + n.val = n.val; omega
    | ⟨1, _⟩ => rfl
    | ⟨2, _⟩ => show o + 0 = o; omega))

/-- The host's sum of that column from an initial scalar is the initial value plus the eight entries: the result has
    rank 0, so the sum runs over every index of the length-8 array, and those are the eight coordinates. -/
theorem col_sum (A : S8x1x2.Idx → EReal) (o : Nat) (ho : o < 2) (hs : S8x1x2.Slices ![0, 0, o] S8x1x1)
    (hc : S8x1x1.ShapeCasts S8) (hr : S8.ReducesTo [0] S_) (hu : 0 < S_.numel) (init : S_.Idx → EReal) (j : S_.Idx) :
    Host.reduceAdd (F := Ideal) (φ := .f32) (shapeCast S8 (extractStridedSlice S8x1x1 ![0, 0, o] A hs) hc) init hr hu j
      = init (Shape.Idx.first hu) + ∑ n : Fin 8, A (ix3 n (0 : Fin 1) (⟨o, ho⟩ : Fin 2)) := by
  rw [hostReduceAdd_apply, Ideal.hostReduceAdd_total hr (fun b => b.elim0)]
  refine congrArg (_ + ·) ?_
  rw [← Equiv.sum_comp (idxEquiv1 (n := 8)).symm]
  exact Finset.sum_congr rfl fun n _ => col_read A o ho hs hc n

/-- The output array the region leaves, at its literal type. -/
abbrev outA (c : Dev nD) : S8x1x2.Idx → EReal := (dats m 0 c).arrAt 2 cfg0.N
/-- The program's result buffer after the run, at its literal type. -/
abbrev resA (c : Dev nD) : S_.Idx → EReal := Pipeline.afterTail₀ cfgs (dats m) 0 (V0 m) [hostOps1] c main_v23

/-- The program's result after the run, from the output array the region leaves. -/
theorem tail_eq (c : Dev nD) :
    resA m c = fun _ => Ideal.div
          (Cert.Spec.zero + ∑ n : Fin 8, outA m c (ix3 n (0 : Fin 1) (0 : Fin 2)))
          (Cert.Spec.one + (Cert.Spec.zero + ∑ n : Fin 8, outA m c (ix3 n (0 : Fin 1) (1 : Fin 2)))) := by
  -- the operations after the region, composed, applied to what the region leaves
  unfold resA Pipeline.afterTail₀
  show StableHlo.after (List.flatten [hostOps1]) _ (Proc.devRef .tc main_v23) = _
  simp only [hostOps1, List.flatten_cons, List.flatten_nil, List.append_nil]
  after_results
  -- what they read is the output array
  have hA : Pipeline.withArrays (cfgs 0).spec c (V0 m c) (fun w => (dats m 0 c).arrAt w (cfgs 0).N) (Proc.devRef .tc main_v15)
      = outA m c := Pipeline.withArrays_arr spec0 launch0.win.arr_inj c _ _ 2
  rw [hA]
  funext j
  -- the quotient at the one index: the first column's sum over one plus the second column's sum
  rw [hostDivf_apply]
  refine congrArg₂ Ideal.div ?_ ?_
  · exact col_sum (outA m c) 0 (by decide) slices_S8x1x2_S8x1x1_0_0_0 shapeCasts_S8x1x1_S8 reducesTo_S8_S_d0 h_S_ _ j
  · show Cert.Spec.one + _ = _
    refine congrArg (_ + ·) ?_
    exact col_sum (outA m c) 1 (by decide) slices_S8x1x2_S8x1x1_0_0_1 shapeCasts_S8x1x1_S8 reducesTo_S8_S_d0 h_S_ _ j

end Cert.KernelIdeal.Tail

end
-- ==== Proof.KernelValue.lean ====
/-
  The kernel's program, run: its result buffer ends holding the packed-word form of the result, as a function
  of the four argument arrays, and the arguments end unchanged. Assembled from the frame's run, the host
  operations after the region, and the output array in closed form.
-/
import proofs.«421680_j12128987644159_3_alg».proof.Proof.KernelSum
import proofs.«421680_j12128987644159_3_alg».proof.Proof.KernelTail
import proofs.«421680_j12128987644159_3_alg».proof.Proof.Consts
set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The packed-word form of the result over core `c`'s argument arrays. -/
abbrev kres (c : Dev nD) : EReal :=
  Cert.Spec.kResult (Cert.Spec.Xof (m ((c.tc : Thread nD τ).loc main_arg0)))
    (Cert.Spec.Wof (m ((c.tc : Thread nD τ).loc main_arg1)) (m ((c.tc : Thread nD τ).loc main_arg2)) (m ((c.tc : Thread nD τ).loc main_arg3)))

/-- The result buffer after the run is the packed-word form of the result. -/
theorem res_eq (c : Dev nD) (hsp : ∀ i, (m ((c.tc : Thread nD τ).loc main_arg2) i).toNat < 2048) :
    Cert.KernelIdeal.Tail.resA m c = fun _ => kres m c := by
  rw [Cert.KernelIdeal.Tail.tail_eq m c]
  funext _
  have hO : Cert.KernelIdeal.Tail.outA m c = Cert.KernelIdeal.Acc.outArr (F := Ideal) m c :=
    Cert.KernelIdeal.Acc.final (F := Ideal) m c
  have h0 : (∑ n : Fin 8, Cert.KernelIdeal.Tail.outA m c (ix3 n (0 : Fin 1) (0 : Fin 2)))
      = Cert.Spec.kLoss (Cert.Spec.Xof (m ((c.tc : Thread nD τ).loc main_arg0)))
          (Cert.Spec.Wof (m ((c.tc : Thread nD τ).loc main_arg1)) (m ((c.tc : Thread nD τ).loc main_arg2)) (m ((c.tc : Thread nD τ).loc main_arg3))) := by
    unfold Cert.Spec.kLoss
    refine Finset.sum_congr rfl fun n _ => ?_
    rw [hO]
    exact Cert.KernelIdeal.Sum.out0 m c hsp n
  have h1 : (∑ n : Fin 8, Cert.KernelIdeal.Tail.outA m c (ix3 n (0 : Fin 1) (1 : Fin 2)))
      = Cert.Spec.kCnt
          (Cert.Spec.Wof (m ((c.tc : Thread nD τ).loc main_arg1)) (m ((c.tc : Thread nD τ).loc main_arg2)) (m ((c.tc : Thread nD τ).loc main_arg3))) := by
    unfold Cert.Spec.kCnt
    refine Finset.sum_congr rfl fun n _ => ?_
    rw [hO]
    exact Cert.KernelIdeal.Sum.out1 m c hsp n
  rw [h0, h1, Cert.Consts.zero_eq, zero_add, zero_add]
  rfl

/-- Every weakly fair execution of the kernel's program terminates with the result buffer at the frame's
    value for it and the four arguments unchanged. -/
theorem run : θ_run defs (onTc (τ := τ) (main (F := Ideal))) ⟨m, fun _ => 0, ρ⟩ (fun r => ∀ c : Dev nD,
      r.2.mem ((c.tc : Thread nD τ).loc main_v23) = Cert.KernelIdeal.Tail.resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v23 (Pipeline.mem_restRefs_of main_v23 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefRead.lean ====
/-
  The reference's run and its read-at-an-index lemmas, gathered for the modules that state what the
  reference computes.
-/
import proofs.«421680_j12128987644159_3_alg».proof.Proof.RefRun
import proofs.«421680_j12128987644159_3_alg».proof.Proof.RefReadP
-- ==== Proof.RefPix.lean ====
/-
  The reference, one pixel at a time, over the extended reals. For pixel (n, q) it forms the softmax of the 19
  logits, gathers the target row the pixel's superpixel id names, decides whether the pixel counts (mask bit on
  and some mark of the row not zero), and takes the logarithm of the softmax mass on the marked classes plus a
  small constant — or zero where the pixel does not count.
-/
import proofs.«421680_j12128987644159_3_alg».proof.Proof.RefRead
import proofs.«421680_j12128987644159_3_alg».proof.Proof.Spec
import proofs.«421680_j12128987644159_3_alg».proof.Proof.Consts
import Idealize.ShloMosaic.Lib.StableHlo.Predicate
import Idealize.ShloMosaic.Lib.IdealHost
set_option maxRecDepth 16384

noncomputable section

open scoped BigOperators

namespace Cert.ReferenceIdeal.RefPix

open Idealize.ShloMosaic Idealize.ShloMosaic.TcCoe Idealize.SL.Sem Idealize.ShloMosaic.ValueIdx
open Cert.ReferenceIdeal Cert.ReferenceIdeal.Gen Cert.ReferenceIdeal.ReadP

variable (x0 : Cert.Spec.SIn.Idx → EReal) (x1 : Cert.Spec.STg.Idx → EReal) (x2 : Cert.Spec.SPx.Idx → BitVec 32) (x3 : Cert.Spec.SPx.Idx → BitVec 1)

/-- The logit the transposed array holds at (n, q, c). -/
theorem v1_at (n : Fin 8) (q : Fin 262144) (c : Fin 19) :
    val_main_v1 (F := Ideal) x0 (ix3 n q c) = Cert.Spec.Xof x0 n c q := by
  rw [val_main_v1_apply, val_main_v0_apply]
  unfold Cert.Spec.Xof
  refine congrArg x0 (funext fun a => Fin.ext ?_)
  have hn := n.isLt; have hq := q.isLt; have hc := c.isLt
  match a with
  | ⟨0, _⟩ => show ((n.val * 19 + c.val) * 262144 + q.val) / 4980736 = n.val; omega
  | ⟨1, _⟩ => show ((n.val * 19 + c.val) * 262144 + q.val) / 262144 % 19 = c.val; omega
  | ⟨2, _⟩ => show ((n.val * 19 + c.val) * 262144 + q.val) / 512 % 512 = q.val / 512; omega
  | ⟨3, _⟩ => show ((n.val * 19 + c.val) * 262144 + q.val) % 512 = q.val % 512; omega

theorem v3_at (n : Fin 8) (q : Fin 262144) (c : Fin 19) :
    val_main_v3 (F := Ideal) x0 (ix3 n q c) = Ideal.div (Cert.Spec.Xof x0 n c q) Cert.Spec.one := by
  rw [val_main_v3_apply, v1_at, val_main_v2_apply, val_main_cst_apply]
  rfl

theorem red19 : S8x262144x19.Reduces [2] S8x262144 := by decide

theorem lift19 (n : Fin 8) (q : Fin 262144) (c : Fin 19) : red19.lift (ix2 n q) c = ix3 n q c := by
  funext a; refine Fin.ext ?_
  match a with
  | ⟨0, _⟩ => rfl
  | ⟨1, _⟩ => rfl
  | ⟨2, _⟩ => rfl

/-- The row maximum at (n, q): the fold of max from bottom over the 19 scaled logits. -/
theorem v4_at (n : Fin 8) (q : Fin 262144) :
    val_main_v4 (F := Ideal) x0 (ix2 n q) = Cert.Spec.mxR (fun c => Cert.Spec.Xof x0 n c q) := by
  unfold val_main_v4
  rw [Host.reduce_eq_fold_single (f := FloatOps.maximumf) _ _ reducesTo_S8x262144x19_S8x262144_d2 red19 h_S_]
  show (Finset.univ : Finset (Fin 19)).fold max (Ideal.ofBits .f32 0xFF800000#32)
      (fun c => val_main_v3 (F := Ideal) x0 (red19.lift (ix2 n q) c)) = _
  rw [Cert.Consts.ninf_eq]
  unfold Cert.Spec.mxR
  refine congrArg (fun f => Finset.fold max (⊥ : EReal) f Finset.univ) (funext fun (c : Fin 19) => ?_)
  show val_main_v3 (F := Ideal) x0 (red19.lift (ix2 n q) c) = Ideal.div (Cert.Spec.Xof x0 n c q) Cert.Spec.one
  rw [lift19 n q c, v3_at]

theorem idx7_at (n : Fin 8) (q : Fin 262144) (z : Fin 1) : idx_main_v7 (ix3 n q z) = ix2 n q := by
  funext a; match a with | ⟨0, _⟩ => rfl | ⟨1, _⟩ => rfl
theorem idx8_at (n : Fin 8) (q : Fin 262144) (c : Fin 19) : idx_main_v8 (ix3 n q c) = ix3 n q (0 : Fin 1) := by
  funext a; match a with | ⟨0, _⟩ => rfl | ⟨1, _⟩ => rfl | ⟨2, _⟩ => rfl

theorem v6_at (n : Fin 8) (q : Fin 262144) :
    val_main_v6 (F := Ideal) x0 (ix2 n q) = Cert.Spec.mxR (fun c => Cert.Spec.Xof x0 n c q) := by
  rw [val_main_v6_apply, v4_at, val_main_v5_apply, val_main_cst_1_apply]
  show max (Ideal.ofBits .f32 0xFF800000#32) _ = _
  rw [Cert.Consts.ninf_eq]
  exact max_eq_right bot_le

theorem v8_at (n : Fin 8) (q : Fin 262144) (c : Fin 19) :
    val_main_v8 (F := Ideal) x0 (ix3 n q c) = Cert.Spec.mxR (fun c => Cert.Spec.Xof x0 n c q) := by
  rw [val_main_v8_apply, idx8_at, val_main_v7_apply, idx7_at, v6_at]

theorem v10_at (n : Fin 8) (q : Fin 262144) (c : Fin 19) :
    val_main_v10 (F := Ideal) x0 (ix3 n q c) = Cert.Spec.exR (fun c => Cert.Spec.Xof x0 n c q) c := by
  rw [val_main_v10_apply, val_main_v9_apply, v3_at, v8_at]
  rfl

theorem idx11_at (n : Fin 8) (q : Fin 262144) (k : Fin 19) : idx_main_v11 (ix2 n q) k = ix3 n q k := by
  funext a; match a with | ⟨0, _⟩ => rfl | ⟨1, _⟩ => rfl | ⟨2, _⟩ => rfl

theorem v11_at (n : Fin 8) (q : Fin 262144) :
    val_main_v11 (F := Ideal) x0 (ix2 n q) = ∑ c, Cert.Spec.exR (fun c => Cert.Spec.Xof x0 n c q) c := by
  rw [val_main_v11_apply, val_main_cst_2_apply]
  show Cert.Spec.zero + _ = _
  rw [Cert.Consts.zero_eq, zero_add]
  refine Finset.sum_congr rfl fun k _ => ?_
  rw [idx11_at, v10_at]

theorem idx12_at (n : Fin 8) (q : Fin 262144) (z : Fin 1) : idx_main_v12 (ix3 n q z) = ix2 n q := by
  funext a; match a with | ⟨0, _⟩ => rfl | ⟨1, _⟩ => rfl
theorem idx13_at (n : Fin 8) (q : Fin 262144) (c : Fin 19) : idx_main_v13 (ix3 n q c) = ix3 n q (0 : Fin 1) := by
  funext a; match a with | ⟨0, _⟩ => rfl | ⟨1, _⟩ => rfl | ⟨2, _⟩ => rfl

theorem v14_at (n : Fin 8) (q : Fin 262144) (c : Fin 19) :
    val_main_v14 (F := Ideal) x0 (ix3 n q c)
      = Ideal.div (Cert.Spec.exR (fun c => Cert.Spec.Xof x0 n c q) c) (∑ c', Cert.Spec.exR (fun c => Cert.Spec.Xof x0 n c q) c') := by
  rw [val_main_v14_apply, v10_at, val_main_v13_apply, idx13_at, val_main_v12_apply, idx12_at, v11_at]
  rfl

/-- The flattened id array at (n, q) is the id of pixel (n, q). -/
theorem v15_at (n : Fin 8) (q : Fin 262144) :
    val_main_v15 (F := Ideal) x2 (ix2 n q) = Cert.Spec.SPof x2 n q := by
  rw [val_main_v15_apply]
  unfold Cert.Spec.SPof
  refine congrArg x2 (funext fun a => Fin.ext ?_)
  have hn := n.isLt; have hq := q.isLt
  match a with
  | ⟨0, _⟩ => show (n.val * 262144 + q.val) / 262144 = n.val; omega
  | ⟨1, _⟩ => show (n.val * 262144 + q.val) / 512 % 512 = q.val / 512; omega
  | ⟨2, _⟩ => show (n.val * 262144 + q.val) % 512 = q.val % 512; omega

/-- The flattened mask at (n, q) is the mask bit of pixel (n, q). -/
theorem v16_at (n : Fin 8) (q : Fin 262144) :
    val_main_v16 (F := Ideal) x3 (ix2 n q) = Cert.Spec.Mof x3 n q := by
  rw [val_main_v16_apply]
  unfold Cert.Spec.Mof
  refine congrArg x3 (funext fun a => Fin.ext ?_)
  have hn := n.isLt; have hq := q.isLt
  match a with
  | ⟨0, _⟩ => show (n.val * 262144 + q.val) / 262144 = n.val; omega
  | ⟨1, _⟩ => show (n.val * 262144 + q.val) / 512 % 512 = q.val / 512; omega
  | ⟨2, _⟩ => show (n.val * 262144 + q.val) % 512 = q.val % 512; omega

theorem idx18_at (n : Fin 8) (q : Fin 262144) (z : Fin 1) : idx_main_v18 (ix3 n q z) = ix2 n q := by
  funext a; match a with | ⟨0, _⟩ => rfl | ⟨1, _⟩ => rfl

theorem v18_at (n : Fin 8) (q : Fin 262144) (z : Fin 1) :
    val_main_v18 (F := Ideal) x2 (ix3 n q z) = Cert.Spec.SPof x2 n q := by
  rw [val_main_v18_apply, idx18_at, v15_at]

theorem sp_lt (hsp : ∀ i, (x2 i).toNat < 2048) (n : Fin 8) (q : Fin 262144) : (Cert.Spec.SPof x2 n q).toNat < 2048 := hsp _

/-- An id in range is not negative, so the wrapped index is the id itself. -/
theorem call0_v4_at (hsp : ∀ i, (x2 i).toNat < 2048) (n : Fin 8) (q : Fin 262144) (z : Fin 1) :
    val_main_call0_v4 (F := Ideal) x2 (ix3 n q z) = Cert.Spec.SPof x2 n q := by
  have h := sp_lt x2 hsp n q
  rw [val_main_call0_v4_apply, val_main_call0_v1_apply, v18_at, val_main_call0_v0_apply, val_main_call0_c_apply]
  have hc : IntOp.cmpi .slt (Cert.Spec.SPof x2 n q) 0#32 = 0#1 := by
    refine eq_zero_of_ne_one fun e => ?_
    have := (StableHlo.Predicate.slt_iff_toNat (by omega) (by decide)).1 e
    simp at this
  rw [hc, select_zero]

/-- An id in range passes the gather's range test. -/
theorem call0_v10_at (hsp : ∀ i, (x2 i).toNat < 2048) (n : Fin 8) (q : Fin 262144) (z : Fin 1) :
    val_main_call0_v10 (F := Ideal) x2 (ix3 n q z) = 1#1 := by
  have h := sp_lt x2 hsp n q
  rw [val_main_call0_v10_apply, val_main_call0_v6_apply, val_main_call0_v9_apply, call0_v4_at x2 hsp,
    val_main_call0_v5_apply, val_main_call0_c_2_apply, val_main_call0_v8_apply, val_main_call0_v7_apply,
    val_main_call0_c_1_apply]
  have h6 : IntOp.cmpi .sge (Cert.Spec.SPof x2 n q) 0#32 = 1#1 :=
    (StableHlo.Predicate.sge_iff_toNat (by omega) (by decide)).2 (by simp)
  have h9 : IntOp.cmpi .sle (Cert.Spec.SPof x2 n q) 2047#32 = 1#1 :=
    (StableHlo.Predicate.sle_iff_toNat (by omega) (by decide)).2 (by simp; omega)
  rw [h6, h9]
  rfl

theorem red1 : S8x262144x1.Reduces [2] S8x262144 := by decide

theorem lift1 (n : Fin 8) (q : Fin 262144) (z : Fin 1) : red1.lift (ix2 n q) z = ix3 n q z := by
  funext a; refine Fin.ext ?_
  match a with
  | ⟨0, _⟩ => rfl
  | ⟨1, _⟩ => rfl
  | ⟨2, _⟩ => rfl

theorem fold_andi_fin1 (f : Fin 1 → BitVec 1) (h : f 0 = 1#1) :
    (Finset.univ : Finset (Fin 1)).fold IntOp.andi (1#1) f = 1#1 := by
  rw [Finset.univ_unique, Finset.fold_singleton]
  show IntOp.andi (f 0) (1#1) = 1#1
  rw [h]; rfl

/-- The range test reduced over its one-element axis is still on. -/
theorem call0_v11_at (hsp : ∀ i, (x2 i).toNat < 2048) (n : Fin 8) (q : Fin 262144) :
    val_main_call0_v11 (F := Ideal) x2 (ix2 n q) = 1#1 := by
  unfold val_main_call0_v11
  rw [Host.reduce_eq_fold_single (f := IntOp.andi) _ _ reducesTo_S8x262144x1_S8x262144_d2 red1 h_S_]
  refine fold_andi_fin1 (fun z : Fin 1 => val_main_call0_v10 (F := Ideal) x2 (red1.lift (ix2 n q) z)) ?_
  show val_main_call0_v10 (F := Ideal) x2 (red1.lift (ix2 n q) (0 : Fin 1)) = 1#1
  rw [lift1, call0_v10_at x2 hsp]

theorem idx17_at (n : Fin 8) (s : Fin 2048) (c : Fin 19) : idx_main_v17 (ix3 n s c) = ix3 n s (Cert.Spec.colOf c) := by
  funext a; match a with | ⟨0, _⟩ => rfl | ⟨1, _⟩ => rfl | ⟨2, _⟩ => rfl

abbrev gd := gather_S8x2048x19_S8x262144x1_S8x262144x19_2_1_0_0_1_2_1119

theorem gd_axis0 (n : Fin 8) (q : Fin 262144) (c : Fin 19) (idx : IVec S8x262144x1 32) :
    gd.start (ix3 n q c) idx 0 + gd.batchCoord (ix3 n q c) 0 + gd.offCoord (ix3 n q c) 0 = n.val := by
  have hs : gd.start (ix3 n q c) idx 0 = 0 := by
    unfold GatherDims.start
    rw [dif_neg (show (0 : Fin S8x2048x19.rank) ∉ gd.startIndexMap by decide)]
  have ho : gd.offCoord (ix3 n q c) 0 = 0 :=
    GatherDims.offCoord_eq_zero _ _ _ (fun h => ((GatherDims.mem_sKept _ _).mp h).2 (show (0 : Fin S8x2048x19.rank) ∈ gd.operandBatchingDims by decide))
  simp only [hs, ho, Nat.zero_add, Nat.add_zero]
  unfold GatherDims.batchCoord
  rw [dif_pos (show (0 : Fin S8x2048x19.rank) ∈ gd.operandBatchingDims by decide)]
  unfold GatherDims.siCoord
  simp only [Fin.coe_cast]
  exact congrArg (fun x => ((ix3 n q c : S8x262144x19.Idx) x).val) (show _ = (0 : Fin 3) by decide)

theorem gd_axis2 (n : Fin 8) (q : Fin 262144) (c : Fin 19) (idx : IVec S8x262144x1 32) :
    gd.start (ix3 n q c) idx 2 + gd.batchCoord (ix3 n q c) 2 + gd.offCoord (ix3 n q c) 2 = c.val := by
  have hs : gd.start (ix3 n q c) idx 2 = 0 := by
    unfold GatherDims.start
    rw [dif_neg (show (2 : Fin S8x2048x19.rank) ∉ gd.startIndexMap by decide)]
  have hb : gd.batchCoord (ix3 n q c) 2 = 0 :=
    GatherDims.batchCoord_eq_zero _ _ _ (show (2 : Fin S8x2048x19.rank) ∉ gd.operandBatchingDims by decide)
  simp only [hs, hb, Nat.zero_add, Nat.add_zero]
  unfold GatherDims.offCoord
  rw [dif_pos (show (2 : Fin S8x2048x19.rank) ∈ gd.sKept by decide)]
  exact congrArg (fun x => ((ix3 n q c : S8x262144x19.Idx) x).val) (show _ = (2 : Fin 3) by decide)

theorem gd_siIdx (n : Fin 8) (q : Fin 262144) (c : Fin 19) (k : Fin gd.startIndexMap.length) :
    gd.siIdx (ix3 n q c) k = ix3 n q (0 : Fin 1) := by
  funext b
  refine Fin.ext ?_
  match b with
  | ⟨0, h0⟩ =>
    show (gd.siIdx (ix3 n q c) k (0 : Fin S8x262144x1.rank)).val = n.val
    unfold GatherDims.siIdx
    rw [dif_neg (show ¬ ((0 : Fin S8x262144x1.rank).val = gd.indexVectorDim) by decide)]
    unfold GatherDims.siCoord
    simp only [Fin.coe_cast]
    exact congrArg (fun x => ((ix3 n q c : S8x262144x19.Idx) x).val) (show _ = (0 : Fin 3) by decide)
  | ⟨1, h1⟩ =>
    show (gd.siIdx (ix3 n q c) k (1 : Fin S8x262144x1.rank)).val = q.val
    unfold GatherDims.siIdx
    rw [dif_neg (show ¬ ((1 : Fin S8x262144x1.rank).val = gd.indexVectorDim) by decide)]
    unfold GatherDims.siCoord
    simp only [Fin.coe_cast]
    exact congrArg (fun x => ((ix3 n q c : S8x262144x19.Idx) x).val) (show _ = (1 : Fin 3) by decide)
  | ⟨2, h2⟩ =>
    show (gd.siIdx (ix3 n q c) k (2 : Fin S8x262144x1.rank)).val = 0
    unfold GatherDims.siIdx
    rw [dif_pos (show ((2 : Fin S8x262144x1.rank).val = gd.indexVectorDim) by decide)]
    have := k.isLt
    have hl : gd.startIndexMap.length = 1 := by decide
    show k.val = 0
    omega

theorem gd_axis1 (n : Fin 8) (q : Fin 262144) (c : Fin 19) (idx : IVec S8x262144x1 32) :
    gd.start (ix3 n q c) idx 1 + gd.batchCoord (ix3 n q c) 1 + gd.offCoord (ix3 n q c) 1
      = min (idx (ix3 n q (0 : Fin 1))).toInt.toNat 2047 := by
  have hb : gd.batchCoord (ix3 n q c) 1 = 0 :=
    GatherDims.batchCoord_eq_zero _ _ _ (show (1 : Fin S8x2048x19.rank) ∉ gd.operandBatchingDims by decide)
  have ho : gd.offCoord (ix3 n q c) 1 = 0 :=
    GatherDims.offCoord_eq_zero _ _ _ (fun h => ((GatherDims.mem_sKept _ _).mp h).1 (show (1 : Fin S8x2048x19.rank) ∈ gd.collapsedSliceDims by decide))
  simp only [hb, ho, Nat.zero_add, Nat.add_zero]
  unfold GatherDims.start
  rw [dif_pos (show (1 : Fin S8x2048x19.rank) ∈ gd.startIndexMap by decide), gd_siIdx]
  rfl

/-- The gather at (n, q, c) reads row `id` of image n, column c. -/
theorem call0_v12_at (hsp : ∀ i, (x2 i).toNat < 2048) (n : Fin 8) (q : Fin 262144) (c : Fin 19) :
    val_main_call0_v12 (F := Ideal) x1 x2 (ix3 n q c) = Cert.Spec.Gof x1 x2 n q c := by
  have h := sp_lt x2 hsp n q
  unfold val_main_call0_v12 Host.gather
  have hidx : gd.operandIdx (ix3 n q c) (val_main_call0_v4 (F := Ideal) x2)
      = ix3 n (Cert.Spec.rowOf (Cert.Spec.SPof x2 n q)) c := by
    funext a
    refine Fin.ext ?_
    match a with
    | ⟨0, _⟩ => exact gd_axis0 n q c _
    | ⟨1, _⟩ =>
      refine (gd_axis1 n q c _).trans ?_
      rw [call0_v4_at x2 hsp, StableHlo.Predicate.toInt_eq_toNat_of_lt (by omega), Int.toNat_natCast]
      show min (Cert.Spec.SPof x2 n q).toNat 2047 = (Cert.Spec.SPof x2 n q).toNat % 2048
      rw [Nat.mod_eq_of_lt h]
      omega
    | ⟨2, _⟩ => exact gd_axis2 n q c _
  rw [hidx, val_main_v17_apply, idx17_at]
  rfl

theorem idx_call0_v13_at (n : Fin 8) (q : Fin 262144) (c : Fin 19) : idx_main_call0_v13 (ix3 n q c) = ix2 n q := by
  funext a; match a with | ⟨0, _⟩ => rfl | ⟨1, _⟩ => rfl

/-- The row the pixel's id names, as the reference's take reads it. -/
theorem v19_at (hsp : ∀ i, (x2 i).toNat < 2048) (n : Fin 8) (q : Fin 262144) (c : Fin 19) :
    val_main_v19 (F := Ideal) x1 x2 (ix3 n q c) = Cert.Spec.Gof x1 x2 n q c := by
  rw [val_main_v19_apply, val_main_call0_v13_apply, idx_call0_v13_at, call0_v11_at x2 hsp, select_one,
    call0_v12_at x1 x2 hsp]

theorem v21_at (hsp : ∀ i, (x2 i).toNat < 2048) (n : Fin 8) (q : Fin 262144) (c : Fin 19) :
    val_main_v21 (F := Ideal) x1 x2 (ix3 n q c) = Ideal.cmp .une (Cert.Spec.Gof x1 x2 n q c) Cert.Spec.zero := by
  rw [val_main_v21_apply, v19_at x1 x2 hsp, val_main_v20_apply, val_main_cst_3_apply]
  rfl

/-- The "not equal to zero" bit is on exactly for a number that is not zero. -/
theorem une_zero_iff (a : EReal) : Ideal.cmp .une a Cert.Spec.zero = 1#1 ↔ a ≠ 0 := by
  rw [Cert.Consts.zero_eq]
  unfold Ideal.cmp
  rw [StableHlo.Predicate.ofBool_eq_one_iff]
  exact decide_eq_true_iff

theorem ori_eq_one (c d : BitVec 1) : IntOp.ori c d = 1#1 ↔ c = 1#1 ∨ d = 1#1 := by
  revert c d; decide

theorem andi_eq_one (c d : BitVec 1) : IntOp.andi c d = 1#1 ↔ c = 1#1 ∧ d = 1#1 := by
  revert c d; decide

/-- An or-fold of one-bit words from zero is on exactly when some word is on. -/
theorem fold_ori_eq_one {ι : Type} (s : Finset ι) (f : ι → BitVec 1) :
    s.fold IntOp.ori (0#1) f = 1#1 ↔ ∃ i ∈ s, f i = 1#1 := by
  classical
  induction s using Finset.induction_on with
  | empty => simp
  | insert a s ha ih =>
    rw [Finset.fold_insert ha, ori_eq_one, ih]
    constructor
    · rintro (h | ⟨i, hi, h⟩)
      · exact ⟨a, Finset.mem_insert_self a s, h⟩
      · exact ⟨i, Finset.mem_insert_of_mem hi, h⟩
    · rintro ⟨i, hi, h⟩
      rcases Finset.mem_insert.1 hi with rfl | hi
      · exact Or.inl h
      · exact Or.inr ⟨i, hi, h⟩

theorem v22_at (hsp : ∀ i, (x2 i).toNat < 2048) (n : Fin 8) (q : Fin 262144) :
    val_main_v22 (F := Ideal) x1 x2 (ix2 n q)
      = (Finset.univ : Finset (Fin 19)).fold IntOp.ori (0#1) (fun c : Fin 19 => Ideal.cmp .une (Cert.Spec.Gof x1 x2 n q c) Cert.Spec.zero) := by
  unfold val_main_v22
  rw [Host.reduce_eq_fold_single (f := IntOp.ori) _ _ reducesTo_S8x262144x19_S8x262144_d2 red19 h_S_]
  show (Finset.univ : Finset (Fin 19)).fold IntOp.ori (0#1)
      (fun c : Fin 19 => val_main_v21 (F := Ideal) x1 x2 (red19.lift (ix2 n q) c)) = _
  refine congrArg (fun f => Finset.fold IntOp.ori (0#1 : BitVec 1) f (Finset.univ : Finset (Fin 19))) (funext fun (c : Fin 19) => ?_)
  show val_main_v21 (F := Ideal) x1 x2 (red19.lift (ix2 n q) c) = _
  rw [lift19 n q c, v21_at x1 x2 hsp]

/-- The "pixel counts" bit is on exactly when the mask bit is on and the gathered row has a mark. -/
theorem v23_iff (hsp : ∀ i, (x2 i).toNat < 2048) (n : Fin 8) (q : Fin 262144) :
    val_main_v23 (F := Ideal) x1 x2 x3 (ix2 n q) = 1#1 ↔ Cert.Spec.validR (Cert.Spec.Mof x3 n q) (Cert.Spec.Gof x1 x2 n q) := by
  rw [val_main_v23_apply, v16_at, v22_at x1 x2 hsp, andi_eq_one, fold_ori_eq_one]
  unfold Cert.Spec.validR
  refine and_congr Iff.rfl ?_
  constructor
  · rintro ⟨c, _, h⟩; exact ⟨c, (une_zero_iff _).1 h⟩
  · rintro ⟨c, h⟩; exact ⟨c, Finset.mem_univ c, (une_zero_iff _).2 h⟩

theorem v24_at (hsp : ∀ i, (x2 i).toNat < 2048) (n : Fin 8) (q : Fin 262144) (c : Fin 19) :
    val_main_v24 (F := Ideal) x0 x1 x2 (ix3 n q c)
      = Ideal.div (Cert.Spec.exR (fun c => Cert.Spec.Xof x0 n c q) c) (∑ c', Cert.Spec.exR (fun c => Cert.Spec.Xof x0 n c q) c')
          * Cert.Spec.Gof x1 x2 n q c := by
  rw [val_main_v24_apply, v14_at, v19_at x1 x2 hsp]
  rfl

theorem idx25_at (n : Fin 8) (q : Fin 262144) (k : Fin 19) : idx_main_v25 (ix2 n q) k = ix3 n q k := by
  funext a; match a with | ⟨0, _⟩ => rfl | ⟨1, _⟩ => rfl | ⟨2, _⟩ => rfl

/-- The softmax mass on the marked classes. -/
theorem v25_at (hsp : ∀ i, (x2 i).toNat < 2048) (n : Fin 8) (q : Fin 262144) :
    val_main_v25 (F := Ideal) x0 x1 x2 (ix2 n q)
      = Cert.Spec.posR (fun c => Cert.Spec.Xof x0 n c q) (Cert.Spec.Gof x1 x2 n q) := by
  rw [val_main_v25_apply, val_main_cst_4_apply]
  show Cert.Spec.zero + _ = _
  rw [Cert.Consts.zero_eq, zero_add]
  unfold Cert.Spec.posR
  refine Finset.sum_congr rfl fun k _ => ?_
  rw [idx25_at, v24_at x0 x1 x2 hsp]

theorem v28_at (hsp : ∀ i, (x2 i).toNat < 2048) (n : Fin 8) (q : Fin 262144) :
    val_main_v28 (F := Ideal) x0 x1 x2 (ix2 n q)
      = Ideal.log (Cert.Spec.posR (fun c => Cert.Spec.Xof x0 n c q) (Cert.Spec.Gof x1 x2 n q) + Cert.Spec.eps) := by
  rw [val_main_v28_apply, val_main_v27_apply, v25_at x0 x1 x2 hsp, val_main_v26_apply, val_main_cst_5_apply]
  rfl

/-- The pixel's term of the reference's sum. -/
theorem v29_apply (hsp : ∀ i, (x2 i).toNat < 2048) (n : Fin 8) (q : Fin 262144) :
    val_main_v29 (F := Ideal) x0 x1 x2 x3 (ix2 n q)
      = Cert.Spec.lossR (fun c : Fin 19 => Cert.Spec.Xof x0 n c q) (Cert.Spec.Gof x1 x2 n q) (Cert.Spec.Mof x3 n q) := by
  rw [val_main_v29_apply]
  unfold Cert.Spec.lossR
  by_cases hv : Cert.Spec.validR (Cert.Spec.Mof x3 n q) (Cert.Spec.Gof x1 x2 n q)
  · rw [if_pos hv, (v23_iff x1 x2 x3 hsp n q).2 hv, select_one, v28_at x0 x1 x2 hsp]
  · have h0 : val_main_v23 (F := Ideal) x1 x2 x3 (ix2 n q) = 0#1 :=
      eq_zero_of_ne_one fun e => hv ((v23_iff x1 x2 x3 hsp n q).1 e)
    rw [if_neg hv, h0, select_zero, val_main_call1_v1_apply, val_main_call1_v0_apply, val_main_cst_6_apply]
    show Cert.Spec.zero = 0
    exact Cert.Consts.zero_eq

end Cert.ReferenceIdeal.RefPix

end
-- ==== Proof.RefTot.lean ====
/-
  The reference's result: the negated sum of the pixels' terms over all 8 x 262144 pixels, divided by one plus
  the number of pixels that count (an integer sum, converted to a real number).
-/
import proofs.«421680_j12128987644159_3_alg».proof.Proof.RefPix
import Idealize.ShloMosaic.Lib.IndicatorCount
import Idealize.ShloMosaic.PureOps.Reduce
set_option maxRecDepth 16384

noncomputable section

open scoped BigOperators

namespace Cert.ReferenceIdeal.RefTot

open Idealize.ShloMosaic Idealize.ShloMosaic.TcCoe Idealize.SL.Sem Idealize.ShloMosaic.ValueIdx
open Cert.ReferenceIdeal Cert.ReferenceIdeal.Gen Cert.ReferenceIdeal.ReadP

variable (x0 : Cert.Spec.SIn.Idx → EReal) (x1 : Cert.Spec.STg.Idx → EReal) (x2 : Cert.Spec.SPx.Idx → BitVec 32) (x3 : Cert.Spec.SPx.Idx → BitVec 1)

/-- The sum of the pixels' terms. -/
theorem v30_eq (hsp : ∀ i, (x2 i).toNat < 2048) (i : S_.Idx) :
    val_main_v30 (F := Ideal) x0 x1 x2 x3 i
      = Cert.Spec.rLoss (Cert.Spec.Xof x0) (Cert.Spec.Gof x1 x2) (Cert.Spec.Mof x3) := by
  rw [val_main_v30_apply, val_main_cst_7_apply]
  show Ideal.ofBits .f32 0x00000000#32 + _ = _
  rw [show Ideal.ofBits .f32 0x00000000#32 = (0 : EReal) from Cert.Consts.zero_eq, zero_add, sum_idx2]
  unfold Cert.Spec.rLoss
  refine Finset.sum_congr rfl (fun n _ => Finset.sum_congr rfl (fun q _ => ?_))
  exact Cert.ReferenceIdeal.RefPix.v29_apply x0 x1 x2 x3 hsp n q

/-- The number of pixels whose bit is on is the number of pixels that count. -/
theorem card_eq (hsp : ∀ i, (x2 i).toNat < 2048) :
    (Finset.univ.filter fun k : S8x262144.Idx => val_main_v23 (F := Ideal) x1 x2 x3 k = 1#1).card
      = Cert.Spec.rCnt (Cert.Spec.Gof x1 x2) (Cert.Spec.Mof x3) := by
  classical
  rw [Finset.card_filter, sum_idx2]
  unfold Cert.Spec.rCnt
  refine Finset.sum_congr rfl (fun n _ => Finset.sum_congr rfl (fun q _ => ?_))
  exact if_congr (Cert.ReferenceIdeal.RefPix.v23_iff x1 x2 x3 hsp n q) rfl rfl

/-- The integer sum of the widened bits is the number of pixels that count, as a word. -/
theorem v33_eq (hsp : ∀ i, (x2 i).toNat < 2048) (i : S_.Idx) :
    val_main_v33 (F := Ideal) x1 x2 x3 i
      = BitVec.ofNat 32 (Cert.Spec.rCnt (Cert.Spec.Gof x1 x2) (Cert.Spec.Mof x3)) := by
  unfold val_main_v33
  rw [Host.reduce_eq_fold]
  have hall : (Finset.univ.filter fun k : S8x262144.Idx => (Facts₀.reducesTo_S8x262144_S_d0_1).drop k = i) = Finset.univ := by
    apply Finset.filter_true_of_mem
    intro k _
    funext a
    exact a.elim0
  rw [hall]
  show Finset.univ.fold IntOp.addi (0#32) (fun k => (val_main_v23 (F := Ideal) x1 x2 x3 k).setWidth 32) = _
  rw [IndicatorCount.fold_addi_setWidth_eq_card, card_eq x1 x2 x3 hsp]

/-- At most every pixel counts. -/
theorem rCnt_le (G : Fin 8 → Fin 262144 → Fin 19 → EReal) (M : Fin 8 → Fin 262144 → BitVec 1) :
    Cert.Spec.rCnt G M ≤ 2097152 := by
  classical
  unfold Cert.Spec.rCnt
  calc (∑ n : Fin 8, ∑ q : Fin 262144, if Cert.Spec.validR (M n q) (G n q) then 1 else 0)
      ≤ ∑ n : Fin 8, ∑ q : Fin 262144, 1 :=
        Finset.sum_le_sum (fun n _ => Finset.sum_le_sum (fun q _ => by split_ifs <;> omega))
    _ = 2097152 := by
        simp only [Finset.sum_const, Finset.card_univ, Fintype.card_fin, smul_eq_mul]

/-- One plus a count of at most 2097152, in 32-bit arithmetic, read signed, is one plus the count. -/
theorem toInt_one_add (c : ℕ) (hc : c ≤ 2097152) :
    (IntOp.addi 1#32 (BitVec.ofNat 32 c)).toInt = ((1 + c : ℕ) : ℤ) := by
  show (1#32 + BitVec.ofNat 32 c).toInt = _
  have hn : (1#32 + BitVec.ofNat 32 c).toNat = 1 + c := by
    rw [BitVec.toNat_add, BitVec.toNat_ofNat, BitVec.toNat_ofNat]
    omega
  rw [BitVec.toInt_eq_toNat_of_lt (by rw [hn]; omega), hn]

/-- The reference's result is the row form of the result. -/
theorem ref_eq (hsp : ∀ i, (x2 i).toNat < 2048) :
    val_main_v36 (F := Ideal) x0 x1 x2 x3
      = fun _ => Cert.Spec.rResult (Cert.Spec.Xof x0) (Cert.Spec.Gof x1 x2) (Cert.Spec.Mof x3) := by
  funext i
  rw [val_main_v36_apply, val_main_v31_apply, val_main_v35_apply, val_main_v34_apply, val_main_c_9_apply,
    v30_eq x0 x1 x2 x3 hsp, v33_eq x1 x2 x3 hsp]
  show Ideal.div (-(Cert.Spec.rLoss _ _ _)) (((IntOp.addi 1#32 (BitVec.ofNat 32 _)).toInt : ℝ) : EReal) = _
  rw [toInt_one_add _ (rCnt_le _ _), Int.cast_natCast]
  rfl

end Cert.ReferenceIdeal.RefTot

end
-- ==== Proof.MathPix.lean ====
/-
  One pixel. With real logits, marks that are 0 or 1, and a packed word whose bits are the marks, the two forms
  of the pixel's loss term are negatives of each other, and both are real numbers: the softmax weights are
  positive reals, so dividing the weighted sum by the total is the same as summing the divided weights, the
  mass on the marked classes lies in [0, 1], and the logarithm of that mass plus a positive constant is real.
-/
import proofs.«421680_j12128987644159_3_alg».proof.Proof.Spec
import proofs.«421680_j12128987644159_3_alg».proof.Proof.Consts

noncomputable section

open scoped BigOperators

namespace Cert.MathPix

open Idealize.ShloMosaic Cert.Spec

/-- A finite sum of reals, read in the extended reals, is the sum of the readings. -/
theorem coe_sum {ι : Type*} (s : Finset ι) (f : ι → ℝ) :
    (Finset.sum s fun c => ((f c : ℝ) : EReal)) = ((Finset.sum s f : ℝ) : EReal) := by
  classical
  refine Finset.induction_on s ?_ ?_
  · simp
  · intro a s ha ih
    rw [Finset.sum_insert ha, Finset.sum_insert ha, ih, EReal.coe_add]

/-- The running maximum, started at the bottom element, of finitely many reals is a real as soon as there is
    one of them. -/
theorem fold_max_coe {ι : Type*} [DecidableEq ι] (s : Finset ι) (f : ι → ℝ) :
    (s = ∅ ∧ s.fold max (⊥ : EReal) (fun c => ((f c : ℝ) : EReal)) = ⊥) ∨
      ∃ m : ℝ, s.fold max (⊥ : EReal) (fun c => ((f c : ℝ) : EReal)) = (m : EReal) := by
  refine Finset.induction_on s ?_ ?_
  · left; exact ⟨rfl, Finset.fold_empty⟩
  · intro a s ha ih
    right
    rw [Finset.fold_insert ha]
    rcases ih with ⟨_, h⟩ | ⟨m, h⟩
    · exact ⟨f a, by rw [h, max_bot_right]⟩
    · exact ⟨max (f a) m, by rw [h]; exact (EReal.coe_strictMono.monotone.map_max).symm⟩

/-- Multiplying by the literal one changes nothing. -/
theorem mul_one' (y : EReal) : y * one = y := by rw [Cert.Consts.one_eq, mul_one]

/-- Dividing by the literal one changes nothing. -/
theorem div_one' (y : EReal) : Ideal.div y one = y := by
  rw [Cert.Consts.one_eq, ← EReal.coe_one, Ideal.div_coe one_ne_zero]; simp

/-- Both forms' maximum of real logits is one and the same real number. -/
theorem mx_real (x : Fin 19 → ℝ) :
    ∃ m : ℝ, mxK (fun c => ((x c : ℝ) : EReal)) = (m : EReal) ∧ mxR (fun c => ((x c : ℝ) : EReal)) = (m : EReal) := by
  obtain ⟨m, hm⟩ : ∃ m : ℝ, Finset.univ.fold max (⊥ : EReal) (fun c : Fin 19 => ((x c : ℝ) : EReal)) = (m : EReal) := by
    rcases fold_max_coe Finset.univ x with ⟨h, _⟩ | h
    · exact absurd h Finset.univ_nonempty.ne_empty
    · exact h
  refine ⟨m, ?_, ?_⟩
  · simp only [mxK, mul_one']; exact hm
  · simp only [mxR, div_one']; exact hm

/-- The row form's term is a real number `r`, and the packed-word form's term is `-r`. -/
theorem lossK_eq_neg_lossR (xs : Fin 19 → EReal) (hx : ∀ c, ∃ r : ℝ, xs c = (r : EReal))
    (g : Fin 19 → EReal) (hg : ∀ c, g c = 0 ∨ g c = 1) (w : BitVec 32) (mk : BitVec 1)
    (hb : w ≠ 0#32 → ∀ c, bitK w c = g c) (hw : w = 0#32 ↔ ¬ validR mk g) :
    ∃ r : ℝ, lossR xs g mk = (r : EReal) ∧ lossK xs w = ((-r : ℝ) : EReal) := by
  choose x hx' using hx
  obtain rfl : xs = fun c => ((x c : ℝ) : EReal) := funext hx'
  by_cases hw0 : w = 0#32
  · -- a pixel that does not count contributes nothing to either form
    have hnv : ¬ validR mk g := hw.mp hw0
    refine ⟨0, ?_, ?_⟩
    · rw [lossR, if_neg hnv, EReal.coe_zero]
    · rw [lossK, if_pos hw0, neg_zero, EReal.coe_zero]
  · have hv : validR mk g := by
      by_contra h
      exact hw0 (hw.mpr h)
    have hbit := hb hw0
    -- the marks are the reals 0 and 1
    have gb : ∀ c, ∃ b : ℝ, g c = (b : EReal) ∧ 0 ≤ b := by
      intro c
      rcases hg c with h | h
      · exact ⟨0, by rw [h, EReal.coe_zero], le_refl _⟩
      · exact ⟨1, by rw [h, EReal.coe_one], zero_le_one⟩
    choose b hgb hb0 using gb
    obtain ⟨m, hmK, hmR⟩ := mx_real x
    obtain ⟨ε, hε, heps⟩ := Cert.Consts.eps_pos
    -- the softmax weights and their total
    have heK : ∀ c, exK (fun c => ((x c : ℝ) : EReal)) c = ((Real.exp (x c - m) : ℝ) : EReal) := by
      intro c
      simp only [exK, hmK, mul_one']
      rw [← EReal.coe_sub, Ideal.exp_coe]
    have heR : ∀ c, exR (fun c => ((x c : ℝ) : EReal)) c = ((Real.exp (x c - m) : ℝ) : EReal) := by
      intro c
      simp only [exR, hmR, div_one']
      rw [← EReal.coe_sub, Ideal.exp_coe]
    have hS : 0 < Finset.sum Finset.univ fun c : Fin 19 => Real.exp (x c - m) :=
      Finset.sum_pos (fun c _ => Real.exp_pos _) Finset.univ_nonempty
    have hSne : (Finset.sum Finset.univ fun c : Fin 19 => Real.exp (x c - m)) ≠ 0 := hS.ne'
    -- both forms' mass on the marked classes is the same real
    have hpK : posK (fun c => ((x c : ℝ) : EReal)) w
        = (((Finset.sum Finset.univ fun c : Fin 19 => Real.exp (x c - m) * b c)
            * (1 / Finset.sum Finset.univ fun c : Fin 19 => Real.exp (x c - m)) : ℝ) : EReal) := by
      simp only [posK, heK, hbit, hgb, ← EReal.coe_mul, coe_sum]
      rw [Ideal.div_coe hSne, ← EReal.coe_mul]
    have hpR : posR (fun c => ((x c : ℝ) : EReal)) g
        = (((Finset.sum Finset.univ fun c : Fin 19 => Real.exp (x c - m) * b c)
            * (1 / Finset.sum Finset.univ fun c : Fin 19 => Real.exp (x c - m)) : ℝ) : EReal) := by
      simp only [posR, heR, hgb, coe_sum, Ideal.div_coe hSne, ← EReal.coe_mul]
      rw [Finset.sum_mul]
      congr 1
      refine Finset.sum_congr rfl ?_
      intro c _
      ring
    have hp0 : 0 ≤ (Finset.sum Finset.univ fun c : Fin 19 => Real.exp (x c - m) * b c)
            * (1 / Finset.sum Finset.univ fun c : Fin 19 => Real.exp (x c - m)) :=
      mul_nonneg (Finset.sum_nonneg fun c _ => mul_nonneg (Real.exp_pos _).le (hb0 c))
        (div_nonneg zero_le_one hS.le)
    have hpos : ¬ ((Finset.sum Finset.univ fun c : Fin 19 => Real.exp (x c - m) * b c)
            * (1 / Finset.sum Finset.univ fun c : Fin 19 => Real.exp (x c - m)) + ε ≤ 0) := by
      have := add_pos_of_nonneg_of_pos hp0 hε
      exact not_le.mpr this
    refine ⟨Real.log ((Finset.sum Finset.univ fun c : Fin 19 => Real.exp (x c - m) * b c)
            * (1 / Finset.sum Finset.univ fun c : Fin 19 => Real.exp (x c - m)) + ε), ?_, ?_⟩
    · rw [lossR, if_pos hv, hpR, heps, ← EReal.coe_add, Ideal.log_coe, if_neg hpos]
    · rw [lossK, if_neg hw0, hpK, heps, ← EReal.coe_add, Ideal.log_coe, if_neg hpos, zero_sub, EReal.coe_neg]

end Cert.MathPix

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.MathTot.lean ====
/-
  All pixels. Given the one-pixel fact, the two forms of the whole result agree: a sum over the 262144
  positions of an image is the sum over its four tiles of the sums over a tile's 65536 positions; a sum of
  negated reals is the negated sum; and the count of the pixels whose word is not zero, as a real number, is the
  number of valid pixels.
-/
import proofs.«421680_j12128987644159_3_alg».proof.Proof.MathPix
import proofs.«421680_j12128987644159_3_alg».proof.Proof.LibSums
import Mathlib.Data.EReal.Operations
import Mathlib.Algebra.BigOperators.Ring.Finset

noncomputable section

open scoped BigOperators

namespace Cert.MathTot

open Idealize.ShloMosaic Cert.Spec

/-- A finite sum of real numbers, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The positions of an image are those of its four tiles, one tile after the other. -/
theorem sum_tiles {A : Type*} [AddCommMonoid A] (f : Fin 262144 → A) :
    ∑ t : Fin 4, ∑ p : Fin 65536, f (pix t p) = ∑ q : Fin 262144, f q :=
  Cert.LibSums.sum_blocks 4 65536 f

/-- The count term of a pixel is 1 exactly when the pixel is valid. -/
theorem cntK_eq (w : BitVec 32) (mk : BitVec 1) (g : Fin 19 → EReal) {d : Decidable (validR mk g)}
    (hw : w = 0#32 ↔ ¬ validR mk g) :
    cntK w = (((if validR mk g then 1 else 0 : ℕ) : ℝ) : EReal) := by
  unfold cntK
  by_cases h : w = 0#32
  · rw [if_pos h, if_neg (hw.mp h), Nat.cast_zero, EReal.coe_zero]
  · have hv : validR mk g := not_not.mp (fun hn => h (hw.mpr hn))
    rw [if_neg h, if_pos hv, Nat.cast_one, EReal.coe_one]

/-- The packed-word form of the result is the row form. -/
theorem result_eq (X : Fin 8 → Fin 19 → Fin 262144 → EReal) (W : Fin 8 → Fin 262144 → BitVec 32)
    (G : Fin 8 → Fin 262144 → Fin 19 → EReal) (M : Fin 8 → Fin 262144 → BitVec 1)
    (hX : ∀ n c q, ∃ r : ℝ, X n c q = (r : EReal)) (hG : ∀ n q c, G n q c = 0 ∨ G n q c = 1)
    (hbit : ∀ n q, W n q ≠ 0#32 → ∀ c, bitK (W n q) c = G n q c)
    (hW0 : ∀ n q, W n q = 0#32 ↔ ¬ validR (M n q) (G n q)) :
    kResult X W = rResult X G M := by
  -- Per pixel, the row form's term is a real number r n q and the packed-word form's term is its negative.
  have hpix : ∀ n q, ∃ r : ℝ, lossR (fun c => X n c q) (G n q) (M n q) = (r : EReal) ∧
      lossK (fun c => X n c q) (W n q) = ((-r : ℝ) : EReal) := fun n q =>
    Cert.MathPix.lossK_eq_neg_lossR (fun c => X n c q) (fun c => hX n c q) (G n q) (hG n q) (W n q) (M n q)
      (hbit n q) (hW0 n q)
  choose r hr using hpix
  -- The loss: tile by tile is position by position; the sum of the negatives is the negative of the sum.
  have hL : kLoss X W = -(rLoss X G M) := by
    have hk : kLoss X W = ∑ n : Fin 8, ∑ q : Fin 262144, ((-(r n q) : ℝ) : EReal) := by
      unfold kLoss
      refine Finset.sum_congr rfl (fun n _ => ?_)
      rw [sum_tiles (fun q => lossK (fun c => X n c q) (W n q))]
      exact Finset.sum_congr rfl (fun q _ => (hr n q).2)
    have hrl : rLoss X G M = ∑ n : Fin 8, ∑ q : Fin 262144, ((r n q : ℝ) : EReal) := by
      unfold rLoss
      exact Finset.sum_congr rfl (fun n _ => Finset.sum_congr rfl (fun q _ => (hr n q).1))
    have h1 : (∑ n : Fin 8, ∑ q : Fin 262144, ((-(r n q) : ℝ) : EReal))
        = ((∑ n : Fin 8, ∑ q : Fin 262144, -(r n q) : ℝ) : EReal) := by
      rw [coe_sum]
      exact Finset.sum_congr rfl (fun n _ => (coe_sum _ _).symm)
    have h2 : (∑ n : Fin 8, ∑ q : Fin 262144, ((r n q : ℝ) : EReal))
        = ((∑ n : Fin 8, ∑ q : Fin 262144, r n q : ℝ) : EReal) := by
      rw [coe_sum]
      exact Finset.sum_congr rfl (fun n _ => (coe_sum _ _).symm)
    have h3 : (∑ n : Fin 8, ∑ q : Fin 262144, -(r n q) : ℝ) = -(∑ n : Fin 8, ∑ q : Fin 262144, r n q) := by
      rw [← Finset.sum_neg_distrib]
      exact Finset.sum_congr rfl (fun n _ => Finset.sum_neg_distrib _)
    rw [hk, hrl, h1, h2, h3, EReal.coe_neg]
  -- The count: a pixel's word is not zero exactly when the pixel is valid.
  have hC : one + kCnt W = (((1 + rCnt G M : ℕ) : ℝ) : EReal) := by
    have hk : kCnt W = (((rCnt G M : ℕ) : ℝ) : EReal) := by
      unfold kCnt rCnt
      rw [Nat.cast_sum, coe_sum]
      refine Finset.sum_congr rfl (fun n _ => ?_)
      rw [sum_tiles (fun q => cntK (W n q)), Nat.cast_sum, coe_sum]
      exact Finset.sum_congr rfl (fun q _ => cntK_eq (W n q) (M n q) (G n q) (hW0 n q))
    rw [hk, Cert.Consts.one_eq, Nat.cast_add, Nat.cast_one, EReal.coe_add, EReal.coe_one]
  unfold kResult rResult
  rw [hL, hC]

end Cert.MathTot

end
-- ==== Proof.Bits.lean ====
/-
  Nineteen marks, each 0 or 1, packed into one 32-bit word as the sum of `mark c * 2 ^ c`, can be read back:
  bit `c` of the word is mark `c`, and the word is zero exactly when every mark is. Also: converting the
  numbers 0 and 1 to 32-bit integers gives the words 0 and 1.
-/
import proofs.«421680_j12128987644159_3_alg».proof.Proof.Spec
import Mathlib.Algebra.BigOperators.Fin

noncomputable section

namespace Cert.Bits

open Idealize.ShloMosaic
open scoped BigOperators

/-! ## Binary numerals: a sum of `b c * 2 ^ c` with digits `b c ≤ 1` -/

/-- A numeral of `n` binary digits is below `2 ^ n`. -/
theorem sum_lt (n : ℕ) (b : Fin n → ℕ) (hb : ∀ c, b c ≤ 1) : ∑ c : Fin n, b c * 2 ^ c.val < 2 ^ n := by
  induction n with
  | zero => simp
  | succ n ih =>
    rw [Fin.sum_univ_castSucc]
    have h1 := ih (fun c => b c.castSucc) (fun c => hb _)
    have h2 : b (Fin.last n) * 2 ^ n ≤ 1 * 2 ^ n := Nat.mul_le_mul_right _ (hb _)
    simp only [Fin.val_castSucc, Fin.val_last] at *
    rw [pow_succ]
    omega

/-- Bit `j` of a binary numeral is its digit `j`. -/
theorem testBit_sum (n : ℕ) (b : Fin n → ℕ) (hb : ∀ c, b c ≤ 1) (j : Fin n) :
    (∑ c : Fin n, b c * 2 ^ c.val).testBit j.val = decide (b j = 1) := by
  induction n with
  | zero => exact j.elim0
  | succ n ih =>
    rw [Fin.sum_univ_castSucc]
    have h1 := sum_lt n (fun c => b c.castSucc) (fun c => hb _)
    simp only [Fin.val_castSucc, Fin.val_last] at *
    rw [Nat.add_comm, Nat.mul_comm, Nat.testBit_two_pow_mul_add _ h1]
    by_cases hj : j.val < n
    · rw [if_pos hj]
      have := ih (fun c => b c.castSucc) (fun c => hb _) ⟨j.val, hj⟩
      simpa using this
    · have hjn : j = Fin.last n := Fin.ext (by have := j.isLt; simp only [Fin.val_last]; omega)
      subst hjn
      rw [if_neg hj]
      have := hb (Fin.last n)
      simp only [Fin.val_last, Nat.sub_self, Nat.testBit_zero]
      rcases Nat.le_one_iff_eq_zero_or_eq_one.mp this with h | h <;> simp [h]

/-! ## The packed word as a number -/

/-- The number a 32-bit fold of additions denotes: the sum of the terms' numbers, modulo `2 ^ 32`. -/
theorem toNat_fold_addi {ι : Type} [DecidableEq ι] (s : Finset ι) (f : ι → BitVec 32) :
    (s.fold IntOp.addi 0#32 f).toNat = (∑ c ∈ s, (f c).toNat) % 2 ^ 32 := by
  induction s using Finset.induction_on with
  | empty => simp
  | insert a s ha ih =>
    rw [Finset.fold_insert ha, Finset.sum_insert ha, IntOp.addi, BitVec.toNat_add, ih]
    omega

/-- A mark that is 0 or 1, as a number, is at most 1. -/
theorem toNat_le_one {x : BitVec 32} (h : x = 0#32 ∨ x = 1#32) : x.toNat ≤ 1 := by
  rcases h with h | h <;> simp [h]

/-- The term of mark `c` in the packed word is the number `mark c * 2 ^ c`. -/
theorem toNat_term (x : BitVec 32) (h : x = 0#32 ∨ x = 1#32) (c : Fin 19) :
    (IntOp.muli x (1#32 <<< c.val)).toNat = x.toNat * 2 ^ c.val := by
  have hc : (2 : ℕ) ^ c.val < 2 ^ 32 := Nat.pow_lt_pow_right (by decide) (by have := c.isLt; omega)
  rcases h with h | h
  · simp [h, IntOp.muli]
  · subst h
    simp only [IntOp.muli, BitVec.one_mul, BitVec.toNat_shiftLeft, BitVec.toNat_ofNat, Nat.one_mul]
    rw [Nat.shiftLeft_eq, Nat.mod_eq_of_lt (by decide : 1 < 2 ^ 32), Nat.one_mul, Nat.mod_eq_of_lt hc]

/-- The packed word, as a number, is the binary numeral of the marks. -/
theorem toNat_packW (t : Fin 19 → BitVec 32) (ht : ∀ c, t c = 0#32 ∨ t c = 1#32) :
    (Cert.Spec.packW t).toNat = ∑ c : Fin 19, (t c).toNat * 2 ^ c.val := by
  have hlt := sum_lt 19 (fun c => (t c).toNat) (fun c => toNat_le_one (ht c))
  rw [Cert.Spec.packW, toNat_fold_addi]
  rw [Finset.sum_congr rfl (fun c _ => toNat_term (t c) (ht c) c)]
  exact Nat.mod_eq_of_lt (lt_trans hlt (by decide))

/-- Bit `c` of the packed word, isolated by an arithmetic shift right and a mask, is mark `c`. -/
theorem bit_packW (t : Fin 19 → BitVec 32) (ht : ∀ c, t c = 0#32 ∨ t c = 1#32) (c : Fin 19) :
    (Cert.Spec.packW t).sshiftRight c.val &&& 1#32 = t c := by
  have hlt := sum_lt 19 (fun c => (t c).toNat) (fun c => toNat_le_one (ht c))
  have hN := toNat_packW t ht
  have hmsb : (Cert.Spec.packW t).msb = false := by
    rw [BitVec.msb_eq_false_iff_two_mul_lt, hN]
    have : (2 : ℕ) ^ 19 * 2 < 2 ^ 32 := by decide
    omega
  rw [BitVec.sshiftRight_eq_of_msb_false hmsb]
  apply BitVec.eq_of_toNat_eq
  rw [BitVec.toNat_and, BitVec.toNat_ushiftRight, hN]
  have hb := testBit_sum 19 (fun c => (t c).toNat) (fun c => toNat_le_one (ht c)) c
  have h2 := Nat.toNat_testBit (∑ c : Fin 19, (t c).toNat * 2 ^ c.val) c.val
  rw [hb] at h2
  change _ &&& 1 = _
  rw [Nat.and_one_is_mod, Nat.shiftRight_eq_div_pow, ← h2]
  rcases ht c with h | h <;> simp [h]

/-- The packed word is zero exactly when every mark is zero. -/
theorem packW_eq_zero (t : Fin 19 → BitVec 32) (ht : ∀ c, t c = 0#32 ∨ t c = 1#32) :
    Cert.Spec.packW t = 0#32 ↔ ∀ c, t c = 0#32 := by
  constructor
  · intro h c
    have := bit_packW t ht c
    rw [h] at this
    rw [← this]
    simp
  · intro h
    apply BitVec.eq_of_toNat_eq
    rw [toNat_packW t ht]
    simp [h]

/-- The number 0 converts to the word 0. -/
theorem fptosi_zero : Ideal.fptosi 32 (0 : EReal) = 0#32 := by
  rw [← EReal.coe_zero, Ideal.fptosi, Ideal.toIntClamped_coe]
  norm_num

/-- The number 1 converts to the word 1. -/
theorem fptosi_one : Ideal.fptosi 32 (1 : EReal) = 1#32 := by
  rw [← EReal.coe_one, Ideal.fptosi, Ideal.toIntClamped_coe]
  norm_num

end Cert.Bits

end
-- ==== Proof.Pack.lean ====
/-
  The packed word a pixel carries, against the target row gathered for it: where the word is not zero its bits
  are the row's marks, and it is zero exactly when the pixel does not count (mask off, or a row with no mark).
-/
import proofs.«421680_j12128987644159_3_alg».proof.Proof.Spec
import proofs.«421680_j12128987644159_3_alg».proof.Proof.Consts
import proofs.«421680_j12128987644159_3_alg».proof.Proof.Bits

noncomputable section

namespace Cert.Pack

open Idealize.ShloMosaic Idealize.ShloMosaic.ValueIdx Cert.Spec

variable (x0 : SIn.Idx → EReal) (x1 : STg.Idx → EReal) (x2 : SPx.Idx → BitVec 32) (x3 : SPx.Idx → BitVec 1)

/-- A mark that is 0 or 1, converted to an integer word, is the word 0 or the word 1. -/
theorem tof01 (hd : Dom x0 x1 x2) (n : Fin 8) (s : Fin 2048) (c : Fin 19) :
    Tof x1 n s c = 0#32 ∨ Tof x1 n s c = 1#32 := by
  unfold Tof
  rcases hd.tg01 n s c with h | h
  · left; rw [h]; exact Cert.Bits.fptosi_zero
  · right; rw [h]; exact Cert.Bits.fptosi_one

/-- Where the word is not zero, bit `c` of it is mark `c` of the gathered row. -/
theorem hbit (hd : Dom x0 x1 x2) (n : Fin 8) (q : Fin 262144) :
    Wof x1 x2 x3 n q ≠ 0#32 → ∀ c, bitK (Wof x1 x2 x3 n q) c = Gof x1 x2 n q c := by
  intro hW c
  unfold Wof at hW ⊢
  by_cases hm : Mof x3 n q = 1#1
  · rw [if_pos hm]
    unfold bitK
    rw [Cert.Bits.bit_packW _ (tof01 x0 x1 x2 hd n _) c]
    show (((Tof x1 n (rowOf (SPof x2 n q)) c).toInt : ℝ) : EReal)
      = x1 (ix3 n (rowOf (SPof x2 n q)) (colOf c))
    unfold Tof
    rcases hd.tg01 n (rowOf (SPof x2 n q)) c with h | h
    · rw [h, Cert.Bits.fptosi_zero]; simp
    · rw [h, Cert.Bits.fptosi_one]
      have h1 : (1#32).toInt = 1 := by decide
      rw [h1]; simp
  · rw [if_neg hm] at hW; exact absurd rfl hW

/-- The word is zero exactly when the pixel does not count. -/
theorem hW0 (hd : Dom x0 x1 x2) (n : Fin 8) (q : Fin 262144) :
    Wof x1 x2 x3 n q = 0#32 ↔ ¬ validR (Mof x3 n q) (Gof x1 x2 n q) := by
  unfold Wof validR
  by_cases hm : Mof x3 n q = 1#1
  · rw [if_pos hm, Cert.Bits.packW_eq_zero _ (tof01 x0 x1 x2 hd n _)]
    constructor
    · rintro h ⟨_, c, hc⟩
      apply hc
      show x1 (ix3 n (rowOf (SPof x2 n q)) (colOf c)) = 0
      have hc0 := h c
      unfold Tof at hc0
      rcases hd.tg01 n (rowOf (SPof x2 n q)) c with h0 | h1
      · exact h0
      · rw [h1, Cert.Bits.fptosi_one] at hc0
        exact absurd hc0 (by decide)
    · intro h c
      by_contra hc
      apply h
      refine ⟨hm, c, ?_⟩
      intro hg
      apply hc
      have hg0 : x1 (ix3 n (rowOf (SPof x2 n q)) (colOf c)) = 0 := hg
      unfold Tof
      rw [hg0]; exact Cert.Bits.fptosi_zero
  · rw [if_neg hm]
    constructor
    · rintro _ ⟨h, _⟩; exact hm h
    · intro _; rfl

end Cert.Pack

end
-- ==== Proof.PreDecode.lean ====
/-
  What the precondition says, element by element: every logit is finite, every mark that is read is 0 or 1,
  every superpixel id is at least 0 and below 2048.
-/
import proofs.«421680_j12128987644159_3_alg».proof.Pre_finite_inputs
import proofs.«421680_j12128987644159_3_alg».proof.Proof.Gen.Pre_finite_inputs
import proofs.«421680_j12128987644159_3_alg».proof.Proof.Spec
import proofs.«421680_j12128987644159_3_alg».proof.Proof.Consts
import Idealize.ShloMosaic.Lib.ReduceAll
import Idealize.ShloMosaic.Lib.StableHlo.Predicate

noncomputable section

namespace Cert.PreDecode

open Idealize.ShloMosaic Idealize.ShloMosaic.ValueIdx Cert.Spec
open Cert.Pre_finite_inputs

/-- An extended real whose absolute value, max x (-x), lies below the top element is a real number:
    at the top element the maximum is the top element, and at the bottom element its negation is. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" comparison answers 1 exactly when the first number is below the second. -/
theorem cmp_olt_eq_one {x y : EReal} : Ideal.cmp .olt x y = 1#1 ↔ x < y := by
  simp [Ideal.cmp, StableHlo.Predicate.ofBool_eq_one_iff]

/-- The ordered "equal" comparison answers 1 exactly when the two numbers are equal. -/
theorem cmp_oeq_eq_one {x y : EReal} : Ideal.cmp .oeq x y = 1#1 ↔ x = y := by
  simp [Ideal.cmp, StableHlo.Predicate.ofBool_eq_one_iff]

/-- The block of the first 19 columns of the target table, at offsets (0, 0, 0), read at (n, s, c) is the table
    at (n, s, column c): each source coordinate is 0 plus the block's coordinate. -/
theorem slice_read (x1 : STg.Idx → EReal) (hs : S8x2048x20.Slices ![0, 0, 0] S8x2048x19)
    (n : Fin 8) (s : Fin 2048) (c : Fin 19) :
    extractStridedSlice S8x2048x19 ![0, 0, 0] x1 hs (ix3 n s c) = x1 (ix3 n s (colOf c)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- A 32-bit word that is, read signed, at least 0 and below 2048 has an unsigned value below 2048: a signed
    value that is not negative is the unsigned value. -/
theorem toNat_lt_of_cmp (a : BitVec 32) (h1 : IntOp.cmpi .sge a 0#32 = 1#1) (h2 : IntOp.cmpi .slt a 2048#32 = 1#1) :
    a.toNat < 2048 := by
  simp only [IntOp.cmpi, StableHlo.Predicate.ofBool_eq_one_iff, BitVec.sle, BitVec.slt, decide_eq_true_eq] at h1 h2
  have e := BitVec.toInt_eq_toNat_cond a
  have e1 : (2048#32 : BitVec 32).toInt = 2048 := by decide
  have e0 : (0#32 : BitVec 32).toInt = 0 := by decide
  rw [e0] at h1
  rw [e1] at h2
  split_ifs at e <;> omega

/-- The precondition, all ones, gives the three facts about the argument arrays. -/
theorem dom_of_pre [Cert.Pre_finite_inputs.Facts] (x0 : SIn.Idx → EReal) (x1 : STg.Idx → EReal)
    (x2 : SPx.Idx → BitVec 32) (x3 : SPx.Idx → BitVec 1)
    (h : Cert.Pre_finite_inputs.fn (F := Ideal) x0 x1 x2 x3 = fun _ => 1#1) : Dom x0 x1 x2 := by
  -- the scalar shape has one index
  haveI : Subsingleton S_.Idx := ⟨fun a b => funext fun d => d.elim0⟩
  -- the result is a conjunction of four "for all" statements; the second (the target table is finite) is not needed
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  clear h0 h123 h12 h2
  -- each conjunction over a whole array being 1, every element of it is 1
  have a1 := Host.reduce_andi_all _ _ _ _ _ h1
  have a3 := Host.reduce_andi_all _ _ _ _ _ h3
  have a4 := Host.reduce_andi_all _ _ _ _ _ h4
  clear h1 h3 h4
  refine ⟨fun i => ?_, fun n s c => ?_, fun i => ?_⟩
  · -- |x0 i| < +infinity
    have e := a1 i
    change Ideal.cmp .olt (max (x0 i) (-(x0 i))) (Ideal.ofBits .f32 0x7F800000#32) = 1#1 at e
    rw [Cert.Consts.pinf_eq, cmp_olt_eq_one] at e
    exact real_of_abs_lt_top _ e
  · -- the mark at (n, s, c) equals the word of 0.0 or the word of 1.0
    have e := a3 (ix3 n s c)
    change IntOp.ori
      (Ideal.cmp .oeq (extractStridedSlice S8x2048x19 ![0, 0, 0] x1 _ (ix3 n s c)) Cert.Spec.zero)
      (Ideal.cmp .oeq (extractStridedSlice S8x2048x19 ![0, 0, 0] x1 _ (ix3 n s c)) Cert.Spec.one) = 1#1 at e
    rw [slice_read, IntOp.ori_eq_one, cmp_oeq_eq_one, cmp_oeq_eq_one, Cert.Consts.zero_eq, Cert.Consts.one_eq] at e
    exact e
  · -- 0 <= x2 i and x2 i < 2048, read signed
    have e := a4 i
    obtain ⟨e1, e2⟩ := IntOp.andi_eq_one.1 e
    exact toNat_lt_of_cmp _ e1 e2

end Cert.PreDecode

end
-- ==== Proof.lean ====
/-
  The claim: the kernel's program, its idealization and the idealized reference all run and leave their
  arguments unchanged, and the two idealized programs end with the same result.

  The kernel computes, per image, over four tiles of 65536 pixels, two accumulated numbers: the sum of the
  pixels' loss terms and the number of pixels that count; the host adds the eight images' numbers and divides
  the first total by one plus the second. A pixel's marks reach the kernel packed into the low 19 bits of one
  word (zero when the pixel is masked out); bit c of the word is mark c because every mark is 0 or 1. The
  reference gathers the marks as numbers, forms the softmax first and the weighted sum second, and negates at
  the end. Over the extended reals the two agree: with finite logits every softmax weight is a positive real,
  so the quotient of the sums is the sum of the quotients; the logarithm's argument is a positive real; and a
  sum of negated reals is the negated sum. The precondition supplies exactly what this needs: finite logits,
  marks that are 0 or 1, and superpixel ids that name rows of the table.
-/
import proofs.«421680_j12128987644159_3_alg».proof.Defs
import proofs.«421680_j12128987644159_3_alg».proof.Proof.Gen.Kernel
import proofs.«421680_j12128987644159_3_alg».proof.Proof.Gen.Kernel.Frame
import proofs.«421680_j12128987644159_3_alg».proof.Proof.Gen.KernelIdeal
import proofs.«421680_j12128987644159_3_alg».proof.Proof.Gen.KernelIdeal.Frame
import proofs.«421680_j12128987644159_3_alg».proof.Proof.Gen.ReferenceIdeal
import proofs.«421680_j12128987644159_3_alg».proof.Proof.Gen.Pre_finite_inputs
import proofs.«421680_j12128987644159_3_alg».proof.Proof.KernelValue
import proofs.«421680_j12128987644159_3_alg».proof.Proof.RefTot
import proofs.«421680_j12128987644159_3_alg».proof.Proof.MathTot
import proofs.«421680_j12128987644159_3_alg».proof.Proof.Pack
import proofs.«421680_j12128987644159_3_alg».proof.Proof.PreDecode
import Idealize.ShloMosaic.Adequacy
import Idealize.ShloMosaic.Init

noncomputable section

namespace Cert.Proof

open Idealize.ShloMosaic Idealize.ShloMosaic.TcCoe Idealize.SL.Sem

/-- The kernel's program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs, run from memories that agree on the arguments, end with the same result. -/
theorem algebraic : Cert.algebraic_KernelIdeal_ReferenceIdeal := by
  intro m ρ m' ρ' hpre hagree
  -- what the precondition says of the kernel's arguments, core by core
  have hd : ∀ c : Dev Cert.KernelIdeal.nD,
      Cert.Spec.Dom (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) :=
    fun c => Cert.PreDecode.dom_of_pre _ _ _ _ (hpre c)
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  -- the reference's result is the row form of the result, over the kernel's arguments
  have hr := Cert.ReferenceIdeal.ReadP.val_main_v36_eq (F := Ideal) m' c
  rw [(hagree c).1, (hagree c).2.1, (hagree c).2.2.1, (hagree c).2.2.2] at hr
  refine hr.trans ?_
  refine (Cert.ReferenceIdeal.RefTot.ref_eq
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (hd c).spr).trans ?_
  -- the kernel's result is the packed-word form; the two forms agree
  refine Eq.trans ?_ (Cert.KernelIdeal.KValue.res_eq m c (hd c).spr).symm
  funext _
  exact (Cert.MathTot.result_eq _ _ _ _ (fun n cc q => (hd c).fin0 _) (fun n q cc => (hd c).tg01 n _ cc)
    (fun n q => Cert.Pack.hbit _ _ _ _ (hd c) n q) (fun n q => Cert.Pack.hW0 _ _ _ _ (hd c) n q)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
